-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S2097152 : Shape := ⟨1, ![2097152]⟩
abbrev S64x128 : Shape := ⟨2, ![64, 128]⟩
abbrev S128x128 : Shape := ⟨2, ![128, 128]⟩
abbrev S128 : Shape := ⟨1, ![128]⟩
abbrev S_ : Shape := ⟨0, ![]⟩
abbrev S256x8192 : Shape := ⟨2, ![256, 8192]⟩
abbrev S256 : Shape := ⟨1, ![256]⟩
abbrev S256x1 : Shape := ⟨2, ![256, 1]⟩

class Facts : Prop where
  bcast_S_S64x128 : S_.BroadcastsInDim S64x128 (![] : Fin 0 → Fin S64x128.rank)
  reducesTo_S64x128_S_d0_1 : S64x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S131072 : S_.BroadcastsInDim S131072 (![] : Fin 0 → Fin S131072.rank)
  reducesTo_S131072_S_d0 : S131072.ReducesTo [0] S_
  shapeCasts_S2097152_S256x8192 : S2097152.ShapeCasts S256x8192
  bcast_S_S256 : S_.BroadcastsInDim S256 (![] : Fin 0 → Fin S256.rank)
  bcast_S256_S256x1_0 : S256.BroadcastsInDim S256x1 (![0] : Fin 1 → Fin S256x1.rank)
  bcast_S256x1_S256x8192_0_1 : S256x1.BroadcastsInDim S256x8192 (![0, 1] : Fin 2 → Fin S256x8192.rank)
  reducesTo_S256x8192_S_d0_1 : S256x8192.ReducesTo [0, 1] S_
  bcast_S_S256x1 : S_.BroadcastsInDim S256x1 (![] : Fin 0 → Fin S256x1.rank)

variable [Facts]

def fn_part3 {F : FTy → Type} [FloatOps F] (main_arg2 : IVec S2097152 32) (main_v51 : IVec S_ 1) (main_v52 : IVec S256x8192 32) : IVec S_ 1 :=
  let main_v53 : IVec S256 32 := iotaInDim S256 32 0
  let main_c_17 : IVec S_ 32 := constantI S_ 32 512#32
  let main_v54 : IVec S256 32 := broadcastInDim S256 ![] bcast_S_S256 main_c_17
  let main_v55 : IVec S256 32 := muli main_v53 main_v54
  let main_v56 : IVec S256x1 32 := broadcastInDim S256x1 ![0] bcast_S256_S256x1_0 main_v55
  let main_v57 : IVec S256x8192 32 := broadcastInDim S256x8192 ![0, 1] bcast_S256x1_S256x8192_0_1 main_v56
  let main_v58 : IVec S256x8192 1 := cmpi .sge main_v52 main_v57
  let main_c_18 : IVec S_ 1 := constantI S_ 1 1#1
  let main_v59 : IVec S_ 1 := (fun x v => Host.reduce IntOp.andi x v reducesTo_S256x8192_S_d0_1 h_S_) main_v58 main_c_18
  let main_v60 : IVec S_ 1 := andi main_v51 main_v59
  let main_v61 : IVec S256x8192 32 := shapeCast S256x8192 main_arg2 shapeCasts_S2097152_S256x8192
  let main_v62 : IVec S256 32 := iotaInDim S256 32 0
  let main_c_19 : IVec S_ 32 := constantI S_ 32 512#32
  let main_v63 : IVec S256 32 := broadcastInDim S256 ![] bcast_S_S256 main_c_19
  let main_v64 : IVec S256 32 := muli main_v62 main_v63
  let main_v65 : IVec S256x1 32 := broadcastInDim S256x1 ![0] bcast_S256_S256x1_0 main_v64
  let main_c_20 : IVec S_ 32 := constantI S_ 32 512#32
  let main_v66 : IVec S256x1 32 := broadcastInDim S256x1 ![] bcast_S_S256x1 main_c_20
  let main_v67 : IVec S256x1 32 := addi main_v65 main_v66
  let main_v68 : IVec S256x8192 32 := broadcastInDim S256x8192 ![0, 1] bcast_S256x1_S256x8192_0_1 main_v67
  let main_v69 : IVec S256x8192 1 := cmpi .slt main_v61 main_v68
  let main_c_21 : IVec S_ 1 := constantI S_ 1 1#1
  let main_v70 : IVec S_ 1 := (fun x v => Host.reduce IntOp.andi x v reducesTo_S256x8192_S_d0_1 h_S_) main_v69 main_c_21
  let main_v71 : IVec S_ 1 := andi main_v60 main_v70
  main_v71

def fn_part2 {F : FTy → Type} [FloatOps F] (main_arg1 : IVec S2097152 32) (main_arg2 : IVec S2097152 32) (main_v31 : IVec S_ 1) (main_v32 : IVec S256x8192 32) (main_v33 : IVec S256 32) : IVec S_ 1 :=
  let main_c_12 : IVec S_ 32 := constantI S_ 32 512#32
  let main_v34 : IVec S256 32 := broadcastInDim S256 ![] bcast_S_S256 main_c_12
  let main_v35 : IVec S256 32 := muli main_v33 main_v34
  let main_v36 : IVec S256x1 32 := broadcastInDim S256x1 ![0] bcast_S256_S256x1_0 main_v35
  let main_v37 : IVec S256x8192 32 := broadcastInDim S256x8192 ![0, 1] bcast_S256x1_S256x8192_0_1 main_v36
  let main_v38 : IVec S256x8192 1 := cmpi .sge main_v32 main_v37
  let main_c_13 : IVec S_ 1 := constantI S_ 1 1#1
  let main_v39 : IVec S_ 1 := (fun x v => Host.reduce IntOp.andi x v reducesTo_S256x8192_S_d0_1 h_S_) main_v38 main_c_13
  let main_v40 : IVec S_ 1 := andi main_v31 main_v39
  let main_v41 : IVec S256x8192 32 := shapeCast S256x8192 main_arg1 shapeCasts_S2097152_S256x8192
  let main_v42 : IVec S256 32 := iotaInDim S256 32 0
  let main_c_14 : IVec S_ 32 := constantI S_ 32 512#32
  let main_v43 : IVec S256 32 := broadcastInDim S256 ![] bcast_S_S256 main_c_14
  let main_v44 : IVec S256 32 := muli main_v42 main_v43
  let main_v45 : IVec S256x1 32 := broadcastInDim S256x1 ![0] bcast_S256_S256x1_0 main_v44
  let main_c_15 : IVec S_ 32 := constantI S_ 32 512#32
  let main_v46 : IVec S256x1 32 := broadcastInDim S256x1 ![] bcast_S_S256x1 main_c_15
  let main_v47 : IVec S256x1 32 := addi main_v45 main_v46
  let main_v48 : IVec S256x8192 32 := broadcastInDim S256x8192 ![0, 1] bcast_S256x1_S256x8192_0_1 main_v47
  let main_v49 : IVec S256x8192 1 := cmpi .slt main_v41 main_v48
  let main_c_16 : IVec S_ 1 := constantI S_ 1 1#1
  let main_v50 : IVec S_ 1 := (fun x v => Host.reduce IntOp.andi x v reducesTo_S256x8192_S_d0_1 h_S_) main_v49 main_c_16
  let main_v51 : IVec S_ 1 := andi main_v40 main_v50
  let main_v52 : IVec S256x8192 32 := shapeCast S256x8192 main_arg2 shapeCasts_S2097152_S256x8192
  fn_part3 (F := F) main_arg2 main_v51 main_v52

def fn_part1 {F : FTy → Type} [FloatOps F] (main_arg0 : IVec S131072 32) (main_arg1 : IVec S2097152 32) (main_arg2 : IVec S2097152 32) (main_arg7 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S131072 32 := broadcastInDim S131072 ![] bcast_S_S131072 main_c_8
  let main_v25 : IVec S131072 1 := cmpi .sge main_arg0 main_v24
  let main_c_9 : IVec S_ 1 := constantI S_ 1 1#1
  let main_v26 : IVec S_ 1 := (fun x v => Host.reduce IntOp.andi x v reducesTo_S131072_S_d0 h_S_) main_v25 main_c_9
  let main_v27 : IVec S_ 1 := andi main_v23 main_v26
  let main_c_10 : IVec S_ 32 := constantI S_ 32 64#32
  let main_v28 : IVec S131072 32 := broadcastInDim S131072 ![] bcast_S_S131072 main_c_10
  let main_v29 : IVec S131072 1 := cmpi .slt main_arg0 main_v28
  let main_c_11 : IVec S_ 1 := constantI S_ 1 1#1
  let main_v30 : IVec S_ 1 := (fun x v => Host.reduce IntOp.andi x v reducesTo_S131072_S_d0 h_S_) main_v29 main_c_11
  let main_v31 : IVec S_ 1 := andi main_v27 main_v30
  let main_v32 : IVec S256x8192 32 := shapeCast S256x8192 main_arg1 shapeCasts_S2097152_S256x8192
  let main_v33 : IVec S256 32 := iotaInDim S256 32 0
  fn_part2 (F := F) main_arg1 main_arg2 main_v31 main_v32 main_v33

def fn {F : FTy → Type} [FloatOps F] (main_arg0 : IVec S131072 32) (main_arg1 : IVec S2097152 32) (main_arg2 : IVec S2097152 32) (main_arg3 : FVec F S64x128 .f32) (main_arg4 : FVec F S128x128 .f32) (main_arg5 : FVec F S128 .f32) (main_arg6 : FVec F S128x128 .f32) (main_arg7 : FVec F S128 .f32) : IVec S_ 1 :=
  let main_v0 : FVec F S64x128 .f32 := Host.absf main_arg3
  let main_cst : FVec F S_ .f32 := constant S_ .f32 0x7F800000#32
  let main_v1 : FVec F S64x128 .f32 := broadcastInDim S64x128 ![] bcast_S_S64x128 main_cst
  let main_v2 : IVec S64x128 1 := cmpf .olt main_v0 main_v1
  let main_c : IVec S_ 1 := constantI S_ 1 1#1
  let main_v3 : IVec S_ 1 := (fun x v => Host.reduce IntOp.andi x v reducesTo_S64x128_S_d0_1 h_S_) main_v2 main_c
  let main_v4 : FVec F S128x128 .f32 := Host.absf main_arg4
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg5
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg6
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg0 main_arg1 main_arg2 main_arg7 main_v13 main_v16
-- ==== Kernel.lean ====
abbrev S131072 : Shape := ⟨1, ![131072]⟩
abbrev S2097152 : Shape := ⟨1, ![2097152]⟩
abbrev S64x128 : Shape := ⟨2, ![64, 128]⟩
abbrev S128x128 : Shape := ⟨2, ![128, 128]⟩
abbrev S128 : Shape := ⟨1, ![128]⟩
abbrev S_ : Shape := ⟨0, ![]⟩
abbrev S256x1x512 : Shape := ⟨3, ![256, 1, 512]⟩
abbrev S256 : Shape := ⟨1, ![256]⟩
abbrev S256x1 : Shape := ⟨2, ![256, 1]⟩
abbrev S256x8192 : Shape := ⟨2, ![256, 8192]⟩
abbrev S256x1x8192 : Shape := ⟨3, ![256, 1, 8192]⟩
abbrev S256x1x128 : Shape := ⟨3, ![256, 1, 128]⟩
abbrev S1x1x512 : Shape := ⟨3, ![1, 1, 512]⟩
abbrev S1x1x8192 : Shape := ⟨3, ![1, 1, 8192]⟩
abbrev S1x1x128 : Shape := ⟨3, ![1, 1, 128]⟩
abbrev S512 : Shape := ⟨1, ![512]⟩
abbrev S8192 : Shape := ⟨1, ![8192]⟩
abbrev S1x64 : Shape := ⟨2, ![1, 64]⟩
abbrev S512x1 : Shape := ⟨2, ![512, 1]⟩
abbrev S512x64 : Shape := ⟨2, ![512, 64]⟩
abbrev S512x128 : Shape := ⟨2, ![512, 128]⟩
abbrev S1x512 : Shape := ⟨2, ![1, 512]⟩
abbrev S8192x1 : Shape := ⟨2, ![8192, 1]⟩
abbrev S8192x512 : Shape := ⟨2, ![8192, 512]⟩
abbrev S1x8192 : Shape := ⟨2, ![1, 8192]⟩
abbrev S512x8192 : Shape := ⟨2, ![512, 8192]⟩
abbrev S512x512 : Shape := ⟨2, ![512, 512]⟩
abbrev S1x128 : Shape := ⟨2, ![1, 128]⟩
abbrev S256x128 : Shape := ⟨2, ![256, 128]⟩

abbrev nBuf : Space → Nat
  | .hbm => 32
  | .vmem => 13
  | .smem => 0
  | _ => 0

abbrev bufTy : (tb : Table) → Fin (tcTables nBuf tb) → BufTy
  | .hbm, ⟨0, _⟩ => ⟨S131072, .i32⟩
  | .hbm, ⟨1, _⟩ => ⟨S2097152, .i32⟩
  | .hbm, ⟨2, _⟩ => ⟨S2097152, .i32⟩
  | .hbm, ⟨3, _⟩ => ⟨S64x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S131072, .i32⟩
  | .hbm, ⟨12, _⟩ => ⟨S131072, .i32⟩
  | .hbm, ⟨13, _⟩ => ⟨S_, .i32⟩
  | .hbm, ⟨14, _⟩ => ⟨S131072, .i32⟩
  | .hbm, ⟨15, _⟩ => ⟨S131072, .i32⟩
  | .hbm, ⟨16, _⟩ => ⟨S256x1x512, .i32⟩
  | .hbm, ⟨17, _⟩ => ⟨S256, .i32⟩
  | .hbm, ⟨18, _⟩ => ⟨S_, .i32⟩
  | .hbm, ⟨19, _⟩ => ⟨S256, .i32⟩
  | .hbm, ⟨20, _⟩ => ⟨S256, .i32⟩
  | .hbm, ⟨21, _⟩ => ⟨S256x1, .i32⟩
  | .hbm, ⟨22, _⟩ => ⟨S256x8192, .i32⟩
  | .hbm, ⟨23, _⟩ => ⟨S256x8192, .i32⟩
  | .hbm, ⟨24, _⟩ => ⟨S256x8192, .i32⟩
  | .hbm, ⟨25, _⟩ => ⟨S256x1x8192, .i32⟩
  | .hbm, ⟨26, _⟩ => ⟨S256x8192, .i32⟩
  | .hbm, ⟨27, _⟩ => ⟨S256x8192, .i32⟩
  | .hbm, ⟨28, _⟩ => ⟨S256x8192, .i32⟩
  | .hbm, ⟨29, _⟩ => ⟨S256x1x8192, .i32⟩
  | .hbm, ⟨30, _⟩ => ⟨S256x1x128, .f32⟩
  | .hbm, ⟨31, _⟩ => ⟨S256x128, .f32⟩
  | .local _ .vmem, ⟨0, _⟩ => ⟨S1x1x512, .i32⟩
  | .local _ .vmem, ⟨1, _⟩ => ⟨S1x1x512, .i32⟩
  | .local _ .vmem, ⟨2, _⟩ => ⟨S1x1x8192, .i32⟩
  | .local _ .vmem, ⟨3, _⟩ => ⟨S1x1x8192, .i32⟩
  | .local _ .vmem, ⟨4, _⟩ => ⟨S1x1x8192, .i32⟩
  | .local _ .vmem, ⟨5, _⟩ => ⟨S1x1x8192, .i32⟩
  | .local _ .vmem, ⟨6, _⟩ => ⟨S64x128, .f32⟩
  | .local _ .vmem, ⟨7, _⟩ => ⟨S128x128, .f32⟩
  | .local _ .vmem, ⟨8, _⟩ => ⟨S128, .f32⟩
  | .local _ .vmem, ⟨9, _⟩ => ⟨S128x128, .f32⟩
  | .local _ .vmem, ⟨10, _⟩ => ⟨S128, .f32⟩
  | .local _ .vmem, ⟨11, _⟩ => ⟨S1x1x128, .f32⟩
  | .local _ .vmem, ⟨12, _⟩ => ⟨S1x1x128, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_c_1 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![256], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x8192 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S131072 : S_.BroadcastsInDim S131072 (![] : Fin 0 → Fin S131072.rank)
  shapeCasts_S131072_S256x1x512 : S131072.ShapeCasts S256x1x512
  bcast_S_S256 : S_.BroadcastsInDim S256 (![] : Fin 0 → Fin S256.rank)
  bcast_S256_S256x1_0 : S256.BroadcastsInDim S256x1 (![0] : Fin 1 → Fin S256x1.rank)
  shapeCasts_S2097152_S256x8192 : S2097152.ShapeCasts S256x8192
  bcast_S256x1_S256x8192_0_1 : S256x1.BroadcastsInDim S256x8192 (![0, 1] : Fin 2 → Fin S256x8192.rank)
  shapeCasts_S256x8192_S256x1x8192 : S256x8192.ShapeCasts S256x1x8192
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  inb_S1x1x8192_S1x1x8192_0_0_0 : ∀ a, (![0, 0, 0] : Fin 3 → Nat) a + S1x1x8192.size a ≤ S1x1x8192.size a
  h_S1x1x8192 : 0 < S1x1x8192.numel
  shapeCasts_S1x1x8192_S8192 : S1x1x8192.ShapeCasts S8192
  iota_S1x64_d1_w32 : S1x64.Iotas .tc 32 [1]
  shapeCasts_S512_S512x1 : S512.ShapeCasts S512x1
  broadcasts_S512x1_S512x64 : S512x1.Broadcasts S512x64
  broadcasts_S1x64_S512x64 : S1x64.Broadcasts S512x64
  natLt_1_32 : 1 < 32
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  iota_S1x512_d1_w32 : S1x512.Iotas .tc 32 [1]
  shapeCasts_S8192_S8192x1 : S8192.ShapeCasts S8192x1
  broadcasts_S8192x1_S8192x512 : S8192x1.Broadcasts S8192x512
  broadcasts_S1x512_S8192x512 : S1x512.Broadcasts S8192x512
  iota_S512x1_d0_w32 : S512x1.Iotas .tc 32 [0]
  shapeCasts_S8192_S1x8192 : S8192.ShapeCasts S1x8192
  broadcasts_S512x1_S512x8192 : S512x1.Broadcasts S512x8192
  broadcasts_S1x8192_S512x8192 : S1x8192.Broadcasts S512x8192
  reduces_S512x512_S512 : S512x512.Reduces [1] S512
  reduces_S512x512_S512_2 : S512x512.Reduces [0] S512
  broadcasts_S512x1_S512x128 : S512x1.Broadcasts S512x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S512x128 : S1x128.Broadcasts S512x128
  reduces_S512x128_S128 : S512x128.Reduces [0] S128
  inb_S1x1x128_S1x1x128_0_0_0 : ∀ a, (![0, 0, 0] : Fin 3 → Nat) a + S1x1x128.size a ≤ S1x1x128.size a
  h_S1x1x128 : 0 < S1x1x128.numel
  shapeCasts_S1x1x128_S128 : S1x1x128.ShapeCasts S128
  shapeCasts_S128_S1x1x128 : S128.ShapeCasts S1x1x128
  shapeCasts_S256x1x128_S256x128 : S256x1x128.ShapeCasts S256x128
  dot_S512x64_S64x128_S512x128_1_0_0_1_n_n_wf : DotDims.WF S512x64 S64x128 S512x128 [1] [0] [0] [1] [] []
  dot_S512x8192_S8192x512_S512x512_1_0_0_1_n_n_wf : DotDims.WF S512x8192 S8192x512 S512x512 [1] [0] [0] [1] [] []
  dot_S512x512_S512x128_S512x128_1_0_0_1_n_n_wf : DotDims.WF S512x512 S512x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S256x1x512.size a
  hwx0_0 : ∀ i : grid0.Coords, EltTy.bits .i32 = 32 ∨ (Rect.block (s := S256x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x8192.size a ≤ S256x1x8192.size a
  hwx0_1 : ∀ i : grid0.Coords, EltTy.bits .i32 = 32 ∨ (Rect.block (s := S256x1x8192) S1x1x8192.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x8192.size a ≤ S256x1x8192.size a
  hwx0_2 : ∀ i : grid0.Coords, EltTy.bits .i32 = 32 ∨ (Rect.block (s := S256x1x8192) S1x1x8192.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x128.size a ≤ S256x1x128.size a
  hwx0_8 : ∀ i : grid0.Coords, EltTy.bits .f32 = 32 ∨ (Rect.block (s := S256x1x128) S1x1x128.size (cc0_transform_8 i) (hinb0_8 i)).WholeWords (EltTy.packing .f32)

variable [Facts₀]

def dot_S512x64_S64x128_S512x128_1_0_0_1_n_n : DotDims S512x64 S64x128 S512x128 where
  lhsContracting := [1]
  rhsContracting := [0]
  lhsNonContracting := [0]
  rhsNonContracting := [1]
  lhsBatch := []
  rhsBatch := []
  wf := dot_S512x64_S64x128_S512x128_1_0_0_1_n_n_wf
def dot_S512x8192_S8192x512_S512x512_1_0_0_1_n_n : DotDims S512x8192 S8192x512 S512x512 where
  lhsContracting := [1]
  rhsContracting := [0]
  lhsNonContracting := [0]
  rhsNonContracting := [1]
  lhsBatch := []
  rhsBatch := []
  wf := dot_S512x8192_S8192x512_S512x512_1_0_0_1_n_n_wf
def dot_S512x512_S512x128_S512x128_1_0_0_1_n_n : DotDims S512x512 S512x128 S512x128 where
  lhsContracting := [1]
  rhsContracting := [0]
  lhsNonContracting := [0]
  rhsNonContracting := [1]
  lhsBatch := []
  rhsBatch := []
  wf := dot_S512x512_S512x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v1) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1x1x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v14) S1x1x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072 : Shape := ⟨1, ![131072]⟩
abbrev S2097152 : Shape := ⟨1, ![2097152]⟩
abbrev S64x128 : Shape := ⟨2, ![64, 128]⟩
abbrev S128x128 : Shape := ⟨2, ![128, 128]⟩
abbrev S128 : Shape := ⟨1, ![128]⟩
abbrev S_ : Shape := ⟨0, ![]⟩
abbrev S2097152x1 : Shape := ⟨2, ![2097152, 1]⟩
abbrev S131072x1 : Shape := ⟨2, ![131072, 1]⟩
abbrev S131072x128 : Shape := ⟨2, ![131072, 128]⟩
abbrev S2097152x128 : Shape := ⟨2, ![2097152, 128]⟩
abbrev S1x128 : Shape := ⟨2, ![1, 128]⟩
abbrev S256x128 : Shape := ⟨2, ![256, 128]⟩

abbrev nBuf : Space → Nat
  | .hbm => 115
  | .vmem => 0
  | .smem => 0
  | _ => 0

abbrev bufTy : (tb : Table) → Fin (tcTables nBuf tb) → BufTy
  | .hbm, ⟨0, _⟩ => ⟨S131072, .i32⟩
  | .hbm, ⟨1, _⟩ => ⟨S2097152, .i32⟩
  | .hbm, ⟨2, _⟩ => ⟨S2097152, .i32⟩
  | .hbm, ⟨3, _⟩ => ⟨S64x128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .f32⟩
  | .hbm, ⟨9, _⟩ => ⟨S2097152, .f32⟩
  | .hbm, ⟨10, _⟩ => ⟨S_, .f32⟩
  | .hbm, ⟨11, _⟩ => ⟨S131072, .f32⟩
  | .hbm, ⟨12, _⟩ => ⟨S2097152x1, .i32⟩
  | .hbm, ⟨13, _⟩ => ⟨S131072, .f32⟩
  | .hbm, ⟨14, _⟩ => ⟨S_, .f32⟩
  | .hbm, ⟨15, _⟩ => ⟨S_, .f32⟩
  | .hbm, ⟨16, _⟩ => ⟨S131072, .f32⟩
  | .hbm, ⟨17, _⟩ => ⟨S131072, .f32⟩
  | .hbm, ⟨18, _⟩ => ⟨S_, .f32⟩
  | .hbm, ⟨19, _⟩ => ⟨S131072, .f32⟩
  | .hbm, ⟨20, _⟩ => ⟨S2097152x1, .i32⟩
  | .hbm, ⟨21, _⟩ => ⟨S131072, .f32⟩
  | .hbm, ⟨22, _⟩ => ⟨S_, .f32⟩
  | .hbm, ⟨23, _⟩ => ⟨S_, .f32⟩
  | .hbm, ⟨24, _⟩ => ⟨S131072, .f32⟩
  | .hbm, ⟨25, _⟩ => ⟨S131072, .f32⟩
  | .hbm, ⟨26, _⟩ => ⟨S131072, .f32⟩
  | .hbm, ⟨27, _⟩ => ⟨S131072, .f32⟩
  | .hbm, ⟨28, _⟩ => ⟨S_, .i32⟩
  | .hbm, ⟨29, _⟩ => ⟨S131072, .i32⟩
  | .hbm, ⟨30, _⟩ => ⟨S131072, .i1⟩
  | .hbm, ⟨31, _⟩ => ⟨S_, .i32⟩
  | .hbm, ⟨32, _⟩ => ⟨S131072, .i32⟩
  | .hbm, ⟨33, _⟩ => ⟨S131072, .i32⟩
  | .hbm, ⟨34, _⟩ => ⟨S131072, .i32⟩
  | .hbm, ⟨35, _⟩ => ⟨S131072x1, .i32⟩
  | .hbm, ⟨36, _⟩ => ⟨S131072x128, .f32⟩
  | .hbm, ⟨37, _⟩ => ⟨S131072x1, .f32⟩
  | .hbm, ⟨38, _⟩ => ⟨S131072x128, .f32⟩
  | .hbm, ⟨39, _⟩ => ⟨S131072x128, .f32⟩
  | .hbm, ⟨40, _⟩ => ⟨S_, .i32⟩
  | .hbm, ⟨41, _⟩ => ⟨S2097152, .i32⟩
  | .hbm, ⟨42, _⟩ => ⟨S2097152, .i1⟩
  | .hbm, ⟨43, _⟩ => ⟨S_, .i32⟩
  | .hbm, ⟨44, _⟩ => ⟨S2097152, .i32⟩
  | .hbm, ⟨45, _⟩ => ⟨S2097152, .i32⟩
  | .hbm, ⟨46, _⟩ => ⟨S2097152, .i32⟩
  | .hbm, ⟨47, _⟩ => ⟨S2097152x1, .i32⟩
  | .hbm, ⟨48, _⟩ => ⟨S2097152x128, .f32⟩
  | .hbm, ⟨49, _⟩ => ⟨S_, .f32⟩
  | .hbm, ⟨50, _⟩ => ⟨S131072x128, .f32⟩
  | .hbm, ⟨51, _⟩ => ⟨S2097152x1, .i32⟩
  | .hbm, ⟨52, _⟩ => ⟨S131072x128, .f32⟩
  | .hbm, ⟨53, _⟩ => ⟨S131072x1, .f32⟩
  | .hbm, ⟨54, _⟩ => ⟨S131072x128, .f32⟩
  | .hbm, ⟨55, _⟩ => ⟨S131072x128, .f32⟩
  | .hbm, ⟨56, _⟩ => ⟨S131072x128, .f32⟩
  | .hbm, ⟨57, _⟩ => ⟨S1x128, .f32⟩
  | .hbm, ⟨58, _⟩ => ⟨S131072x128, .f32⟩
  | .hbm, ⟨59, _⟩ => ⟨S131072x128, .f32⟩
  | .hbm, ⟨60, _⟩ => ⟨S_, .f32⟩
  | .hbm, ⟨61, _⟩ => ⟨S131072x128, .f32⟩
  | .hbm, ⟨62, _⟩ => ⟨S131072x128, .f32⟩
  | .hbm, ⟨63, _⟩ => ⟨S131072x1, .f32⟩
  | .hbm, ⟨64, _⟩ => ⟨S131072x128, .f32⟩
  | .hbm, ⟨65, _⟩ => ⟨S131072x128, .f32⟩
  | .hbm, ⟨66, _⟩ => ⟨S_, .i32⟩
  | .hbm, ⟨67, _⟩ => ⟨S2097152, .i32⟩
  | .hbm, ⟨68, _⟩ => ⟨S2097152, .i1⟩
  | .hbm, ⟨69, _⟩ => ⟨S_, .i32⟩
  | .hbm, ⟨70, _⟩ => ⟨S2097152, .i32⟩
  | .hbm, ⟨71, _⟩ => ⟨S2097152, .i32⟩
  | .hbm, ⟨72, _⟩ => ⟨S2097152, .i32⟩
  | .hbm, ⟨73, _⟩ => ⟨S2097152x1, .i32⟩
  | .hbm, ⟨74, _⟩ => ⟨S2097152x128, .f32⟩
  | .hbm, ⟨75, _⟩ => ⟨S_, .f32⟩
  | .hbm, ⟨76, _⟩ => ⟨S131072x128, .f32⟩
  | .hbm, ⟨77, _⟩ => ⟨S2097152x1, .i32⟩
  | .hbm, ⟨78, _⟩ => ⟨S131072x128, .f32⟩
  | .hbm, ⟨79, _⟩ => ⟨S131072x1, .f32⟩
  | .hbm, ⟨80, _⟩ => ⟨S131072x128, .f32⟩
  | .hbm, ⟨81, _⟩ => ⟨S131072x128, .f32⟩
  | .hbm, ⟨82, _⟩ => ⟨S131072x128, .f32⟩
  | .hbm, ⟨83, _⟩ => ⟨S1x128, .f32⟩
  | .hbm, ⟨84, _⟩ => ⟨S131072x128, .f32⟩
  | .hbm, ⟨85, _⟩ => ⟨S131072x128, .f32⟩
  | .hbm, ⟨86, _⟩ => ⟨S_, .f32⟩
  | .hbm, ⟨87, _⟩ => ⟨S131072x128, .f32⟩
  | .hbm, ⟨88, _⟩ => ⟨S131072x128, .f32⟩
  | .hbm, ⟨89, _⟩ => ⟨S131072, .i32⟩
  | .hbm, ⟨90, _⟩ => ⟨S_, .i32⟩
  | .hbm, ⟨91, _⟩ => ⟨S_, .i32⟩
  | .hbm, ⟨92, _⟩ => ⟨S131072, .i32⟩
  | .hbm, ⟨93, _⟩ => ⟨S131072, .i32⟩
  | .hbm, ⟨94, _⟩ => ⟨S131072, .i32⟩
  | .hbm, ⟨95, _⟩ => ⟨S_, .i32⟩
  | .hbm, ⟨96, _⟩ => ⟨S131072, .i32⟩
  | .hbm, ⟨97, _⟩ => ⟨S131072, .i1⟩
  | .hbm, ⟨98, _⟩ => ⟨S131072, .i32⟩
  | .hbm, ⟨99, _⟩ => ⟨S131072, .i32⟩
  | .hbm, ⟨100, _⟩ => ⟨S_, .i32⟩
  | .hbm, ⟨101, _⟩ => ⟨S131072, .i32⟩
  | .hbm, ⟨102, _⟩ => ⟨S131072, .i1⟩
  | .hbm, ⟨103, _⟩ => ⟨S131072, .i1⟩
  | .hbm, ⟨104, _⟩ => ⟨S_, .i32⟩
  | .hbm, ⟨105, _⟩ => ⟨S131072, .i32⟩
  | .hbm, ⟨106, _⟩ => ⟨S131072, .i32⟩
  | .hbm, ⟨107, _⟩ => ⟨S131072, .i32⟩
  | .hbm, ⟨108, _⟩ => ⟨S_, .f32⟩
  | .hbm, ⟨109, _⟩ => ⟨S256x128, .f32⟩
  | .hbm, ⟨110, _⟩ => ⟨S131072x1, .i32⟩
  | .hbm, ⟨111, _⟩ => ⟨S256x128, .f32⟩
  | .hbm, ⟨112, _⟩ => ⟨S_, .f32⟩
  | .hbm, ⟨113, _⟩ => ⟨S256x128, .f32⟩
  | .hbm, ⟨114, _⟩ => ⟨S256x128, .f32⟩
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_call0_v0 : Ref sig .tc := ⟨.hbm, 15, rfl⟩
abbrev main_call0_v1 : Ref sig .tc := ⟨.hbm, 16, rfl⟩
abbrev main_v4 : Ref sig .tc := ⟨.hbm, 17, rfl⟩
abbrev main_cst_2 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_3 : Ref sig .tc := ⟨.hbm, 22, rfl⟩
abbrev main_call1_v0 : Ref sig .tc := ⟨.hbm, 23, rfl⟩
abbrev main_call1_v1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_c_5 : Ref sig .tc := ⟨.hbm, 40, rfl⟩
abbrev main_v21 : Ref sig .tc := ⟨.hbm, 41, rfl⟩
abbrev main_v22 : Ref sig .tc := ⟨.hbm, 42, rfl⟩
abbrev main_c_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_cst_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_call2_cst : Ref sig .tc := ⟨.hbm, 60, rfl⟩
abbrev main_call2_v0 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_c_9 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_call3_cst : Ref sig .tc := ⟨.hbm, 86, rfl⟩
abbrev main_call3_v0 : Ref sig .tc := ⟨.hbm, 87, rfl⟩
abbrev main_v59 : Ref sig .tc := ⟨.hbm, 88, rfl⟩
abbrev main_v60 : Ref sig .tc := ⟨.hbm, 89, rfl⟩
abbrev main_c_11 : Ref sig .tc := ⟨.hbm, 90, rfl⟩
abbrev main_call4_v0 : Ref sig .tc := ⟨.hbm, 91, rfl⟩
abbrev main_call4_v1 : Ref sig .tc := ⟨.hbm, 92, rfl⟩
abbrev main_call4_v2 : Ref sig .tc := ⟨.hbm, 93, rfl⟩
abbrev main_call4_v3 : Ref sig .tc := ⟨.hbm, 94, rfl⟩
abbrev main_call4_v4 : Ref sig .tc := ⟨.hbm, 95, rfl⟩
abbrev main_call4_v5 : Ref sig .tc := ⟨.hbm, 96, rfl⟩
abbrev main_call4_v6 : Ref sig .tc := ⟨.hbm, 97, rfl⟩
abbrev main_call4_v7 : Ref sig .tc := ⟨.hbm, 98, rfl⟩
abbrev main_call4_v8 : Ref sig .tc := ⟨.hbm, 99, rfl⟩
abbrev main_call4_c : Ref sig .tc := ⟨.hbm, 100, rfl⟩
abbrev main_call4_v9 : Ref sig .tc := ⟨.hbm, 101, rfl⟩
abbrev main_call4_v10 : Ref sig .tc := ⟨.hbm, 102, rfl⟩
abbrev main_call4_v11 : Ref sig .tc := ⟨.hbm, 103, rfl⟩
abbrev main_call4_c_0 : Ref sig .tc := ⟨.hbm, 104, rfl⟩
abbrev main_call4_v12 : Ref sig .tc := ⟨.hbm, 105, rfl⟩
abbrev main_call4_v13 : Ref sig .tc := ⟨.hbm, 106, rfl⟩
abbrev main_v61 : Ref sig .tc := ⟨.hbm, 107, rfl⟩
abbrev main_cst_12 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_cst_13 : Ref sig .tc := ⟨.hbm, 112, rfl⟩
abbrev main_v65 : Ref sig .tc := ⟨.hbm, 113, rfl⟩
abbrev main_v66 : Ref sig .tc := ⟨.hbm, 114, rfl⟩

abbrev nD : Nat := 1
abbrev τ : Topo := Topo.v7x

variable {F : FTy → Type} [FloatOps F]

class Facts₀ : Prop where
  bcast_S_S2097152 : S_.BroadcastsInDim S2097152 (![] : Fin 0 → Fin S2097152.rank)
  bcast_S_S131072 : S_.BroadcastsInDim S131072 (![] : Fin 0 → Fin S131072.rank)
  bcast_S2097152_S2097152x1_0 : S2097152.BroadcastsInDim S2097152x1 (![0] : Fin 1 → Fin S2097152x1.rank)
  bcast_S131072_S131072x1_0 : S131072.BroadcastsInDim S131072x1 (![0] : Fin 1 → Fin S131072x1.rank)
  bcast_S131072x1_S131072x128_0_1 : S131072x1.BroadcastsInDim S131072x128 (![0, 1] : Fin 2 → Fin S131072x128.rank)
  bcast_S_S131072x128 : S_.BroadcastsInDim S131072x128 (![] : Fin 0 → Fin S131072x128.rank)
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S256x128 : S_.BroadcastsInDim S256x128 (![] : Fin 0 → Fin S256x128.rank)
  scatter_S131072_S2097152x1_S2097152_n_0_0_1_wf : ScatterDims.WF S131072 S2097152x1 S2097152 [] [0] [0] 1
  gather_S64x128_S131072x1_S131072x128_1_0_n_n_0_1_1128_wf : GatherDims.WF S64x128 S131072x1 S131072x128 [1] [0] [] [0] [] 1 ![1, 128]
  gather_S131072x128_S2097152x1_S2097152x128_1_0_n_n_0_1_1128_wf : GatherDims.WF S131072x128 S2097152x1 S2097152x128 [1] [0] [] [0] [] 1 ![1, 128]
  scatter_S131072x128_S2097152x1_S2097152x128_1_0_0_1_wf : ScatterDims.WF S131072x128 S2097152x1 S2097152x128 [1] [0] [0] 1
  dot_S131072x128_S128x128_S131072x128_1_0_0_1_n_n_wf : DotDims.WF S131072x128 S128x128 S131072x128 [1] [0] [0] [1] [] []
  scatter_S256x128_S131072x1_S131072x128_1_0_0_1_wf : ScatterDims.WF S256x128 S131072x1 S131072x128 [1] [0] [0] 1

variable [Facts₀]

def scatter_S131072_S2097152x1_S2097152_n_0_0_1 : ScatterDims S131072 S2097152x1 S2097152 where
  updateWindowDims := []
  insertedWindowDims := [0]
  scatterDimsToOperandDims := [0]
  indexVectorDim := 1
  wf := scatter_S131072_S2097152x1_S2097152_n_0_0_1_wf
def gather_S64x128_S131072x1_S131072x128_1_0_n_n_0_1_1128 : GatherDims S64x128 S131072x1 S131072x128 where
  offsetDims := [1]
  collapsedSliceDims := [0]
  operandBatchingDims := []
  startIndicesBatchingDims := []
  startIndexMap := [0]
  indexVectorDim := 1
  sliceSizes := ![1, 128]
  wf := gather_S64x128_S131072x1_S131072x128_1_0_n_n_0_1_1128_wf
def gather_S131072x128_S2097152x1_S2097152x128_1_0_n_n_0_1_1128 : GatherDims S131072x128 S2097152x1 S2097152x128 where
  offsetDims := [1]
  collapsedSliceDims := [0]
  operandBatchingDims := []
  startIndicesBatchingDims := []
  startIndexMap := [0]
  indexVectorDim := 1
  sliceSizes := ![1, 128]
  wf := gather_S131072x128_S2097152x1_S2097152x128_1_0_n_n_0_1_1128_wf
def scatter_S131072x128_S2097152x1_S2097152x128_1_0_0_1 : ScatterDims S131072x128 S2097152x1 S2097152x128 where
  updateWindowDims := [1]
  insertedWindowDims := [0]
  scatterDimsToOperandDims := [0]
  indexVectorDim := 1
  wf := scatter_S131072x128_S2097152x1_S2097152x128_1_0_0_1_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def scatter_S256x128_S131072x1_S131072x128_1_0_0_1 : ScatterDims S256x128 S131072x1 S131072x128 where
  updateWindowDims := [1]
  insertedWindowDims := [0]
  scatterDimsToOperandDims := [0]
  indexVectorDim := 1
  wf := scatter_S256x128_S131072x1_S131072x128_1_0_0_1_wf

class Facts : Prop extends Facts₀ where

variable [Facts]
-- ==== Proof.Spec.lean ====
/-
  The two readings of a batch of 256 graphs, 512 nodes and 8192 edges each, through two graph-convolution layers
  and a mean over each graph's nodes, as functions of the argument arrays over the extended reals.

  The batch is laid out graph after graph: node `v` belongs to graph `v / 512`, edge slot `k` to graph `k / 8192`.
  `GK` is the per-graph reading: for graph `g` an adjacency count matrix `adj i j` (the number of the graph's edges from
  local node `j` to local node `i`, found by comparing the edge ends, taken relative to the graph's first node, with
  `0 … 511`), its row and column sums as the in- and out-degrees, and each layer
  `relu ((adj · (h · out_isqrt)) · in_isqrt · W + b)`.
  `GR` is the whole-batch reading: degrees by counting edge ends over ALL edge slots, each layer a gather of the
  source rows followed by a sum into the destination rows, the mean a sum over the nodes whose graph is `g`.
  The two agree when every edge of graph `g` has both ends among that graph's nodes and every node type is in
  `[0, 64)` (`NfRange`, `EdgeRange`).
-/
import Idealize.ShloMosaic.PureOps.Ideal
import Idealize.ShloMosaic.Lib.ValueIdx

noncomputable section

namespace Cert.GraphConv

open Idealize.ShloMosaic Idealize.ShloMosaic.ValueIdx

abbrev NodeVec := IVec (⟨1, ![131072]⟩ : Shape) 32
abbrev EdgeVec := IVec (⟨1, ![2097152]⟩ : Shape) 32
abbrev Emb := FVec Ideal (⟨2, ![64, 128]⟩ : Shape) .f32
abbrev Wt := FVec Ideal (⟨2, ![128, 128]⟩ : Shape) .f32
abbrev Bias := FVec Ideal (⟨1, ![128]⟩ : Shape) .f32
abbrev Out := FVec Ideal (⟨2, ![256, 128]⟩ : Shape) .f32

/-- Local node `i` of graph `g` among all nodes. -/
def nodeOf (g : Fin 256) (i : Fin 512) : Fin 131072 := ⟨g.val * 512 + i.val, by omega⟩
/-- Edge slot `e` of graph `g` among all edge slots. -/
def edgeOf (g : Fin 256) (e : Fin 8192) : Fin 2097152 := ⟨g.val * 8192 + e.val, by omega⟩

/-- Every node type is in `[0, 64)`. -/
def NfRange (nf : NodeVec) : Prop :=
  ∀ v : Fin 131072, 0 ≤ (nf (ix1 v)).toInt ∧ (nf (ix1 v)).toInt < 64
/-- Every edge end stored in a slot of graph `g` is one of graph `g`'s nodes. -/
def EdgeRange (x : EdgeVec) : Prop :=
  ∀ (g : Fin 256) (e : Fin 8192),
    ((g.val * 512 : ℕ) : ℤ) ≤ (x (ix1 (edgeOf g e))).toInt ∧ (x (ix1 (edgeOf g e))).toInt < ((g.val * 512 + 512 : ℕ) : ℤ)

/-- A truth value as the extended real 1 or 0. -/
def ind (p : Prop) [Decidable p] : EReal := if p then 1 else 0

/-- The float 1.0. -/
abbrev one : EReal := Ideal.ofBits .f32 0x3F800000#32

/-! ## One graph, from its local arrays -/

section Graph

variable (nfl : Fin 512 → BitVec 32) (sl dl : Fin 8192 → BitVec 32)

/-- The embedding row of each node, picked by comparing its type with `0 … 63`. -/
def h0 (emb : Emb) (i : Fin 512) (d : Fin 128) : EReal :=
  ∑ t : Fin 64, ind (nfl i = BitVec.ofNat 32 t.val) * emb (ix2 t d)

/-- How many edges go from local node `j` to local node `i`. -/
def adj (i j : Fin 512) : EReal :=
  ∑ e : Fin 8192, ind (BitVec.ofNat 32 i.val = dl e) * ind (sl e = BitVec.ofNat 32 j.val)

def degOut (j : Fin 512) : EReal := ∑ i : Fin 512, adj sl dl i j
def degIn (i : Fin 512) : EReal := ∑ j : Fin 512, adj sl dl i j
def outIsqrt (j : Fin 512) : EReal := Ideal.rsqrt (max (degOut sl dl j) one)
def inIsqrt (i : Fin 512) : EReal := Ideal.rsqrt (max (degIn sl dl i) one)

end Graph

/-- One layer over ANY adjacency matrix and degree scalings. -/
def layerG (A : Fin 512 → Fin 512 → EReal) (oi ii : Fin 512 → EReal) (h : Fin 512 → Fin 128 → EReal) (W : Wt) (b : Bias)
    (i : Fin 512) (d : Fin 128) : EReal :=
  max ((∑ c : Fin 128, ((∑ j : Fin 512, A i j * (h j c * oi j)) * ii i) * W (ix2 c d)) + b (ix1 d)) 0

/-- Two layers and the scaled sum over the graph's nodes. -/
def graphOutG (A : Fin 512 → Fin 512 → EReal) (oi ii : Fin 512 → EReal) (h : Fin 512 → Fin 128 → EReal)
    (W1 : Wt) (b1 : Bias) (W2 : Wt) (b2 : Bias) (d : Fin 128) : EReal :=
  (∑ i : Fin 512, layerG A oi ii (layerG A oi ii h W1 b1) W2 b2 i d) * Ideal.ofBits .f32 0x3B000000#32

/-- One graph's row of the result, from its local arrays. -/
def graphOut (nfl : Fin 512 → BitVec 32) (sl dl : Fin 8192 → BitVec 32) (emb : Emb) (W1 : Wt) (b1 : Bias) (W2 : Wt) (b2 : Bias)
    (d : Fin 128) : EReal :=
  graphOutG (adj sl dl) (outIsqrt sl dl) (inIsqrt sl dl) (h0 nfl emb) W1 b1 W2 b2 d

/-- Graph `g`'s node types. -/
def nfLoc (nf : NodeVec) (g : Fin 256) (i : Fin 512) : BitVec 32 := nf (ix1 (nodeOf g i))
/-- Graph `g`'s edge ends relative to its first node (a word difference: no range is assumed). -/
def endLoc (x : EdgeVec) (g : Fin 256) (e : Fin 8192) : BitVec 32 := x (ix1 (edgeOf g e)) - BitVec.ofNat 32 (g.val * 512)

/-- THE PER-GRAPH READING. -/
def GK (nf : NodeVec) (src dst : EdgeVec) (emb : Emb) (W1 : Wt) (b1 : Bias) (W2 : Wt) (b2 : Bias) : Out := fun i =>
  graphOut (nfLoc nf ⟨(i 0).val, idx2_lt0 i⟩) (endLoc src ⟨(i 0).val, idx2_lt0 i⟩) (endLoc dst ⟨(i 0).val, idx2_lt0 i⟩)
    emb W1 b1 W2 b2 ⟨(i 1).val, idx2_lt1 i⟩

/-! ## The whole batch -/

/-- A row number as numpy reads it: a negative one counts from the end. -/
def wrapIdx (n w : BitVec 32) : BitVec 32 := if w.toInt < 0 then w + n else w

/-- The row a gather reads: the number read signed, clamped into `[0, N - 1]`. -/
def rowOf (N : Nat) (hN : 0 < N) (w : BitVec 32) : Fin N := ⟨min w.toInt.toNat (N - 1), by omega⟩

section Batch

variable (nf : NodeVec) (src dst : EdgeVec)

def rH0 (emb : Emb) (v : Fin 131072) (d : Fin 128) : EReal :=
  emb (ix2 (rowOf 64 (by decide) (wrapIdx 64#32 (nf (ix1 v)))) d)

/-- How many edge slots name node `v` in `x`. -/
def rDeg (x : EdgeVec) (v : Fin 131072) : EReal :=
  ∑ k : Fin 2097152, if (x (ix1 k)).toInt = (v.val : ℤ) then one else 0

def rIsqrt (x : EdgeVec) (v : Fin 131072) : EReal := Ideal.rsqrt (max one (rDeg x v))

/-- The node an edge slot's source names. -/
def srcRow (k : Fin 2097152) : Fin 131072 := rowOf 131072 (by decide) (wrapIdx 131072#32 (src (ix1 k)))

def rLayer (h : Fin 131072 → Fin 128 → EReal) (W : Wt) (b : Bias) (v : Fin 131072) (d : Fin 128) : EReal :=
  max ((∑ c : Fin 128,
      ((∑ k : Fin 2097152, if (dst (ix1 k)).toInt = (v.val : ℤ) then h (srcRow src k) c * rIsqrt src (srcRow src k) else 0)
        * rIsqrt dst v) * W (ix2 c d)) + b (ix1 d)) 0

def rOut (emb : Emb) (W1 : Wt) (b1 : Bias) (W2 : Wt) (b2 : Bias) (g : Fin 256) (d : Fin 128) : EReal :=
  Ideal.div (∑ v : Fin 131072, if v.val / 512 = g.val then rLayer src dst (rLayer src dst (rH0 nf emb) W1 b1) W2 b2 v d else 0)
    (Ideal.ofBits .f32 0x44000000#32)

end Batch

/-- THE WHOLE-BATCH READING. -/
def GR (nf : NodeVec) (src dst : EdgeVec) (emb : Emb) (W1 : Wt) (b1 : Bias) (W2 : Wt) (b2 : Bias) : Out := fun i =>
  rOut nf src dst emb W1 b1 W2 b2 ⟨(i 0).val, idx2_lt0 i⟩ ⟨(i 1).val, idx2_lt1 i⟩

end Cert.GraphConv

end
-- ==== Proof.PreDecode.lean ====
/-
  What the precondition says of the integer inputs: node types in [0, 64), and each graph's edge ends among its own nodes.
-/
import proofs.«418503_j35381940584593_2_alg».proof.Pre_finite_inputs
import proofs.«418503_j35381940584593_2_alg».proof.Proof.Spec
import Idealize.ShloMosaic.Lib.ReduceAll
import Idealize.ShloMosaic.Lib.StableHlo.Predicate
import Idealize.ShloMosaic.Lib.Pipeline.Value

noncomputable section

namespace Cert.GraphConv

open Idealize.ShloMosaic Idealize.ShloMosaic.ValueIdx

open Cert.Pre_finite_inputs Cert.Pre_finite_inputs.Facts
open Idealize.ShloMosaic.StableHlo.Predicate

/-- The scalar shape has one index. -/
theorem pre_scalar_idx_subsingleton : Subsingleton S_.Idx := ⟨fun _ _ => funext fun d => d.elim0⟩

/-- Row `g`, column `e` of the [256 × 8192] reshape of a flat edge array is slot `g * 8192 + e` of the flat array. -/
theorem pre_reshape_at [Facts] (x : EdgeVec) (g : Fin 256) (e : Fin 8192) :
    shapeCast S256x8192 x shapeCasts_S2097152_S256x8192 (ij g e) = x (ix1 (edgeOf g e)) := by
  refine shapeCast_apply x _ (ij g e) (ix1 (edgeOf g e)) ?_
  rw [Shape.rowMajor_val_one, Shape.rowMajor_val_two]
  rfl

/-- The graph's first node number, `g * 512`, as the column of offsets reads at row `g`. -/
theorem pre_offs_at [Facts] (g : Fin 256) (e : Fin 8192) :
    broadcastInDim S256x8192 ![0, 1] bcast_S256x1_S256x8192_0_1
      (broadcastInDim S256x1 ![0] bcast_S256_S256x1_0
        (muli (iotaInDim S256 32 0) (broadcastInDim S256 ![] bcast_S_S256 (constantI S_ 32 512#32)))) (ij g e)
      = BitVec.ofNat 32 g.val * 512#32 := by
  rw [bcast_rows]
  show IntOp.muli (iotaInDim S256 32 0 (Shape.Idx.ofFin g))
    (broadcastInDim S256 ![] bcast_S_S256 (constantI S_ 32 512#32) (Shape.Idx.ofFin g)) = _
  rw [iota_apply, bcast_scalar _ h_S_]
  rfl

/-- One past the graph's last node number, `g * 512 + 512`. -/
theorem pre_offs_hi_at [Facts] (g : Fin 256) (e : Fin 8192) :
    broadcastInDim S256x8192 ![0, 1] bcast_S256x1_S256x8192_0_1
      (addi
        (broadcastInDim S256x1 ![0] bcast_S256_S256x1_0
          (muli (iotaInDim S256 32 0) (broadcastInDim S256 ![] bcast_S_S256 (constantI S_ 32 512#32))))
        (broadcastInDim S256x1 ![] bcast_S_S256x1 (constantI S_ 32 512#32))) (ij g e)
      = BitVec.ofNat 32 g.val * 512#32 + 512#32 := by
  rw [bcast_of_col]
  show IntOp.addi
    (broadcastInDim S256x1 ![0] bcast_S256_S256x1_0
      (muli (iotaInDim S256 32 0) (broadcastInDim S256 ![] bcast_S_S256 (constantI S_ 32 512#32))) (ixP g))
    (broadcastInDim S256x1 ![] bcast_S_S256x1 (constantI S_ 32 512#32) (ixP g)) = _
  rw [bcast_col1, bcast_scalar _ h_S_]
  show IntOp.addi (IntOp.muli (iotaInDim S256 32 0 (Shape.Idx.ofFin g))
    (broadcastInDim S256 ![] bcast_S_S256 (constantI S_ 32 512#32) (Shape.Idx.ofFin g))) _ = _
  rw [iota_apply, bcast_scalar _ h_S_]
  rfl

/-- For `g < 256` the word `g * 512` does not wrap and is non-negative. -/
theorem pre_toInt_lo (g : Fin 256) : (BitVec.ofNat 32 g.val * 512#32).toInt = ((g.val * 512 : ℕ) : ℤ) := by
  have hg := g.isLt
  have hn : (BitVec.ofNat 32 g.val * 512#32).toNat = g.val * 512 := by
    rw [BitVec.toNat_mul, BitVec.toNat_ofNat]
    show g.val % 2 ^ 32 * 512 % 2 ^ 32 = _
    omega
  rw [toInt_eq_toNat_of_lt (by omega), hn]

/-- Likewise `g * 512 + 512`. -/
theorem pre_toInt_hi (g : Fin 256) : (BitVec.ofNat 32 g.val * 512#32 + 512#32).toInt = ((g.val * 512 + 512 : ℕ) : ℤ) := by
  have hg := g.isLt
  have hn : (BitVec.ofNat 32 g.val * 512#32 + 512#32).toNat = g.val * 512 + 512 := by
    rw [BitVec.toNat_add, BitVec.toNat_mul, BitVec.toNat_ofNat]
    show (g.val % 2 ^ 32 * 512 % 2 ^ 32 + 512) % 2 ^ 32 = _
    omega
  rw [toInt_eq_toNat_of_lt (by omega), hn]

/-- The two edge-end bits of the precondition, read at every slot, say the ends lie among the graph's nodes. -/
theorem pre_edgeRange_of_bits [Facts] (x : EdgeVec)
    (hlo : Host.reduce IntOp.andi
      (cmpi CmpIPredicate.sge (shapeCast S256x8192 x shapeCasts_S2097152_S256x8192)
        (broadcastInDim S256x8192 ![0, 1] bcast_S256x1_S256x8192_0_1
          (broadcastInDim S256x1 ![0] bcast_S256_S256x1_0
            (muli (iotaInDim S256 32 0) (broadcastInDim S256 ![] bcast_S_S256 (constantI S_ 32 512#32))))))
      (constantI S_ 1 1#1) reducesTo_S256x8192_S_d0_1 h_S_ ix0 = 1#1)
    (hhi : Host.reduce IntOp.andi
      (cmpi CmpIPredicate.slt (shapeCast S256x8192 x shapeCasts_S2097152_S256x8192)
        (broadcastInDim S256x8192 ![0, 1] bcast_S256x1_S256x8192_0_1
          (addi
            (broadcastInDim S256x1 ![0] bcast_S256_S256x1_0
              (muli (iotaInDim S256 32 0) (broadcastInDim S256 ![] bcast_S_S256 (constantI S_ 32 512#32))))
            (broadcastInDim S256x1 ![] bcast_S_S256x1 (constantI S_ 32 512#32)))))
      (constantI S_ 1 1#1) reducesTo_S256x8192_S_d0_1 h_S_ ix0 = 1#1) : EdgeRange x := by
  intro g e
  haveI := pre_scalar_idx_subsingleton
  have l := Host.reduce_andi_all _ _ _ _ _ hlo (ij g e)
  have u := Host.reduce_andi_all _ _ _ _ _ hhi (ij g e)
  change IntOp.cmpi .sge (shapeCast S256x8192 x shapeCasts_S2097152_S256x8192 (ij g e)) _ = 1#1 at l
  change IntOp.cmpi .slt (shapeCast S256x8192 x shapeCasts_S2097152_S256x8192 (ij g e)) _ = 1#1 at u
  rw [pre_reshape_at, pre_offs_at, IntOp.cmpi_sge, pre_toInt_lo] at l
  rw [pre_reshape_at, pre_offs_hi_at, IntOp.cmpi_slt, pre_toInt_hi] at u
  exact ⟨l, u⟩

theorem ranges_of_pre [Cert.Pre_finite_inputs.Facts] (a0 : NodeVec) (a1 a2 : EdgeVec) (a3 : Emb) (a4 : Wt) (a5 : Bias) (a6 : Wt) (a7 : Bias)
    (h : Cert.Pre_finite_inputs.fn (F := Ideal) a0 a1 a2 a3 a4 a5 a6 a7 = fun _ => 1#1) :
    NfRange a0 ∧ EdgeRange a1 ∧ EdgeRange a2 := by
  have e := congrFun h ix0
  unfold Cert.Pre_finite_inputs.fn Cert.Pre_finite_inputs.fn_part1 Cert.Pre_finite_inputs.fn_part2 Cert.Pre_finite_inputs.fn_part3 at e
  simp only [andi, IntOp.andi_eq_one] at e
  obtain ⟨⟨⟨⟨⟨⟨-, h26⟩, h30⟩, h39⟩, h50⟩, h59⟩, h70⟩ := e
  refine ⟨fun v => ?_, pre_edgeRange_of_bits a1 h39 h50, pre_edgeRange_of_bits a2 h59 h70⟩
  haveI := pre_scalar_idx_subsingleton
  have l := Host.reduce_andi_all _ _ _ _ _ h26 (ix1 v)
  have u := Host.reduce_andi_all _ _ _ _ _ h30 (ix1 v)
  change IntOp.cmpi .sge (a0 (ix1 v)) (broadcastInDim S131072 ![] bcast_S_S131072 (constantI S_ 32 0#32) (ix1 v)) = 1#1 at l
  change IntOp.cmpi .slt (a0 (ix1 v)) (broadcastInDim S131072 ![] bcast_S_S131072 (constantI S_ 32 64#32) (ix1 v)) = 1#1 at u
  rw [bcast_scalar _ h_S_, IntOp.cmpi_sge] at l
  rw [bcast_scalar _ h_S_, IntOp.cmpi_slt] at u
  exact ⟨l, u⟩

end Cert.GraphConv

end
-- ==== Proof.BridgeAgg.lean ====
/-
  Sums over all edge slots and all nodes, graph by graph; and, when every edge stays inside its graph, the whole-batch
  degree counts and the gather-then-sum-into-rows as the per-graph adjacency matrix's sums and products.
-/
import proofs.«418503_j35381940584593_2_alg».proof.Proof.Spec
import Mathlib.Data.EReal.Operations
import Mathlib.Algebra.BigOperators.Fin
import Mathlib.Algebra.BigOperators.Group.Finset.Basic

noncomputable section

namespace Cert.GraphConv

open Idealize.ShloMosaic Idealize.ShloMosaic.ValueIdx

/-! ## Regrouping a sum over the batch -/

/-- Edge slots, graph by graph: slot `k` is slot `k % 8192` of graph `k / 8192`. -/
def edgeEquiv : Fin 256 × Fin 8192 ≃ Fin 2097152 where
  toFun p := edgeOf p.1 p.2
  invFun k := (⟨k.val / 8192, by omega⟩, ⟨k.val % 8192, by omega⟩)
  left_inv := by
    rintro ⟨g, e⟩
    simp only [edgeOf, Prod.mk.injEq, Fin.ext_iff]
    omega
  right_inv := by
    intro k
    simp only [edgeOf, Fin.ext_iff]
    omega

/-- Nodes, graph by graph: node `v` is node `v % 512` of graph `v / 512`. -/
def nodeEquiv : Fin 256 × Fin 512 ≃ Fin 131072 where
  toFun p := nodeOf p.1 p.2
  invFun v := (⟨v.val / 512, by omega⟩, ⟨v.val % 512, by omega⟩)
  left_inv := by
    rintro ⟨g, i⟩
    simp only [nodeOf, Prod.mk.injEq, Fin.ext_iff]
    omega
  right_inv := by
    intro v
    simp only [nodeOf, Fin.ext_iff]
    omega

/-- A sum over all edge slots, graph by graph. -/
theorem sum_edges (f : Fin 2097152 → EReal) : ∑ k, f k = ∑ g : Fin 256, ∑ e : Fin 8192, f (edgeOf g e) :=
  (Fintype.sum_equiv edgeEquiv (fun p => f (edgeOf p.1 p.2)) f (fun _ => rfl)).symm.trans
    (Fintype.sum_prod_type' (fun g e => f (edgeOf g e)))

/-- A sum over all nodes, graph by graph. -/
theorem sum_nodes (f : Fin 131072 → EReal) : ∑ v, f v = ∑ g : Fin 256, ∑ i : Fin 512, f (nodeOf g i) :=
  (Fintype.sum_equiv nodeEquiv (fun p => f (nodeOf p.1 p.2)) f (fun _ => rfl)).symm.trans
    (Fintype.sum_prod_type' (fun g i => f (nodeOf g i)))

/-! ## Zero-one coefficients in the extended reals -/

/-- The pattern of the float 1.0 is the number one. -/
theorem one_eq_one : (one : EReal) = 1 := by
  show Ideal.ofBits .f32 0x3F800000#32 = 1
  simp [Ideal.ofBits, Ideal.ieee, -EReal.coe_mul]; norm_num

theorem ind_nonneg (p : Prop) [Decidable p] : 0 ≤ ind p := by
  unfold ind; split_ifs <;> simp

theorem ind_mul_ind_nonneg (p q : Prop) [Decidable p] [Decidable q] : 0 ≤ ind p * ind q := by
  unfold ind; split_ifs <;> simp

/-- A sum of non-negative coefficients times `x` is the sum of the products: multiplication distributes over a sum of
    non-negative extended reals, whatever `x` is. -/
theorem sum_mul_of_nonneg {ι : Type*} (s : Finset ι) (c : ι → EReal) (hc : ∀ i, 0 ≤ c i) (x : EReal) :
    (∑ i ∈ s, c i) * x = ∑ i ∈ s, c i * x := by
  classical
  induction s using Finset.induction_on with
  | empty => simp
  | insert a s ha ih =>
    rw [Finset.sum_insert ha, Finset.sum_insert ha,
      EReal.right_distrib_of_nonneg (hc a) (Finset.sum_nonneg (fun i _ => hc i)), ih]

/-! ## An edge end inside its graph -/

/-- A word that reads non-negative when signed reads the same unsigned. -/
theorem toInt_eq_toNat_of_nonneg {w : BitVec 32} (h : 0 ≤ w.toInt) : w.toInt = (w.toNat : ℤ) := by
  rw [BitVec.toInt_eq_toNat_cond] at h ⊢
  have := w.isLt
  split_ifs at h ⊢ with h1
  · rfl
  · omega

variable {x : EdgeVec}

/-- The end stored in a slot of graph `g`, taken relative to the graph's first node, is `j` exactly when the stored end
    is node `j` of graph `g`: subtracting a word is undone by adding it back, and every number here is far below the
    word size. -/
theorem endLoc_eq_iff (hx : EdgeRange x) (g : Fin 256) (e : Fin 8192) (j : Fin 512) :
    endLoc x g e = BitVec.ofNat 32 j.val ↔ (x (ix1 (edgeOf g e))).toInt = ((nodeOf g j).val : ℤ) := by
  obtain ⟨h1, h2⟩ := hx g e
  have h0 : (x (ix1 (edgeOf g e))).toInt = ((x (ix1 (edgeOf g e))).toNat : ℤ) :=
    toInt_eq_toNat_of_nonneg (by omega)
  unfold endLoc
  rw [h0] at h1 h2 ⊢
  rw [← BitVec.toNat_inj, BitVec.toNat_sub, BitVec.toNat_ofNat, BitVec.toNat_ofNat]
  have := g.isLt; have := j.isLt; have := (x (ix1 (edgeOf g e))).isLt
  simp only [nodeOf]
  omega

theorem ind_endLoc (hx : EdgeRange x) (g : Fin 256) (e : Fin 8192) (j : Fin 512) :
    ind (endLoc x g e = BitVec.ofNat 32 j.val)
      = if (x (ix1 (edgeOf g e))).toInt = ((nodeOf g j).val : ℤ) then 1 else 0 := by
  unfold ind; exact if_congr (endLoc_eq_iff hx g e j) rfl rfl

theorem ind_endLoc' (hx : EdgeRange x) (g : Fin 256) (e : Fin 8192) (j : Fin 512) :
    ind (BitVec.ofNat 32 j.val = endLoc x g e)
      = if (x (ix1 (edgeOf g e))).toInt = ((nodeOf g j).val : ℤ) then 1 else 0 := by
  unfold ind; exact if_congr (eq_comm.trans (endLoc_eq_iff hx g e j)) rfl rfl

/-- Every stored end of graph `g` is one of the graph's nodes. -/
theorem exists_loc (hx : EdgeRange x) (g : Fin 256) (e : Fin 8192) :
    ∃ j : Fin 512, (x (ix1 (edgeOf g e))).toInt = ((nodeOf g j).val : ℤ) := by
  obtain ⟨h1, h2⟩ := hx g e
  refine ⟨⟨((x (ix1 (edgeOf g e))).toInt - ((g.val * 512 : ℕ) : ℤ)).toNat, by omega⟩, ?_⟩
  simp only [nodeOf]
  omega

/-- A stored end names at most one node of the graph. -/
theorem loc_unique {w : ℤ} {g : Fin 256} {j j' : Fin 512} (h : w = ((nodeOf g j).val : ℤ))
    (h' : w = ((nodeOf g j').val : ℤ)) : j = j' := by
  simp only [nodeOf] at h h'
  apply Fin.ext; omega

/-- A slot of another graph never names a node of graph `g`. -/
theorem other_block (hx : EdgeRange x) {g g' : Fin 256} (hne : g' ≠ g) (e : Fin 8192) (j : Fin 512) :
    (x (ix1 (edgeOf g' e))).toInt ≠ ((nodeOf g j).val : ℤ) := by
  obtain ⟨h1, h2⟩ := hx g' e
  intro h
  rw [h] at h1 h2
  simp only [nodeOf] at h1 h2
  have : g'.val ≠ g.val := fun hv => hne (Fin.ext hv)
  have := j.isLt
  omega

/-- A sum over the slots that name a node of graph `g` only sees graph `g`'s slots. -/
theorem sum_slots_block (hx : EdgeRange x) (g : Fin 256) (j : Fin 512) (F : Fin 2097152 → EReal) :
    (∑ k : Fin 2097152, if (x (ix1 k)).toInt = ((nodeOf g j).val : ℤ) then F k else 0)
      = ∑ e : Fin 8192, if (x (ix1 (edgeOf g e))).toInt = ((nodeOf g j).val : ℤ) then F (edgeOf g e) else 0 := by
  rw [sum_edges]
  apply Finset.sum_eq_single g
  · intro g' _ hne
    apply Finset.sum_eq_zero
    intro e _
    rw [if_neg (other_block hx hne e j)]
  · intro h; exact absurd (Finset.mem_univ g) h

/-- Over the graph's nodes, the coefficients "the slot's end is node `j`" pick out one term. -/
theorem sum_ind_endLoc' (hx : EdgeRange x) (g : Fin 256) (e : Fin 8192) (c : EReal) :
    ∑ i : Fin 512, ind (BitVec.ofNat 32 i.val = endLoc x g e) * c = c := by
  obtain ⟨i0, hi0⟩ := exists_loc hx g e
  rw [Finset.sum_eq_single i0]
  · rw [ind_endLoc' hx, if_pos hi0, one_mul]
  · intro b _ hb
    rw [ind_endLoc' hx, if_neg (fun h => hb (loc_unique h hi0)), zero_mul]
  · intro h; exact absurd (Finset.mem_univ _) h

theorem sum_ind_endLoc (hx : EdgeRange x) (g : Fin 256) (e : Fin 8192) (c : EReal) :
    ∑ j : Fin 512, c * ind (endLoc x g e = BitVec.ofNat 32 j.val) = c := by
  obtain ⟨j0, hj0⟩ := exists_loc hx g e
  rw [Finset.sum_eq_single j0]
  · rw [ind_endLoc hx, if_pos hj0, mul_one]
  · intro b _ hb
    rw [ind_endLoc hx, if_neg (fun h => hb (loc_unique h hj0)), mul_zero]
  · intro h; exact absurd (Finset.mem_univ _) h

/-- The row a gather reads for a slot whose source is node `j` of graph `g`: the stored number is non-negative and
    below the number of rows, so it is read as it stands. -/
theorem srcRow_eq {src : EdgeVec} (g : Fin 256) (e : Fin 8192) (j : Fin 512)
    (h : (src (ix1 (edgeOf g e))).toInt = ((nodeOf g j).val : ℤ)) : srcRow src (edgeOf g e) = nodeOf g j := by
  unfold srcRow wrapIdx
  have hnn : ¬ (src (ix1 (edgeOf g e))).toInt < 0 := by rw [h]; omega
  rw [if_neg hnn]
  unfold rowOf
  apply Fin.ext
  show min (src (ix1 (edgeOf g e))).toInt.toNat (131072 - 1) = (nodeOf g j).val
  rw [h, Int.toNat_natCast]
  have := (nodeOf g j).isLt
  omega

variable {src dst : EdgeVec}

/-- The out-degree count of a node over all edge slots is its column sum in its graph's adjacency matrix. -/
theorem rDeg_src_eq (hs : EdgeRange src) (hd : EdgeRange dst) (g : Fin 256) (j : Fin 512) :
    rDeg src (nodeOf g j) = degOut (endLoc src g) (endLoc dst g) j := by
  unfold rDeg degOut adj
  rw [sum_slots_block hs g j (fun _ => one), Finset.sum_comm]
  apply Finset.sum_congr rfl
  intro e _
  rw [sum_ind_endLoc' hd, ind_endLoc hs, one_eq_one]

/-- The in-degree count of a node over all edge slots is its row sum in its graph's adjacency matrix. -/
theorem rDeg_dst_eq (hs : EdgeRange src) (hd : EdgeRange dst) (g : Fin 256) (i : Fin 512) :
    rDeg dst (nodeOf g i) = degIn (endLoc src g) (endLoc dst g) i := by
  unfold rDeg degIn adj
  rw [sum_slots_block hd g i (fun _ => one), Finset.sum_comm]
  apply Finset.sum_congr rfl
  intro e _
  rw [sum_ind_endLoc hs, ind_endLoc' hd, one_eq_one]

/-- Summing, over the edge slots that end at a node, a quantity of the slot's source node is the node's row of its graph's
    adjacency matrix times that quantity over the graph's nodes. -/
theorem agg_eq (hs : EdgeRange src) (hd : EdgeRange dst) (g : Fin 256) (i : Fin 512) (f : Fin 131072 → EReal) :
    (∑ k : Fin 2097152, if (dst (ix1 k)).toInt = ((nodeOf g i).val : ℤ) then f (srcRow src k) else 0)
      = ∑ j : Fin 512, adj (endLoc src g) (endLoc dst g) i j * f (nodeOf g j) := by
  rw [sum_slots_block hd g i (fun k => f (srcRow src k))]
  have hR : ∀ j : Fin 512, adj (endLoc src g) (endLoc dst g) i j * f (nodeOf g j)
      = ∑ e : Fin 8192, ind (BitVec.ofNat 32 i.val = endLoc dst g e) * ind (endLoc src g e = BitVec.ofNat 32 j.val)
          * f (nodeOf g j) := by
    intro j
    unfold adj
    exact sum_mul_of_nonneg _ _ (fun e => ind_mul_ind_nonneg _ _) _
  rw [Finset.sum_congr rfl (fun j _ => hR j), Finset.sum_comm]
  apply Finset.sum_congr rfl
  intro e _
  obtain ⟨j0, hj0⟩ := exists_loc hs g e
  rw [Finset.sum_eq_single j0]
  · rw [srcRow_eq g e j0 hj0, ind_endLoc' hd, ind_endLoc hs, if_pos hj0, mul_one]
    split_ifs
    · rw [one_mul]
    · rw [zero_mul]
  · intro b _ hb
    rw [ind_endLoc hs g e b, if_neg (fun h => hb (loc_unique h hj0)), mul_zero, zero_mul]
  · intro h; exact absurd (Finset.mem_univ _) h

end Cert.GraphConv

end
-- ==== Proof.Bridge.lean ====
/-
  The per-graph reading and the whole-batch reading agree when every node type is in range and every edge stays inside
  its graph.
-/
import proofs.«418503_j35381940584593_2_alg».proof.Proof.Spec
import proofs.«418503_j35381940584593_2_alg».proof.Proof.BridgeAgg

noncomputable section

namespace Cert.GraphConv

open Idealize.ShloMosaic Idealize.ShloMosaic.ValueIdx

/-- A word whose signed value is in `[0, 64)` has that same unsigned value. -/
theorem word_small {w : BitVec 32} (h0 : 0 ≤ w.toInt) (h1 : w.toInt < 64) :
    w.toNat < 64 ∧ w.toInt = (w.toNat : ℤ) := by
  have := w.isLt
  rw [BitVec.toInt_eq_toNat_cond] at h0 h1 ⊢
  split_ifs at h0 h1 ⊢ <;> omega

/-- The pattern of the float 512.0 denotes the real 512. -/
theorem ofBits_512 : Ideal.ofBits .f32 0x44000000#32 = ((512 : ℝ) : EReal) := by
  simp [Ideal.ofBits, Ideal.ieee, -EReal.coe_mul]; norm_num

/-- The pattern of the float 1/512 denotes the real 1/512. -/
theorem ofBits_inv512 : Ideal.ofBits .f32 0x3B000000#32 = ((1 / 512 : ℝ) : EReal) := by
  simp [Ideal.ofBits, Ideal.ieee, -EReal.coe_mul]; norm_num

/-- Dividing by 512 is multiplying by 1/512, at the infinities too. -/
theorem div_512 (x : EReal) :
    Ideal.div x (Ideal.ofBits .f32 0x44000000#32) = x * Ideal.ofBits .f32 0x3B000000#32 := by
  rw [ofBits_512, ofBits_inv512, Ideal.div_coe (by norm_num)]

/-- With the node type in `[0, 64)` the gathered embedding row is the row the comparison with `0 … 63` picks:
    exactly one of the 64 comparisons holds. -/
theorem rH0_eq (nf : NodeVec) (emb : Emb) (hnf : NfRange nf) (g : Fin 256) (a : Fin 512) (d : Fin 128) :
    rH0 nf emb (nodeOf g a) d = h0 (nfLoc nf g) emb a d := by
  obtain ⟨hlo, hhi⟩ := hnf (nodeOf g a)
  obtain ⟨hlt, hint⟩ := word_small hlo hhi
  unfold rH0 h0 nfLoc
  generalize nf (ix1 (nodeOf g a)) = w at hlo hhi hlt hint
  have hwrap : wrapIdx 64#32 w = w := by unfold wrapIdx; rw [if_neg (by omega)]
  rw [hwrap]
  have hrow : rowOf 64 (by decide) w = ⟨w.toNat, hlt⟩ := by
    unfold rowOf; apply Fin.ext; simp only; omega
  rw [hrow]
  rw [Finset.sum_eq_single (⟨w.toNat, hlt⟩ : Fin 64)]
  · unfold ind; rw [if_pos (by simp), one_mul]
  · intro t _ ht
    unfold ind; rw [if_neg, zero_mul]
    intro h; apply ht; apply Fin.ext
    have ht' := t.isLt
    simp only; rw [h, BitVec.toNat_ofNat]; omega
  · intro h; exact absurd (Finset.mem_univ _) h

/-- The sum over the nodes whose graph is `g` is the sum over `g`'s local nodes. -/
theorem pool_eq (g : Fin 256) (F : Fin 131072 → EReal) :
    (∑ v : Fin 131072, if v.val / 512 = g.val then F v else 0) = ∑ a : Fin 512, F (nodeOf g a) := by
  rw [sum_nodes, Finset.sum_eq_single g]
  · apply Finset.sum_congr rfl; intro a _
    have := a.isLt
    rw [if_pos]; unfold nodeOf; simp only; omega
  · intro g' _ hg'
    apply Finset.sum_eq_zero; intro a _
    have := a.isLt
    rw [if_neg]; unfold nodeOf; simp only
    intro h; apply hg'; apply Fin.ext; omega
  · intro h; exact absurd (Finset.mem_univ _) h

variable {src dst : EdgeVec}

/-- The source-side scaling of a node is its graph's out-degree scaling. -/
theorem rIsqrt_src_eq (hs : EdgeRange src) (hd : EdgeRange dst) (g : Fin 256) (j : Fin 512) :
    rIsqrt src (nodeOf g j) = outIsqrt (endLoc src g) (endLoc dst g) j := by
  unfold rIsqrt outIsqrt; rw [rDeg_src_eq hs hd, max_comm]

/-- The destination-side scaling of a node is its graph's in-degree scaling. -/
theorem rIsqrt_dst_eq (hs : EdgeRange src) (hd : EdgeRange dst) (g : Fin 256) (i : Fin 512) :
    rIsqrt dst (nodeOf g i) = inIsqrt (endLoc src g) (endLoc dst g) i := by
  unfold rIsqrt inIsqrt; rw [rDeg_dst_eq hs hd, max_comm]

/-- One layer: if the whole-batch features agree with the per-graph features on graph `g`'s nodes, so do the layer's
    outputs, the gather-then-sum being the adjacency matrix's product. -/
theorem layer_eq (hs : EdgeRange src) (hd : EdgeRange dst) (g : Fin 256)
    (hr : Fin 131072 → Fin 128 → EReal) (hk : Fin 512 → Fin 128 → EReal)
    (hh : ∀ j c, hr (nodeOf g j) c = hk j c) (W : Wt) (b : Bias) (a : Fin 512) (d : Fin 128) :
    rLayer src dst hr W b (nodeOf g a) d
      = layerG (adj (endLoc src g) (endLoc dst g)) (outIsqrt (endLoc src g) (endLoc dst g))
          (inIsqrt (endLoc src g) (endLoc dst g)) hk W b a d := by
  unfold rLayer layerG
  refine congrArg (fun x => max (x + b (ix1 d)) 0) (Finset.sum_congr rfl fun c _ => ?_)
  rw [agg_eq hs hd g a (fun v => hr v c * rIsqrt src v), rIsqrt_dst_eq hs hd]
  refine congrArg (fun x => x * inIsqrt (endLoc src g) (endLoc dst g) a * W (ix2 c d))
    (Finset.sum_congr rfl fun j _ => ?_)
  rw [hh, rIsqrt_src_eq hs hd]

theorem bridge (nf : NodeVec) (src dst : EdgeVec) (emb : Emb) (W1 : Wt) (b1 : Bias) (W2 : Wt) (b2 : Bias)
    (hnf : NfRange nf) (hs : EdgeRange src) (hd : EdgeRange dst) :
    GK nf src dst emb W1 b1 W2 b2 = GR nf src dst emb W1 b1 W2 b2 := by
  funext i
  unfold GK GR rOut graphOut graphOutG
  rw [div_512, pool_eq]
  refine congrArg (fun x => x * Ideal.ofBits .f32 0x3B000000#32) (Finset.sum_congr rfl fun a _ => ?_)
  symm
  apply layer_eq hs hd
  intro j c
  apply layer_eq hs hd
  intro j' c'
  exact rH0_eq nf emb hnf _ j' c'

end Cert.GraphConv

end
-- ==== Proof.KHost.lean ====
/-
  What the region finds in its three integer arrays: each graph's node types, and each graph's edge ends relative to the
  graph's first node.
-/
import proofs.«418503_j35381940584593_2_alg».proof.Proof.Gen.KernelIdeal.Frame
import proofs.«418503_j35381940584593_2_alg».proof.Proof.Spec
import Idealize.ShloMosaic.Lib.ValueIdx
import Idealize.ShloMosaic.Lib.Pipeline.Value
import Idealize.ShloMosaic.Lib.StableHlo.Run
import Idealize.ShloMosaic.Lib.StableHlo.Predicate

noncomputable section

namespace Cert.KernelIdeal.KHost

open Idealize.ShloMosaic Idealize.ShloMosaic.TcCoe Idealize.ShloMosaic.ValueIdx Idealize.SL.Sem Cert.KernelIdeal Cert.KernelIdeal.Gen Cert.GraphConv

variable (m : (ℓ : Loc nD τ sig) → Buf (Elt Ideal) ℓ)

/-- A word in [0, 64) is not moved by the clamp to [0, 63]. -/
theorem clamp_id (w : BitVec 32) (h0 : 0 ≤ w.toInt) (h1 : w.toInt < 64) :
    IntOp.minsi 63#32 (IntOp.maxsi 0#32 w) = w := by
  have z0 : (0#32 : BitVec 32).toInt = 0 := by decide
  have z63 : (63#32 : BitVec 32).toInt = 63 := by decide
  have hmax : IntOp.maxsi 0#32 w = w := by
    unfold IntOp.maxsi
    rw [if_neg]
    simp only [BitVec.slt, decide_eq_true_eq, z0]; omega
  rw [hmax]
  unfold IntOp.minsi
  rw [if_neg]
  simp only [BitVec.slt, decide_eq_true_eq, z63]; omega

/-- The graph number as a word times 512 is the word of the graph's first node. -/
theorem ofNat_mul_512 (g : Fin 256) : BitVec.ofNat 32 g.val * 512#32 = BitVec.ofNat 32 (g.val * 512) := by
  apply BitVec.eq_of_toNat_eq
  simp only [BitVec.toNat_mul, BitVec.toNat_ofNat]
  have := g.isLt
  omega

/-- The flat node array cut into 256 rows of 512, after the clamp: row g, place i is node g * 512 + i, unmoved. -/
theorem clampRows_apply (x : NodeVec) (hx : NfRange x) (g : Fin 256) (i : Fin 512) :
    shapeCast S256x1x512
      (minsi (broadcastInDim S131072 ![] bcast_S_S131072 (constantI S_ 32 63#32))
        (maxsi (broadcastInDim S131072 ![] bcast_S_S131072 (constantI S_ 32 0#32)) x))
      shapeCasts_S131072_S256x1x512 (ix3 g (0 : Fin 1) i) = nfLoc x g i := by
  rw [shapeCast_apply _ shapeCasts_S131072_S256x1x512 (ix3 g (0 : Fin 1) i) (ix1 (nodeOf g i)) (by
    rw [Shape.rowMajor_val_one, Shape.rowMajor_val_three]
    show g.val * 512 + i.val = (g.val * 1 + 0) * 512 + i.val
    omega)]
  show IntOp.minsi 63#32 (IntOp.maxsi 0#32 (x (ix1 (nodeOf g i)))) = x (ix1 (nodeOf g i))
  exact clamp_id _ (hx (nodeOf g i)).1 (hx (nodeOf g i)).2

/-- The flat edge array cut into 256 rows of 8192, less each row's first node: row g, place e is the end stored in slot
    g * 8192 + e less g * 512, as words. -/
theorem relRows_apply (x : EdgeVec) (g : Fin 256) (e : Fin 8192) :
    shapeCast S256x1x8192
      (subi (fun i => shapeCast S256x8192 x shapeCasts_S2097152_S256x8192 i)
        (broadcastInDim S256x8192 ![0, 1] bcast_S256x1_S256x8192_0_1
          (broadcastInDim S256x1 ![0] bcast_S256_S256x1_0
            (muli (iotaInDim S256 32 0) (broadcastInDim S256 ![] bcast_S_S256 (constantI S_ 32 512#32))))))
      shapeCasts_S256x8192_S256x1x8192 (ix3 g (0 : Fin 1) e) = endLoc x g e := by
  rw [shapeCast_apply _ shapeCasts_S256x8192_S256x1x8192 (ix3 g (0 : Fin 1) e) (StableHlo.Predicate.ij g e) (by
    rw [Shape.rowMajor_val_two, Shape.rowMajor_val_three]
    show g.val * 8192 + e.val = (g.val * 1 + 0) * 8192 + e.val
    omega)]
  show IntOp.subi (shapeCast S256x8192 x shapeCasts_S2097152_S256x8192 (StableHlo.Predicate.ij g e))
      (broadcastInDim S256x8192 ![0, 1] bcast_S256x1_S256x8192_0_1
          (broadcastInDim S256x1 ![0] bcast_S256_S256x1_0
            (muli (iotaInDim S256 32 0) (broadcastInDim S256 ![] bcast_S_S256 (constantI S_ 32 512#32))))
          (StableHlo.Predicate.ij g e)) = _
  rw [shapeCast_apply x shapeCasts_S2097152_S256x8192 (StableHlo.Predicate.ij g e) (ix1 (edgeOf g e)) (by
    rw [Shape.rowMajor_val_one, Shape.rowMajor_val_two]
    show g.val * 8192 + e.val = g.val * 8192 + e.val
    rfl), StableHlo.Predicate.bcast_of_col, StableHlo.Predicate.bcast_col1]
  show x (ix1 (edgeOf g e)) - BitVec.ofNat 32 g.val * 512#32 = x (ix1 (edgeOf g e)) - BitVec.ofNat 32 (g.val * 512)
  rw [ofNat_mul_512]

/-- Node types in range are not moved by the clamp: graph `g`'s row of the first array is its node types. -/
theorem V_v1 (c : Dev nD) (hnf : NfRange (m ((c : Thread nD τ).loc main_arg0))) (g : Fin 256) (i : Fin 512) :
    (V m c main_v1 : S256x1x512.Idx → BitVec 32) (ix3 g (0 : Fin 1) i) = nfLoc (m ((c : Thread nD τ).loc main_arg0)) g i := by
  have e : (V m c main_v1 : S256x1x512.Idx → BitVec 32)
      = shapeCast S256x1x512
          (minsi (broadcastInDim S131072 ![] bcast_S_S131072 (constantI S_ 32 63#32))
            (maxsi (broadcastInDim S131072 ![] bcast_S_S131072 (constantI S_ 32 0#32))
              (m ((c : Thread nD τ).loc main_arg0) : S131072.Idx → BitVec 32)))
          shapeCasts_S131072_S256x1x512 := by
    dsimp only [Gen.V, Gen.V0]
    simp only [Gen.hostOps0, Gen.hostOps0_1, Gen.hostOps0_2, List.flatten_cons, List.flatten_nil, List.append_nil,
      List.cons_append, List.nil_append]
    after_results
    rfl
  rw [e]
  exact clampRows_apply _ hnf g i

/-- Graph `g`'s row of the second array is its edge sources relative to the graph's first node. -/
theorem V_v9 (c : Dev nD) (g : Fin 256) (e : Fin 8192) :
    (V m c main_v9 : S256x1x8192.Idx → BitVec 32) (ix3 g (0 : Fin 1) e) = endLoc (m ((c : Thread nD τ).loc main_arg1)) g e := by
  have e9 : (V m c main_v9 : S256x1x8192.Idx → BitVec 32)
      = shapeCast S256x1x8192
          (subi (fun i => shapeCast S256x8192 (m ((c : Thread nD τ).loc main_arg1) : S2097152.Idx → BitVec 32)
              shapeCasts_S2097152_S256x8192 i)
            (broadcastInDim S256x8192 ![0, 1] bcast_S256x1_S256x8192_0_1
              (broadcastInDim S256x1 ![0] bcast_S256_S256x1_0
                (muli (iotaInDim S256 32 0) (broadcastInDim S256 ![] bcast_S_S256 (constantI S_ 32 512#32))))))
          shapeCasts_S256x8192_S256x1x8192 := by
    dsimp only [Gen.V, Gen.V0]
    simp only [Gen.hostOps0, Gen.hostOps0_1, Gen.hostOps0_2, List.flatten_cons, List.flatten_nil, List.append_nil,
      List.cons_append, List.nil_append]
    after_results
    rfl
  rw [e9]
  exact relRows_apply _ g e

/-- Graph `g`'s row of the third array is its edge destinations relative to the graph's first node. -/
theorem V_v13 (c : Dev nD) (g : Fin 256) (e : Fin 8192) :
    (V m c main_v13 : S256x1x8192.Idx → BitVec 32) (ix3 g (0 : Fin 1) e) = endLoc (m ((c : Thread nD τ).loc main_arg2)) g e := by
  have e13 : (V m c main_v13 : S256x1x8192.Idx → BitVec 32)
      = shapeCast S256x1x8192
          (subi (fun i => shapeCast S256x8192 (m ((c : Thread nD τ).loc main_arg2) : S2097152.Idx → BitVec 32)
              shapeCasts_S2097152_S256x8192 i)
            (broadcastInDim S256x8192 ![0, 1] bcast_S256x1_S256x8192_0_1
              (broadcastInDim S256x1 ![0] bcast_S256_S256x1_0
                (muli (iotaInDim S256 32 0) (broadcastInDim S256 ![] bcast_S_S256 (constantI S_ 32 512#32))))))
          shapeCasts_S256x8192_S256x1x8192 := by
    dsimp only [Gen.V, Gen.V0]
    simp only [Gen.hostOps0, Gen.hostOps0_1, Gen.hostOps0_2, List.flatten_cons, List.flatten_nil, List.append_nil,
      List.cons_append, List.nil_append]
    after_results
    rfl
  rw [e13]
  exact relRows_apply _ g e

end Cert.KernelIdeal.KHost

end
-- ==== Proof.KPay1.lean ====
/-
  The body's first five values read at an index: the embedding lookup as a one-hot product, the adjacency count matrix
  as the product of the two one-hot edge selectors, and its column and row sums as the degree scalings.
-/
import proofs.«418503_j35381940584593_2_alg».proof.Proof.Gen.KernelIdeal.Skeleton
import proofs.«418503_j35381940584593_2_alg».proof.Proof.Spec
import Idealize.ShloMosaic.PureOps.Ideal.Laws
import Idealize.ShloMosaic.Lib.ValueIdx
import Idealize.ShloMosaic.Lib.Pipeline.Value
import Idealize.ShloMosaic.Lib.ValueLayout
import Idealize.ShloMosaic.Lib.StableHlo.Predicate

noncomputable section

namespace Cert.KernelIdeal.KPay

open Idealize.ShloMosaic Idealize.ShloMosaic.ValueIdx Cert.KernelIdeal Cert.KernelIdeal.Gen Cert.GraphConv

/-! ## Layout operations at explicit coordinates -/

section Layout
variable {α : Type}

/-- A `[1, 1, a]` block viewed as a vector reads, at `i`, the block at `(0, 0, i)`. -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add])

/-- A vector viewed as a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows reads, at `(i, t)`, the column at `(i, 0)`. -/
theorem broadcastTo_a1_ab_apply {a b : ℕ} (v : (⟨2, ![a, 1]⟩ : Shape).Idx → α)
    (h : (⟨2, ![a, 1]⟩ : Shape).Broadcasts ⟨2, ![a, b]⟩) (i : Fin a) (t : Fin b) :
    broadcastTo ⟨2, ![a, b]⟩ v h (ix2 i t) = v (ix2 i (0 : Fin 1)) := by
  refine broadcastTo_apply v h (ix2 i t) (ix2 i (0 : Fin 1)) fun ax => ?_
  match ax with
  | ⟨0, _⟩ =>
    show i.val = if a = 1 then 0 else i.val
    split
    · have := i.isLt; omega
    · rfl
  | ⟨1, _⟩ => rfl

end Layout

/-! ## The one-hot entry -/

/-- A compare-equal bit widened and converted is the indicator of the equality. -/
theorem onehot_eq (a b : BitVec 32) :
    FloatOps.sitofp (F := Ideal) .f32 ((IntOp.cmpi .eq a b).setWidth 32) = ind (a = b) := by
  show (((((IntOp.cmpi .eq a b).setWidth 32).toInt : ℤ) : ℝ) : EReal) = ind (a = b)
  by_cases hab : a = b
  · have h1 : IntOp.cmpi .eq a b = 1#1 := StableHlo.Predicate.cmpi_eq_iff.mpr hab
    rw [h1, ind, if_pos hab]
    have : ((1#1 : BitVec 1).setWidth 32).toInt = 1 := by decide
    rw [this]; norm_num
  · have h0 : IntOp.cmpi .eq a b = 0#1 :=
      eq_zero_of_ne_one fun h1 => hab (StableHlo.Predicate.cmpi_eq_iff.mp h1)
    rw [h0, ind, if_neg hab]
    have : ((0#1 : BitVec 1).setWidth 32).toInt = 0 := by decide
    rw [this]; norm_num

/-- The indicator of an equality of words depends only on the two words. -/
theorem ind_congr {a a' b b' : BitVec 32} (ha : a = a') (hb : b = b') : ind (a = b) = ind (a' = b') := by
  subst ha hb; rfl

/-! ## The embedding lookup -/

section Dot1

theorem lhs1_0 (j : S512x128.Idx) (k : dot_S512x64_S64x128_S512x128_1_0_0_1_n_n.contr.Idx) :
    (dot_S512x64_S64x128_S512x128_1_0_0_1_n_n.lhsIdx j k 0).val = (j 0).val := by
  simp [DotDims.lhsIdx, dot_S512x64_S64x128_S512x128_1_0_0_1_n_n]; rfl

theorem lhs1_1 (j : S512x128.Idx) (k : dot_S512x64_S64x128_S512x128_1_0_0_1_n_n.contr.Idx) :
    (dot_S512x64_S64x128_S512x128_1_0_0_1_n_n.lhsIdx j k 1).val = (k ⟨0, by decide⟩).val :=
  DotDims.lhsIdx_val_of_single _ rfl j k

theorem rhs1_0 (j : S512x128.Idx) (k : dot_S512x64_S64x128_S512x128_1_0_0_1_n_n.contr.Idx) :
    (dot_S512x64_S64x128_S512x128_1_0_0_1_n_n.rhsIdx j k 0).val = (k ⟨0, by decide⟩).val :=
  DotDims.rhsIdx_val_of_single _ rfl j k

theorem rhs1_1 (j : S512x128.Idx) (k : dot_S512x64_S64x128_S512x128_1_0_0_1_n_n.contr.Idx) :
    (dot_S512x64_S64x128_S512x128_1_0_0_1_n_n.rhsIdx j k 1).val = (j 1).val := by
  simp [DotDims.rhsIdx, dot_S512x64_S64x128_S512x128_1_0_0_1_n_n]; rfl

/-- The first product into a zero accumulator, entry by entry: the sum over the 64 types. -/
theorem matmul1_apply (A : FVec Ideal S512x64 .bf16) (B : FVec Ideal S64x128 .bf16) (i : Fin 512) (d : Fin 128) :
    matmul dot_S512x64_S64x128_S512x128_1_0_0_1_n_n none A B (constant (F := Ideal) S512x128 .f32 0x00000000#32) (ix2 i d)
      = ∑ t : Fin 64, A (ix2 i t) * B (ix2 t d) := by
  show FloatOps.matmul _ none A B _ (ix2 i d) = _
  rw [Ideal.matmul_constant_zero_apply,
    ← Equiv.sum_comp (contrEquiv1 dot_S512x64_S64x128_S512x128_1_0_0_1_n_n 64 rfl rfl).symm]
  refine Finset.sum_congr rfl fun c _ => ?_
  have c2 := contrEquiv1_symm_val dot_S512x64_S64x128_S512x128_1_0_0_1_n_n 64 rfl rfl c
  have l : dot_S512x64_S64x128_S512x128_1_0_0_1_n_n.lhsIdx (ix2 i d) ((contrEquiv1 _ 64 rfl rfl).symm c) = ix2 i c := by
    funext ax; apply Fin.ext
    match ax with
    | ⟨0, _⟩ => exact lhs1_0 _ _
    | ⟨1, _⟩ => exact (lhs1_1 _ _).trans c2
  have r : dot_S512x64_S64x128_S512x128_1_0_0_1_n_n.rhsIdx (ix2 i d) ((contrEquiv1 _ 64 rfl rfl).symm c) = ix2 c d := by
    funext ax; apply Fin.ext
    match ax with
    | ⟨0, _⟩ => exact (rhs1_0 _ _).trans c2
    | ⟨1, _⟩ => exact rhs1_1 _ _
  rw [l, r]

end Dot1

theorem pay1_apply (v0 : Vec Ideal S1x1x512 .i32) (v14 : Vec Ideal S64x128 .f32) (i : Fin 512) (d : Fin 128) :
    k0_pay1 (F := Ideal) v0 v14 (ix2 i d) = h0 (fun a => v0 (ix3 (0 : Fin 1) (0 : Fin 1) a)) v14 i d := by
  unfold k0_pay1
  refine (matmul1_apply _ _ i d).trans ?_
  unfold h0
  refine Finset.sum_congr rfl fun t _ => ?_
  refine congrArg₂ (· * ·) ?_ rfl
  refine (onehot_eq _ _).trans ?_
  refine ind_congr ?_ ?_
  · exact (broadcastTo_a1_ab_apply _ _ i t).trans
      ((shapeCast_a_a1_apply _ _ i (0 : Fin 1)).trans (shapeCast_11a_a_apply v0 _ i))
  · exact (broadcastTo_1b_ab_apply _ _ i t).trans (iota_single_apply _ _ _ _ _ _)

/-! ## The adjacency count matrix -/

section Dot2

theorem lhs2_0 (j : S512x512.Idx) (k : dot_S512x8192_S8192x512_S512x512_1_0_0_1_n_n.contr.Idx) :
    (dot_S512x8192_S8192x512_S512x512_1_0_0_1_n_n.lhsIdx j k 0).val = (j 0).val := by
  simp [DotDims.lhsIdx, dot_S512x8192_S8192x512_S512x512_1_0_0_1_n_n]; rfl

theorem lhs2_1 (j : S512x512.Idx) (k : dot_S512x8192_S8192x512_S512x512_1_0_0_1_n_n.contr.Idx) :
    (dot_S512x8192_S8192x512_S512x512_1_0_0_1_n_n.lhsIdx j k 1).val = (k ⟨0, by decide⟩).val :=
  DotDims.lhsIdx_val_of_single _ rfl j k

theorem rhs2_0 (j : S512x512.Idx) (k : dot_S512x8192_S8192x512_S512x512_1_0_0_1_n_n.contr.Idx) :
    (dot_S512x8192_S8192x512_S512x512_1_0_0_1_n_n.rhsIdx j k 0).val = (k ⟨0, by decide⟩).val :=
  DotDims.rhsIdx_val_of_single _ rfl j k

theorem rhs2_1 (j : S512x512.Idx) (k : dot_S512x8192_S8192x512_S512x512_1_0_0_1_n_n.contr.Idx) :
    (dot_S512x8192_S8192x512_S512x512_1_0_0_1_n_n.rhsIdx j k 1).val = (j 1).val := by
  simp [DotDims.rhsIdx, dot_S512x8192_S8192x512_S512x512_1_0_0_1_n_n]; rfl

/-- The second product into a zero accumulator, entry by entry: the sum over the 8192 edge slots. -/
theorem matmul2_apply (A : FVec Ideal S512x8192 .bf16) (B : FVec Ideal S8192x512 .bf16) (i j : Fin 512) :
    matmul dot_S512x8192_S8192x512_S512x512_1_0_0_1_n_n none A B (constant (F := Ideal) S512x512 .f32 0x00000000#32) (ix2 i j)
      = ∑ e : Fin 8192, A (ix2 i e) * B (ix2 e j) := by
  show FloatOps.matmul _ none A B _ (ix2 i j) = _
  rw [Ideal.matmul_constant_zero_apply,
    ← Equiv.sum_comp (contrEquiv1 dot_S512x8192_S8192x512_S512x512_1_0_0_1_n_n 8192 rfl rfl).symm]
  refine Finset.sum_congr rfl fun c _ => ?_
  have c2 := contrEquiv1_symm_val dot_S512x8192_S8192x512_S512x512_1_0_0_1_n_n 8192 rfl rfl c
  have l : dot_S512x8192_S8192x512_S512x512_1_0_0_1_n_n.lhsIdx (ix2 i j) ((contrEquiv1 _ 8192 rfl rfl).symm c) = ix2 i c := by
    funext ax; apply Fin.ext
    match ax with
    | ⟨0, _⟩ => exact lhs2_0 _ _
    | ⟨1, _⟩ => exact (lhs2_1 _ _).trans c2
  have r : dot_S512x8192_S8192x512_S512x512_1_0_0_1_n_n.rhsIdx (ix2 i j) ((contrEquiv1 _ 8192 rfl rfl).symm c) = ix2 c j := by
    funext ax; apply Fin.ext
    match ax with
    | ⟨0, _⟩ => exact (rhs2_0 _ _).trans c2
    | ⟨1, _⟩ => exact rhs2_1 _ _
  rw [l, r]

end Dot2

theorem pay2_apply (v2 v4 : Vec Ideal S1x1x8192 .i32) (i j : Fin 512) :
    k0_pay2 (F := Ideal) v2 v4 (ix2 i j)
      = adj (fun e => v2 (ix3 (0 : Fin 1) (0 : Fin 1) e)) (fun e => v4 (ix3 (0 : Fin 1) (0 : Fin 1) e)) i j := by
  unfold k0_pay2
  refine (matmul2_apply _ _ i j).trans ?_
  unfold adj
  refine Finset.sum_congr rfl fun e _ => ?_
  refine congrArg₂ (· * ·) ?_ ?_
  · -- the destination selector: row number against the edge's destination
    refine (onehot_eq _ _).trans (ind_congr ?_ ?_)
    · exact (broadcastTo_a1_ab_apply _ _ i e).trans (iota_single_apply _ _ _ _ _ _)
    · exact (broadcastTo_1b_ab_apply _ _ i e).trans
        ((shapeCast_a_1a_apply _ _ (0 : Fin 1) e).trans (shapeCast_11a_a_apply v4 _ e))
  · -- the source selector: the edge's source against the column number
    refine (onehot_eq _ _).trans (ind_congr ?_ ?_)
    · exact (broadcastTo_a1_ab_apply _ _ e j).trans
        ((shapeCast_a_a1_apply _ _ e (0 : Fin 1)).trans (shapeCast_11a_a_apply v2 _ e))
    · exact (broadcastTo_1b_ab_apply _ _ e j).trans (iota_single_apply _ _ _ _ _ _)

theorem pay3_apply (v2 v4 : Vec Ideal S1x1x8192 .i32) (i j : Fin 512) :
    k0_pay3 (F := Ideal) v2 v4 (ix2 i j)
      = adj (fun e => v2 (ix3 (0 : Fin 1) (0 : Fin 1) e)) (fun e => v4 (ix3 (0 : Fin 1) (0 : Fin 1) e)) i j := by
  unfold k0_pay3
  exact pay2_apply v2 v4 i j

/-! ## The degrees -/

/-- The matrix index over column `j` with row `k` put back. -/
theorem lift_col (j k : Fin 512) :
    reduces_S512x512_S512_2.lift (ix1 j) k = ix2 k j := by
  funext c; apply Fin.ext
  match c with
  | ⟨0, _⟩ => rfl
  | ⟨1, _⟩ => rfl

/-- The matrix index over row `i` with column `k` put back. -/
theorem lift_row (i k : Fin 512) :
    reduces_S512x512_S512.lift (ix1 i) k = ix2 i k := by
  funext c; apply Fin.ext
  match c with
  | ⟨0, _⟩ => rfl
  | ⟨1, _⟩ => rfl

/-- The sum down a column of a `512 × 512` matrix. -/
theorem colSum_apply (X : FVec Ideal S512x512 .f32) (j : Fin 512) :
    multiReduction (F := Ideal) .add [0] S512 X 0x00000000#32 reduces_S512x512_S512_2 (.inl rfl) rfl (ix1 j)
      = ∑ i : Fin 512, X (ix2 i j) := by
  refine (Ideal.multiReduction_add_single X _ reduces_S512x512_S512_2 _ _ (ix1 j)).trans ?_
  exact Finset.sum_congr rfl fun k _ => congrArg X (lift_col j k)

/-- The sum along a row of a `512 × 512` matrix. -/
theorem rowSum_apply (X : FVec Ideal S512x512 .f32) (i : Fin 512) :
    multiReduction (F := Ideal) .add [1] S512 X 0x00000000#32 reduces_S512x512_S512 (.inl rfl) rfl (ix1 i)
      = ∑ j : Fin 512, X (ix2 i j) := by
  refine (Ideal.multiReduction_add_single X _ reduces_S512x512_S512 _ _ (ix1 i)).trans ?_
  exact Finset.sum_congr rfl fun k _ => congrArg X (lift_row i k)

theorem pay4_apply (v2 v4 : Vec Ideal S1x1x8192 .i32) (j : Fin 512) :
    k0_pay4 (F := Ideal) v2 v4 (ix1 j)
      = outIsqrt (fun e => v2 (ix3 (0 : Fin 1) (0 : Fin 1) e)) (fun e => v4 (ix3 (0 : Fin 1) (0 : Fin 1) e)) j := by
  unfold k0_pay4
  show Ideal.rsqrt (max (multiReduction (F := Ideal) .add [0] S512 (k0_pay2 v2 v4) 0x00000000#32
      reduces_S512x512_S512_2 (.inl rfl) rfl (ix1 j)) one) = _
  unfold outIsqrt degOut
  rw [colSum_apply]
  exact congrArg (fun x => Ideal.rsqrt (max x one)) (Finset.sum_congr rfl fun i _ => pay2_apply v2 v4 i j)

theorem pay5_apply (v2 v4 : Vec Ideal S1x1x8192 .i32) (i : Fin 512) :
    k0_pay5 (F := Ideal) v2 v4 (ix1 i)
      = max (degIn (fun e => v2 (ix3 (0 : Fin 1) (0 : Fin 1) e)) (fun e => v4 (ix3 (0 : Fin 1) (0 : Fin 1) e)) i) one := by
  unfold k0_pay5
  show max (multiReduction (F := Ideal) .add [1] S512 (k0_pay2 v2 v4) 0x00000000#32
      reduces_S512x512_S512 (.inl rfl) rfl (ix1 i)) one = _
  unfold degIn
  rw [rowSum_apply]
  exact congrArg (fun x => max x one) (Finset.sum_congr rfl fun j _ => pay2_apply v2 v4 i j)

end Cert.KernelIdeal.KPay

end
-- ==== Proof.KPay2.lean ====
/-
  The body's last value read at an index: two layers over any adjacency matrix and scalings, summed over the nodes and scaled.

  A product into a zero accumulator is, at an entry, the sum over its one contracted coordinate of the operands' products.
  A vector repeated along the lanes, or a row repeated down the rows, reads the repeated vector's entry, and a change of
  number format is the identity on the extended reals. So one layer at `(i, d)` is
  `max (∑ c, ((∑ j, A i j * (h j c * oi j)) * ii i) * W c d + b d) 0`; the value applies it twice, sums the 512 rows
  and multiplies by the constant.
-/
import proofs.«418503_j35381940584593_2_alg».proof.Proof.Gen.KernelIdeal.Skeleton
import proofs.«418503_j35381940584593_2_alg».proof.Proof.Spec
import Idealize.ShloMosaic.PureOps.Ideal.Laws
import Idealize.ShloMosaic.Lib.ValueIdx
import Idealize.ShloMosaic.Lib.Pipeline.Value

noncomputable section

namespace Cert.KernelIdeal.KPay

open Idealize.ShloMosaic Idealize.ShloMosaic.ValueIdx Cert.KernelIdeal Cert.KernelIdeal.Gen Cert.GraphConv

/-! ### The operand indices of the two products, coordinate by coordinate -/

private theorem lhs_dot_S512x512_S512x128_0 (j : S512x128.Idx) (k : dot_S512x512_S512x128_S512x128_1_0_0_1_n_n.contr.Idx) :
    (dot_S512x512_S512x128_S512x128_1_0_0_1_n_n.lhsIdx j k 0).val = (j 0).val := by
  simp [DotDims.lhsIdx, dot_S512x512_S512x128_S512x128_1_0_0_1_n_n]; rfl

private theorem lhs_dot_S512x512_S512x128_1 (j : S512x128.Idx) (k : dot_S512x512_S512x128_S512x128_1_0_0_1_n_n.contr.Idx) :
    (dot_S512x512_S512x128_S512x128_1_0_0_1_n_n.lhsIdx j k 1).val = (k ⟨0, by decide⟩).val :=
  DotDims.lhsIdx_val_of_single _ rfl j k

private theorem rhs_dot_S512x512_S512x128_0 (j : S512x128.Idx) (k : dot_S512x512_S512x128_S512x128_1_0_0_1_n_n.contr.Idx) :
    (dot_S512x512_S512x128_S512x128_1_0_0_1_n_n.rhsIdx j k 0).val = (k ⟨0, by decide⟩).val :=
  DotDims.rhsIdx_val_of_single _ rfl j k

private theorem rhs_dot_S512x512_S512x128_1 (j : S512x128.Idx) (k : dot_S512x512_S512x128_S512x128_1_0_0_1_n_n.contr.Idx) :
    (dot_S512x512_S512x128_S512x128_1_0_0_1_n_n.rhsIdx j k 1).val = (j 1).val := by
  simp [DotDims.rhsIdx, dot_S512x512_S512x128_S512x128_1_0_0_1_n_n]; rfl

private theorem lhs_dot_S512x128_S128x128_0 (j : S512x128.Idx) (k : dot_S512x128_S128x128_S512x128_1_0_0_1_n_n.contr.Idx) :
    (dot_S512x128_S128x128_S512x128_1_0_0_1_n_n.lhsIdx j k 0).val = (j 0).val := by
  simp [DotDims.lhsIdx, dot_S512x128_S128x128_S512x128_1_0_0_1_n_n]; rfl

private theorem lhs_dot_S512x128_S128x128_1 (j : S512x128.Idx) (k : dot_S512x128_S128x128_S512x128_1_0_0_1_n_n.contr.Idx) :
    (dot_S512x128_S128x128_S512x128_1_0_0_1_n_n.lhsIdx j k 1).val = (k ⟨0, by decide⟩).val :=
  DotDims.lhsIdx_val_of_single _ rfl j k

private theorem rhs_dot_S512x128_S128x128_0 (j : S512x128.Idx) (k : dot_S512x128_S128x128_S512x128_1_0_0_1_n_n.contr.Idx) :
    (dot_S512x128_S128x128_S512x128_1_0_0_1_n_n.rhsIdx j k 0).val = (k ⟨0, by decide⟩).val :=
  DotDims.rhsIdx_val_of_single _ rfl j k

private theorem rhs_dot_S512x128_S128x128_1 (j : S512x128.Idx) (k : dot_S512x128_S128x128_S512x128_1_0_0_1_n_n.contr.Idx) :
    (dot_S512x128_S128x128_S512x128_1_0_0_1_n_n.rhsIdx j k 1).val = (j 1).val := by
  simp [DotDims.rhsIdx, dot_S512x128_S128x128_S512x128_1_0_0_1_n_n]; rfl

/-! ### The two products read at an index: a sum over the one contracted coordinate -/

private theorem lhsIdx_dot_S512x512_S512x128 (i : Fin 512) (c : Fin 128) (j : Fin 512) :
    dot_S512x512_S512x128_S512x128_1_0_0_1_n_n.lhsIdx (ix2 i c)
        ((contrEquiv1 dot_S512x512_S512x128_S512x128_1_0_0_1_n_n 512 rfl rfl).symm j) = ix2 i j := by
  funext a
  match a with
  | ⟨0, _⟩ => exact Fin.ext (lhs_dot_S512x512_S512x128_0 _ _)
  | ⟨1, _⟩ =>
    exact Fin.ext ((lhs_dot_S512x512_S512x128_1 _ _).trans
      (contrEquiv1_symm_val dot_S512x512_S512x128_S512x128_1_0_0_1_n_n 512 rfl rfl j))

private theorem rhsIdx_dot_S512x512_S512x128 (i : Fin 512) (c : Fin 128) (j : Fin 512) :
    dot_S512x512_S512x128_S512x128_1_0_0_1_n_n.rhsIdx (ix2 i c)
        ((contrEquiv1 dot_S512x512_S512x128_S512x128_1_0_0_1_n_n 512 rfl rfl).symm j) = ix2 j c := by
  funext a
  match a with
  | ⟨0, _⟩ =>
    exact Fin.ext ((rhs_dot_S512x512_S512x128_0 _ _).trans
      (contrEquiv1_symm_val dot_S512x512_S512x128_S512x128_1_0_0_1_n_n 512 rfl rfl j))
  | ⟨1, _⟩ => exact Fin.ext (rhs_dot_S512x512_S512x128_1 _ _)

/-- The adjacency product into a zero accumulator, at row `i` and column `c`: the sum over the source nodes. -/
private theorem matmul_S512x512_S512x128_apply (A : FVec Ideal S512x512 .bf16) (X : FVec Ideal S512x128 .bf16) (i : Fin 512) (c : Fin 128) :
    matmul dot_S512x512_S512x128_S512x128_1_0_0_1_n_n none A X (constant S512x128 .f32 0x00000000#32) (ix2 i c)
      = ∑ j : Fin 512, A (ix2 i j) * X (ix2 j c) := by
  refine (Ideal.matmul_constant_zero_apply _ none A X (ix2 i c)).trans ?_
  rw [← Equiv.sum_comp (contrEquiv1 dot_S512x512_S512x128_S512x128_1_0_0_1_n_n 512 rfl rfl).symm]
  refine Finset.sum_congr rfl fun j _ => ?_
  rw [lhsIdx_dot_S512x512_S512x128, rhsIdx_dot_S512x512_S512x128]

private theorem lhsIdx_dot_S512x128_S128x128 (i : Fin 512) (d : Fin 128) (c : Fin 128) :
    dot_S512x128_S128x128_S512x128_1_0_0_1_n_n.lhsIdx (ix2 i d)
        ((contrEquiv1 dot_S512x128_S128x128_S512x128_1_0_0_1_n_n 128 rfl rfl).symm c) = ix2 i c := by
  funext a
  match a with
  | ⟨0, _⟩ => exact Fin.ext (lhs_dot_S512x128_S128x128_0 _ _)
  | ⟨1, _⟩ =>
    exact Fin.ext ((lhs_dot_S512x128_S128x128_1 _ _).trans
      (contrEquiv1_symm_val dot_S512x128_S128x128_S512x128_1_0_0_1_n_n 128 rfl rfl c))

private theorem rhsIdx_dot_S512x128_S128x128 (i : Fin 512) (d : Fin 128) (c : Fin 128) :
    dot_S512x128_S128x128_S512x128_1_0_0_1_n_n.rhsIdx (ix2 i d)
        ((contrEquiv1 dot_S512x128_S128x128_S512x128_1_0_0_1_n_n 128 rfl rfl).symm c) = ix2 c d := by
  funext a
  match a with
  | ⟨0, _⟩ =>
    exact Fin.ext ((rhs_dot_S512x128_S128x128_0 _ _).trans
      (contrEquiv1_symm_val dot_S512x128_S128x128_S512x128_1_0_0_1_n_n 128 rfl rfl c))
  | ⟨1, _⟩ => exact Fin.ext (rhs_dot_S512x128_S128x128_1 _ _)

/-- The weight product into a zero accumulator, at row `i` and column `d`: the sum over the features. -/
private theorem matmul_S512x128_S128x128_apply (X : FVec Ideal S512x128 .bf16) (W : FVec Ideal S128x128 .bf16) (i : Fin 512) (d : Fin 128) :
    matmul dot_S512x128_S128x128_S512x128_1_0_0_1_n_n none X W (constant S512x128 .f32 0x00000000#32) (ix2 i d)
      = ∑ c : Fin 128, X (ix2 i c) * W (ix2 c d) := by
  refine (Ideal.matmul_constant_zero_apply _ none X W (ix2 i d)).trans ?_
  rw [← Equiv.sum_comp (contrEquiv1 dot_S512x128_S128x128_S512x128_1_0_0_1_n_n 128 rfl rfl).symm]
  refine Finset.sum_congr rfl fun c _ => ?_
  rw [lhsIdx_dot_S512x128_S128x128, rhsIdx_dot_S512x128_S128x128]

/-! ### The layout operations read at explicit coordinates -/

section Layout
variable {α : Type}

/-- A length-512 vector as a column: entry `(i, u)` is entry `i`. -/
private theorem shapeCast_S512_S512x1_apply (x : S512.Idx → α) (i : Fin 512) (u : Fin 1) :
    shapeCast S512x1 x shapeCasts_S512_S512x1 (ix2 i u) = x (ix1 i) :=
  shapeCast_apply x _ _ _ (by
    have hu : u.val = 0 := by omega
    rw [Shape.rowMajor_val_one, Shape.rowMajor_val_two]
    show i.val = i.val * 1 + u.val
    rw [hu, Nat.mul_one, Nat.add_zero])

/-- A column repeated along 128 lanes: entry `(i, c)` is the column's entry `(i, 0)`. -/
private theorem broadcastTo_S512x1_S512x128_apply (v : S512x1.Idx → α) (i : Fin 512) (c : Fin 128) :
    broadcastTo S512x128 v broadcasts_S512x1_S512x128 (ix2 i c) = v (ix2 i (0 : Fin 1)) := by
  refine broadcastTo_apply v _ (ix2 i c) (ix2 i (0 : Fin 1)) fun ax => ?_
  match ax with
  | ⟨0, _⟩ => rfl
  | ⟨1, _⟩ => rfl

/-- A length-128 vector as a row: entry `(u, d)` is entry `d`. -/
private theorem shapeCast_S128_S1x128_apply (x : S128.Idx → α) (u : Fin 1) (d : Fin 128) :
    shapeCast S1x128 x shapeCasts_S128_S1x128 (ix2 u d) = x (ix1 d) :=
  shapeCast_apply x _ _ _ (by
    have hu : u.val = 0 := by omega
    rw [Shape.rowMajor_val_one, Shape.rowMajor_val_two]
    show d.val = u.val * 128 + d.val
    rw [hu, Nat.zero_mul, Nat.zero_add])

/-- A row repeated down 512 rows: entry `(i, d)` is the row's entry `(0, d)`. -/
private theorem broadcastTo_S1x128_S512x128_apply (v : S1x128.Idx → α) (i : Fin 512) (d : Fin 128) :
    broadcastTo S512x128 v broadcasts_S1x128_S512x128 (ix2 i d) = v (ix2 (0 : Fin 1) d) := by
  refine broadcastTo_apply v _ (ix2 i d) (ix2 (0 : Fin 1) d) fun ax => ?_
  match ax with
  | ⟨0, _⟩ => rfl
  | ⟨1, _⟩ => rfl

/-- A length-128 vector with two leading unit axes: entry `(0, 0, d)` is entry `d`. -/
private theorem shapeCast_S128_S1x1x128_apply (x : S128.Idx → α) (d : Fin 128) :
    shapeCast S1x1x128 x shapeCasts_S128_S1x1x128 (ix3 (0 : Fin 1) (0 : Fin 1) d) = x (ix1 d) :=
  shapeCast_apply x _ _ _ (by
    rw [Shape.rowMajor_val_one, Shape.rowMajor_val_three]
    show d.val = (0 * 1 + 0) * 128 + d.val
    omega)

end Layout

/-! ### One layer -/

/-- One layer as the body computes it: scale the features by the source scaling, multiply by the adjacency matrix,
    scale by the destination scaling, multiply by the weights, add the bias, clamp below at zero. -/
private def layerK (A : FVec Ideal S512x512 .bf16) (h : FVec Ideal S512x128 .f32) (oi ii : FVec Ideal S512 .f32)
    (W : Vec Ideal S128x128 .f32) (b : Vec Ideal S128 .f32) : FVec Ideal S512x128 .f32 :=
  maximumf
    (addf
      (matmul dot_S512x128_S128x128_S512x128_1_0_0_1_n_n none
        (truncf .bf16
          (mulf
            (matmul dot_S512x512_S512x128_S512x128_1_0_0_1_n_n none A
              (truncf .bf16
                (mulf h (broadcastTo S512x128 (shapeCast S512x1 oi shapeCasts_S512_S512x1) broadcasts_S512x1_S512x128))
                bitsLt_bf16_f32)
              (constant S512x128 .f32 0x00000000#32))
            (broadcastTo S512x128 (shapeCast S512x1 ii shapeCasts_S512_S512x1) broadcasts_S512x1_S512x128))
          bitsLt_bf16_f32)
        (truncf .bf16 W bitsLt_bf16_f32)
        (constant S512x128 .f32 0x00000000#32))
      (broadcastTo S512x128 (shapeCast S1x128 b shapeCasts_S128_S1x128) broadcasts_S1x128_S512x128))
    (broadcast S512x128 (Scalar.ofBits .f32 0x00000000#32))

private theorem layerK_apply (A : FVec Ideal S512x512 .bf16) (h : FVec Ideal S512x128 .f32) (oi ii : FVec Ideal S512 .f32)
    (W : Vec Ideal S128x128 .f32) (b : Vec Ideal S128 .f32) (i : Fin 512) (d : Fin 128) :
    layerK A h oi ii W b (ix2 i d)
      = layerG (fun i j => A (ix2 i j)) (fun j => oi (ix1 j)) (fun i => ii (ix1 i)) (fun i c => h (ix2 i c)) W b i d := by
  unfold layerK layerG
  rw [maximumf_apply, addf_apply, broadcast_apply, matmul_S512x128_S128x128_apply, broadcastTo_S1x128_S512x128_apply,
    shapeCast_S128_S1x128_apply]
  rw [Ideal.ofBits_def, Ideal.ofBits_zero_f32]
  refine congrArg (fun x => max (x + b (ix1 d)) 0) (Finset.sum_congr rfl fun c _ => ?_)
  rw [truncf_apply, truncf_apply, mulf_apply, matmul_S512x512_S512x128_apply, broadcastTo_S512x1_S512x128_apply,
    shapeCast_S512_S512x1_apply]
  refine congrArg (fun x => x * ii (ix1 i) * W (ix2 c d)) (Finset.sum_congr rfl fun j _ => ?_)
  rw [truncf_apply, mulf_apply, broadcastTo_S512x1_S512x128_apply, shapeCast_S512_S512x1_apply]

/-! ### The whole payload -/

/-- The payload is two layers, the sum over the rows, the scaling by the constant, and a change of shape. -/
private theorem k0_pay6_eq (v16 : FVec Ideal S512x128 .f32) (v34 : FVec Ideal S512x512 .bf16) (v39 v41 : FVec Ideal S512 .f32)
    (v52 : Vec Ideal S128x128 .f32) (v55 : Vec Ideal S128 .f32) (v70 : Vec Ideal S128x128 .f32) (v73 : Vec Ideal S128 .f32) :
    k0_pay6 (F := Ideal) v16 v34 v39 v41 v52 v55 v70 v73
      = shapeCast S1x1x128
          (mulf
            (multiReduction .add [0] S128
              (layerK v34 (layerK v34 v16 v39 (rsqrt v41) v52 v55) v39 (rsqrt v41) v70 v73)
              0x00000000#32 reduces_S512x128_S128 (.inl rfl) rfl)
            (broadcast S128 (Scalar.ofBits .f32 0x3B000000#32)))
          shapeCasts_S128_S1x1x128 := rfl

theorem pay6_apply (v16 : FVec Ideal S512x128 .f32) (v34 : FVec Ideal S512x512 .bf16) (v39 v41 : FVec Ideal S512 .f32)
    (v52 : Vec Ideal S128x128 .f32) (v55 : Vec Ideal S128 .f32) (v70 : Vec Ideal S128x128 .f32) (v73 : Vec Ideal S128 .f32) (d : Fin 128) :
    k0_pay6 (F := Ideal) v16 v34 v39 v41 v52 v55 v70 v73 (ix3 (0 : Fin 1) (0 : Fin 1) d)
      = graphOutG (fun i j => v34 (ix2 i j)) (fun j => v39 (ix1 j)) (fun i => Ideal.rsqrt (v41 (ix1 i))) (fun i c => v16 (ix2 i c))
          v52 v55 v70 v73 d := by
  rw [k0_pay6_eq, shapeCast_S128_S1x1x128_apply, mulf_apply, broadcast_apply]
  refine (congrArg (· * _) (Ideal.multiReduction_add_single _ _ reduces_S512x128_S128 _ _ (ix1 d))).trans ?_
  unfold graphOutG
  refine congrArg (· * Ideal.ofBits .f32 0x3B000000#32) (Finset.sum_congr rfl fun (i : Fin 512) _ => ?_)
  have hi : reduces_S512x128_S128.lift (ix1 d) i = ix2 i d := by
    funext a
    match a with
    | ⟨0, _⟩ => rfl
    | ⟨1, _⟩ => rfl
  rw [hi, layerK_apply]
  refine congrArg (fun H => layerG _ _ _ H v70 v73 i d) ?_
  funext i' c
  exact layerK_apply v34 v16 v39 (rsqrt v41) v52 v55 i' c

end Cert.KernelIdeal.KPay

end
-- ==== Proof.KOut.lean ====
/-
  What the body leaves in the output block of one grid point, read at an index: the per-graph result row of the
  three integer input blocks and the weight arrays.
-/
import proofs.«418503_j35381940584593_2_alg».proof.Proof.Gen.KernelIdeal.Frame
import proofs.«418503_j35381940584593_2_alg».proof.Proof.Spec
import proofs.«418503_j35381940584593_2_alg».proof.Proof.KPay1
import proofs.«418503_j35381940584593_2_alg».proof.Proof.KPay2
import Idealize.ShloMosaic.Lib.Pipeline.Value

noncomputable section

namespace Cert.KernelIdeal.KPay

open Idealize.ShloMosaic Idealize.ShloMosaic.ValueIdx Cert.KernelIdeal Cert.KernelIdeal.Gen Cert.GraphConv

/-- The zero offsets of a whole-block rectangle, however many axes. -/
private theorem off3_zero : (![0, 0, 0] : Fin 3 → Nat) = fun _ => 0 := funext fun a => by fin_cases a <;> rfl
private theorem off2_zero : (![0, 0] : Fin 2 → Nat) = fun _ => 0 := funext fun a => by fin_cases a <;> rfl
private theorem off1_zero : (![0] : Fin 1 → Nat) = fun _ => 0 := funext fun a => by fin_cases a; rfl

/-- Every load and the one store of the body go through the whole block, so the output block is the last value of the body
    over the input blocks themselves; its adjacency matrix, scalings and embedded features are the per-graph ones. -/
theorem out0_8_apply (x0 : Vec Ideal S1x1x512 .i32) (x1 x2 : Vec Ideal S1x1x8192 .i32) (x3 : Vec Ideal S64x128 .f32)
    (x4 : Vec Ideal S128x128 .f32) (x5 : Vec Ideal S128 .f32) (x6 : Vec Ideal S128x128 .f32) (x7 : Vec Ideal S128 .f32) (d : Fin 128) :
    out0_8 (F := Ideal) x0 x1 x2 x3 x4 x5 x6 x7 (ix3 (0 : Fin 1) (0 : Fin 1) d)
      = graphOut (fun a => x0 (ix3 (0 : Fin 1) (0 : Fin 1) a)) (fun e => x1 (ix3 (0 : Fin 1) (0 : Fin 1) e))
          (fun e => x2 (ix3 (0 : Fin 1) (0 : Fin 1) e)) x3 x4 x5 x6 x7 d := by
  unfold out0_8
  rw [View.canon_unit_zero off3_zero]
  simp only [View.ld_unit_zero (S := S1x1x512) off3_zero, View.ld_unit_zero (S := S1x1x8192) off3_zero,
    View.ld_unit_zero (S := S64x128) off2_zero, View.ld_unit_zero (S := S128x128) off2_zero,
    View.ld_unit_zero (S := S128) off1_zero]
  rw [pay6_apply]
  unfold graphOut
  have hA : (fun i j => k0_pay3 (F := Ideal) x1 x2 (ix2 i j))
      = adj (fun e => x1 (ix3 (0 : Fin 1) (0 : Fin 1) e)) (fun e => x2 (ix3 (0 : Fin 1) (0 : Fin 1) e)) := by
    funext i j; exact pay3_apply x1 x2 i j
  have hO : (fun j => k0_pay4 (F := Ideal) x1 x2 (ix1 j))
      = outIsqrt (fun e => x1 (ix3 (0 : Fin 1) (0 : Fin 1) e)) (fun e => x2 (ix3 (0 : Fin 1) (0 : Fin 1) e)) := by
    funext j; exact pay4_apply x1 x2 j
  have hI : (fun i => Ideal.rsqrt (k0_pay5 (F := Ideal) x1 x2 (ix1 i)))
      = inIsqrt (fun e => x1 (ix3 (0 : Fin 1) (0 : Fin 1) e)) (fun e => x2 (ix3 (0 : Fin 1) (0 : Fin 1) e)) := by
    funext i; rw [pay5_apply]; rfl
  have hH : (fun i c => k0_pay1 (F := Ideal) x0 x3 (ix2 i c)) = h0 (fun a => x0 (ix3 (0 : Fin 1) (0 : Fin 1) a)) x3 := by
    funext i c; exact pay1_apply x0 x3 i c
  rw [hA, hO, hI, hH]

end Cert.KernelIdeal.KPay

end
-- ==== Proof.KRun.lean ====
/-
  The kernel's run at the ideal instance with its result array named: row `g` of the result is graph `g`'s per-graph
  reading of the argument arrays.
-/
import proofs.«418503_j35381940584593_2_alg».proof.Proof.Gen.KernelIdeal.Frame
import proofs.«418503_j35381940584593_2_alg».proof.Proof.Spec
import proofs.«418503_j35381940584593_2_alg».proof.Proof.KHost
import proofs.«418503_j35381940584593_2_alg».proof.Proof.KOut
import Idealize.ShloMosaic.Lib.Pipeline.Value
import Idealize.ShloMosaic.Lib.StableHlo.Run

noncomputable section

namespace Cert.KernelIdeal.KValue

open Idealize.ShloMosaic Idealize.ShloMosaic.TcCoe Idealize.ShloMosaic.ValueIdx Idealize.SL.Sem Cert.KernelIdeal Cert.KernelIdeal.Gen Cert.GraphConv

variable (m : (ℓ : Loc nD τ sig) → Buf (Elt Ideal) ℓ) (ρ : Dev nD → PrngReg)

/-- Where each window's block sits at each point: the three per-graph inputs and the output move one block per point along
    their first axis, the five weight arrays stay at block zero. -/
theorem idx_facts : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0)
    ∧ win0_7.index t (0 : Fin 1) = 0
    ∧ (win0_8.index t (0 : Fin 3) = t.val ∧ win0_8.index t (1 : Fin 3) = 0 ∧ win0_8.index t (2 : Fin 3) = 0) :=
  (by decide +kernel : ∀ t : Fin grid0.N, _)
/-- The region's result array: row `g` is graph `g`'s reading of the argument arrays. -/
def G3 (c : Dev nD) : Buf (Elt Ideal) ((c : Thread nD τ).loc main_v14) := fun (i : S256x1x128.Idx) =>
  graphOut (nfLoc (m ((c : Thread nD τ).loc main_arg0)) ⟨(i 0).val, (i 0).isLt⟩)
    (endLoc (m ((c : Thread nD τ).loc main_arg1)) ⟨(i 0).val, (i 0).isLt⟩)
    (endLoc (m ((c : Thread nD τ).loc main_arg2)) ⟨(i 0).val, (i 0).isLt⟩)
    (m ((c : Thread nD τ).loc main_arg3)) (m ((c : Thread nD τ).loc main_arg4)) (m ((c : Thread nD τ).loc main_arg5))
    (m ((c : Thread nD τ).loc main_arg6)) (m ((c : Thread nD τ).loc main_arg7)) ⟨(i 2).val, (i 2).isLt⟩

theorem G3_apply (c : Dev nD) (i : S256x1x128.Idx) (g : Fin 256) (d : Fin 128) (hg : (i 0).val = g.val) (hd : (i 2).val = d.val) :
    G3 m c i = graphOut (nfLoc (m ((c : Thread nD τ).loc main_arg0)) g) (endLoc (m ((c : Thread nD τ).loc main_arg1)) g)
      (endLoc (m ((c : Thread nD τ).loc main_arg2)) g)
      (m ((c : Thread nD τ).loc main_arg3)) (m ((c : Thread nD τ).loc main_arg4)) (m ((c : Thread nD τ).loc main_arg5))
      (m ((c : Thread nD τ).loc main_arg6)) (m ((c : Thread nD τ).loc main_arg7)) d := by
  obtain rfl : g = ⟨(i 0).val, (i 0).isLt⟩ := Fin.ext hg.symm
  obtain rfl : d = ⟨(i 2).val, (i 2).isLt⟩ := Fin.ext hd.symm
  rfl

/-- One point's output block over blocks that are rows of whole arrays. -/
theorem block_row (x0 : Vec Ideal S1x1x512 .i32) (x1 x2 : Vec Ideal S1x1x8192 .i32) (x3 : Vec Ideal S64x128 .f32)
    (x4 : Vec Ideal S128x128 .f32) (x5 : Vec Ideal S128 .f32) (x6 : Vec Ideal S128x128 .f32) (x7 : Vec Ideal S128 .f32)
    (nfl : Fin 512 → BitVec 32) (sl dl : Fin 8192 → BitVec 32)
    (B3 : Vec Ideal S64x128 .f32) (B4 : Vec Ideal S128x128 .f32) (B5 : Vec Ideal S128 .f32) (B6 : Vec Ideal S128x128 .f32)
    (B7 : Vec Ideal S128 .f32) (d : Fin 128)
    (h0 : ∀ a, x0 (ix3 (0 : Fin 1) (0 : Fin 1) a) = nfl a) (h1 : ∀ e, x1 (ix3 (0 : Fin 1) (0 : Fin 1) e) = sl e)
    (h2 : ∀ e, x2 (ix3 (0 : Fin 1) (0 : Fin 1) e) = dl e) (h3 : x3 = B3) (h4 : x4 = B4) (h5 : x5 = B5) (h6 : x6 = B6) (h7 : x7 = B7)
    (y : S1x1x128.Idx) (hy : (y 2).val = d.val) :
    out0_8 (F := Ideal) x0 x1 x2 x3 x4 x5 x6 x7 y = graphOut nfl sl dl B3 B4 B5 B6 B7 d := by
  subst h3 h4 h5 h6 h7
  obtain rfl : y = ix3 (0 : Fin 1) (0 : Fin 1) d := by
    funext a
    match a with
    | ⟨0, _⟩ => exact Fin.ext (by show (y 0).val = 0; have : (y 0).val < 1 := (y 0).isLt; omega)
    | ⟨1, _⟩ => exact Fin.ext (by show (y 1).val = 0; have : (y 1).val < 1 := (y 1).isLt; omega)
    | ⟨2, _⟩ => exact Fin.ext hy
  rw [KPay.out0_8_apply]
  rw [funext h0, funext h1, funext h2]

/-- Point `t`'s block of the node-type array is row `t` of it. -/
theorem iblk0_apply (c : Dev nD) (t : Fin cfg0.N) (g : Fin 256) (hg : g.val = t.val) (a : Fin 512) :
    (iblk m c 0 t : Vec Ideal S1x1x512 .i32) (ix3 (0 : Fin 1) (0 : Fin 1) a)
      = (V m c main_v1 : S256x1x512.Idx → BitVec 32) (ix3 g (0 : Fin 1) a) := by
  obtain ⟨⟨e0, e1, e2⟩, -⟩ := idx_facts t
  show V m c main_v1 (((cfg0.win 0).blk t).view.emb (ix3 (0 : Fin 1) (0 : Fin 1) a)) = V m c main_v1 (ix3 g (0 : Fin 1) a)
  refine congrArg _ (funext fun ax => Fin.ext ?_)
  match ax with
  | ⟨0, _⟩ => show win0_0.index t (0 : Fin 3) * 1 + 1 * 0 = g.val; omega
  | ⟨1, _⟩ => show win0_0.index t (1 : Fin 3) * 1 + 1 * 0 = 0; omega
  | ⟨2, _⟩ => show win0_0.index t (2 : Fin 3) * 512 + 1 * a.val = a.val; omega

/-- Point `t`'s block of the edge-source array is row `t` of it. -/
theorem iblk1_apply (c : Dev nD) (t : Fin cfg0.N) (g : Fin 256) (hg : g.val = t.val) (e : Fin 8192) :
    (iblk m c 1 t : Vec Ideal S1x1x8192 .i32) (ix3 (0 : Fin 1) (0 : Fin 1) e)
      = (V m c main_v9 : S256x1x8192.Idx → BitVec 32) (ix3 g (0 : Fin 1) e) := by
  obtain ⟨-, ⟨e0, e1, e2⟩, -⟩ := idx_facts t
  show V m c main_v9 (((cfg0.win 1).blk t).view.emb (ix3 (0 : Fin 1) (0 : Fin 1) e)) = V m c main_v9 (ix3 g (0 : Fin 1) e)
  refine congrArg _ (funext fun ax => Fin.ext ?_)
  match ax with
  | ⟨0, _⟩ => show win0_1.index t (0 : Fin 3) * 1 + 1 * 0 = g.val; omega
  | ⟨1, _⟩ => show win0_1.index t (1 : Fin 3) * 1 + 1 * 0 = 0; omega
  | ⟨2, _⟩ => show win0_1.index t (2 : Fin 3) * 8192 + 1 * e.val = e.val; omega

/-- Point `t`'s block of the edge-destination array is row `t` of it. -/
theorem iblk2_apply (c : Dev nD) (t : Fin cfg0.N) (g : Fin 256) (hg : g.val = t.val) (e : Fin 8192) :
    (iblk m c 2 t : Vec Ideal S1x1x8192 .i32) (ix3 (0 : Fin 1) (0 : Fin 1) e)
      = (V m c main_v13 : S256x1x8192.Idx → BitVec 32) (ix3 g (0 : Fin 1) e) := by
  obtain ⟨-, -, ⟨e0, e1, e2⟩, -⟩ := idx_facts t
  show V m c main_v13 (((cfg0.win 2).blk t).view.emb (ix3 (0 : Fin 1) (0 : Fin 1) e)) = V m c main_v13 (ix3 g (0 : Fin 1) e)
  refine congrArg _ (funext fun ax => Fin.ext ?_)
  match ax with
  | ⟨0, _⟩ => show win0_2.index t (0 : Fin 3) * 1 + 1 * 0 = g.val; omega
  | ⟨1, _⟩ => show win0_2.index t (1 : Fin 3) * 1 + 1 * 0 = 0; omega
  | ⟨2, _⟩ => show win0_2.index t (2 : Fin 3) * 8192 + 1 * e.val = e.val; omega

/-- Every point's block of each weight array is the whole array, as launched. -/
theorem iblk3_eq (c : Dev nD) (t : Fin cfg0.N) :
    (iblk m c 3 t : Vec Ideal S64x128 .f32) = m ((c : Thread nD τ).loc main_arg3) := by
  obtain ⟨-, -, -, ⟨e0, e1⟩, -⟩ := idx_facts t
  rw [← V_main_arg3 m c]
  funext j
  show V m c main_arg3 (((cfg0.win 3).blk t).view.emb j) = V m c main_arg3 j
  refine congrArg _ (funext fun ax => Fin.ext ?_)
  match ax with
  | ⟨0, _⟩ => show win0_3.index t (0 : Fin 2) * 64 + 1 * (j 0).val = (j 0).val; omega
  | ⟨1, _⟩ => show win0_3.index t (1 : Fin 2) * 128 + 1 * (j 1).val = (j 1).val; omega

theorem iblk4_eq (c : Dev nD) (t : Fin cfg0.N) :
    (iblk m c 4 t : Vec Ideal S128x128 .f32) = m ((c : Thread nD τ).loc main_arg4) := by
  obtain ⟨-, -, -, -, ⟨e0, e1⟩, -⟩ := idx_facts t
  rw [← V_main_arg4 m c]
  funext j
  show V m c main_arg4 (((cfg0.win 4).blk t).view.emb j) = V m c main_arg4 j
  refine congrArg _ (funext fun ax => Fin.ext ?_)
  match ax with
  | ⟨0, _⟩ => show win0_4.index t (0 : Fin 2) * 128 + 1 * (j 0).val = (j 0).val; omega
  | ⟨1, _⟩ => show win0_4.index t (1 : Fin 2) * 128 + 1 * (j 1).val = (j 1).val; omega

theorem iblk5_eq (c : Dev nD) (t : Fin cfg0.N) :
    (iblk m c 5 t : Vec Ideal S128 .f32) = m ((c : Thread nD τ).loc main_arg5) := by
  obtain ⟨-, -, -, -, -, e0, -⟩ := idx_facts t
  rw [← V_main_arg5 m c]
  funext j
  show V m c main_arg5 (((cfg0.win 5).blk t).view.emb j) = V m c main_arg5 j
  refine congrArg _ (funext fun ax => Fin.ext ?_)
  match ax with
  | ⟨0, _⟩ => show win0_5.index t (0 : Fin 1) * 128 + 1 * (j 0).val = (j 0).val; omega

theorem iblk6_eq (c : Dev nD) (t : Fin cfg0.N) :
    (iblk m c 6 t : Vec Ideal S128x128 .f32) = m ((c : Thread nD τ).loc main_arg6) := by
  obtain ⟨-, -, -, -, -, -, ⟨e0, e1⟩, -⟩ := idx_facts t
  rw [← V_main_arg6 m c]
  funext j
  show V m c main_arg6 (((cfg0.win 6).blk t).view.emb j) = V m c main_arg6 j
  refine congrArg _ (funext fun ax => Fin.ext ?_)
  match ax with
  | ⟨0, _⟩ => show win0_6.index t (0 : Fin 2) * 128 + 1 * (j 0).val = (j 0).val; omega
  | ⟨1, _⟩ => show win0_6.index t (1 : Fin 2) * 128 + 1 * (j 1).val = (j 1).val; omega

theorem iblk7_eq (c : Dev nD) (t : Fin cfg0.N) :
    (iblk m c 7 t : Vec Ideal S128 .f32) = m ((c : Thread nD τ).loc main_arg7) := by
  obtain ⟨-, -, -, -, -, -, -, e0, -⟩ := idx_facts t
  rw [← V_main_arg7 m c]
  funext j
  show V m c main_arg7 (((cfg0.win 7).blk t).view.emb j) = V m c main_arg7 j
  refine congrArg _ (funext fun ax => Fin.ext ?_)
  match ax with
  | ⟨0, _⟩ => show win0_7.index t (0 : Fin 1) * 128 + 1 * (j 0).val = (j 0).val; omega

/-- WHAT POINT `t` WRITES BACK is row `t` of the result array: the output block is the per-graph reading of the input
    blocks, the three integer blocks are row `t` of their arrays — graph `t`'s node types and relative edge ends — and the
    weight blocks are the weight arrays. -/
theorem flushed_eq (c : Dev nD) (hnf : NfRange (m ((c : Thread nD τ).loc main_arg0))) (t : Fin cfg0.N) :
    (dats m 0 c).flushed 8 t = ((cfg0.win 8).blk t).view.read (Elt Ideal) (G3 m c) := by
  show (cfg0.win 8).cut (grid0.coords t) ((dats m 0 c).after 8 t) = _
  rw [after0_8]
  obtain ⟨-, -, -, -, -, -, -, -, ⟨e0, e1, e2⟩⟩ := idx_facts t
  have ht : t.val < 256 := Nat.lt_of_lt_of_eq t.isLt N_0
  refine funext fun (y : S1x1x128.Idx) => ?_
  show out0_8 (F := Ideal) (iblk m c 0 t) (iblk m c 1 t) (iblk m c 2 t) (iblk m c 3 t) (iblk m c 4 t) (iblk m c 5 t) (iblk m c 6 t) (iblk m c 7 t) y
    = G3 m c (((cfg0.win 8).blk t).view.emb y)
  refine (block_row (iblk m c 0 t) (iblk m c 1 t) (iblk m c 2 t) (iblk m c 3 t) (iblk m c 4 t) (iblk m c 5 t) (iblk m c 6 t) (iblk m c 7 t)
    (nfLoc (m ((c : Thread nD τ).loc main_arg0)) ⟨t.val, ht⟩) (endLoc (m ((c : Thread nD τ).loc main_arg1)) ⟨t.val, ht⟩)
    (endLoc (m ((c : Thread nD τ).loc main_arg2)) ⟨t.val, ht⟩)
    (m ((c : Thread nD τ).loc main_arg3)) (m ((c : Thread nD τ).loc main_arg4)) (m ((c : Thread nD τ).loc main_arg5))
    (m ((c : Thread nD τ).loc main_arg6)) (m ((c : Thread nD τ).loc main_arg7)) ⟨(y 2).val, (y 2).isLt⟩
    (fun a => (iblk0_apply m c t ⟨t.val, ht⟩ rfl a).trans (KHost.V_v1 m c hnf ⟨t.val, ht⟩ a))
    (fun e => (iblk1_apply m c t ⟨t.val, ht⟩ rfl e).trans (KHost.V_v9 m c ⟨t.val, ht⟩ e))
    (fun e => (iblk2_apply m c t ⟨t.val, ht⟩ rfl e).trans (KHost.V_v13 m c ⟨t.val, ht⟩ e))
    (iblk3_eq m c t) (iblk4_eq m c t) (iblk5_eq m c t) (iblk6_eq m c t) (iblk7_eq m c t) y rfl).trans ?_
  refine (G3_apply m c _ ⟨t.val, ht⟩ ⟨(y 2).val, (y 2).isLt⟩ ?_ ?_).symm
  · show win0_8.index t (0 : Fin 3) * 1 + 1 * (y 0).val = t.val
    have : (y 0).val < 1 := (y 0).isLt
    omega
  · show win0_8.index t (2 : Fin 3) * 128 + 1 * (y 2).val = (y 2).val
    omega

/-- An index of the result array is in point `t`'s block iff each coordinate is in the block's range on its axis. -/
theorem mem_blk (t : Fin cfg0.N) (i : S256x1x128.Idx) :
    i ∈ ((cfg0.win 8).blk t).view.set ↔ ∀ a : Fin 3, win0_8.index t a * S1x1x128.size a ≤ (i a).val
      ∧ (i a).val < win0_8.index t a * S1x1x128.size a + S1x1x128.size a := by
  show i ∈ ((View.whole main_v14).slice (win0_8.rect t)).set ↔ _
  rw [View.set_slice_whole, Rect.mem_set_unit]
  exact Iff.rfl

/-- Row `g` of the result array is in point `g`'s block. -/
theorem cover (i : S256x1x128.Idx) : ∃ t : Fin cfg0.N, (cfg0.win 8).flush t = true ∧ i ∈ ((cfg0.win 8).blk t).view.set := by
  have h0 : (i 0).val < 256 := (i 0).isLt
  have h1 : (i 1).val < 1 := (i 1).isLt
  have h2 : (i 2).val < 128 := (i 2).isLt
  obtain ⟨t, htv⟩ : ∃ t : Fin cfg0.N, t.val = (i 0).val := ⟨⟨(i 0).val, Nat.lt_of_lt_of_eq h0 N_0.symm⟩, rfl⟩
  obtain ⟨-, -, -, -, -, -, -, -, ⟨e0, e1, e2⟩⟩ := idx_facts t
  refine ⟨t, flush0_8 t, ?_⟩
  rw [mem_blk]
  intro a
  match a with
  | ⟨0, _⟩ =>
    show win0_8.index t (0 : Fin 3) * 1 ≤ (i 0).val ∧ (i 0).val < win0_8.index t (0 : Fin 3) * 1 + 1
    omega
  | ⟨1, _⟩ =>
    show win0_8.index t (1 : Fin 3) * 1 ≤ (i 1).val ∧ (i 1).val < win0_8.index t (1 : Fin 3) * 1 + 1
    omega
  | ⟨2, _⟩ =>
    show win0_8.index t (2 : Fin 3) * 128 ≤ (i 2).val ∧ (i 2).val < win0_8.index t (2 : Fin 3) * 128 + 128
    omega

/-- THE REGION'S RESULT ARRAY after the run: every row its graph's reading. -/
theorem final (c : Dev nD) (hnf : NfRange (m ((c : Thread nD τ).loc main_arg0))) : (dats m 0 c).arrAt 8 cfg0.N = G3 m c :=
  (dats m 0 c).arrAt_eq_of_cover 8 (G3 m c) (fun t _ => flushed_eq m c hnf t) cover

/-- The line after the region drops the unit axis: entry `(g, d)` of the kernel's result is entry `(g, 0, d)` of the region's
    result array, which is graph `g`'s reading at `d`. -/
theorem tail_eq (c : Dev nD) (hnf : NfRange (m ((c : Thread nD τ).loc main_arg0))) :
    Pipeline.afterTail₀ cfgs (dats m) 0 (V0 m) [hostOps1] c main_v15
      = GK (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  unfold Pipeline.afterTail₀
  show StableHlo.after hostOps1 _ (Proc.devRef .tc main_v15) = _
  after_results
  have e : Pipeline.withArrays (cfgs 0).spec c (V0 m c) (fun w => (dats m 0 c).arrAt w (cfgs 0).N) (Proc.devRef .tc main_v14)
      = G3 m c := (Pipeline.withArrays_arr spec0 launch0.win.arr_inj c _ _ 8).trans (final m c hnf)
  rw [e]
  funext i
  obtain ⟨g, d, rfl⟩ : ∃ (g : Fin 256) (d : Fin 128), i = ix2 g d := ⟨i 0, i 1, eq_ix2 i⟩
  show shapeCast S256x128 (G3 m c) shapeCasts_S256x1x128_S256x128 (ix2 g d) = _
  refine (shapeCast_apply _ _ (ix2 g d) (ix3 g (0 : Fin 1) d) ?_).trans ?_
  · rw [Shape.rowMajor_val_three, Shape.rowMajor_val_two]
    show (g.val * 1 + 0) * 128 + d.val = g.val * 128 + d.val
    omega
  · exact G3_apply m c _ g d rfl rfl

/-- THE RUN: the frame run re-posted — the result array by the line after the region, the argument arrays as launched (the
    three integer ones are no window's array and no later line writes them; the five weight arrays are input windows' arrays,
    never written). -/
theorem run (hnf : ∀ c : Dev nD, NfRange (m ((c : Thread nD τ).loc main_arg0))) :
    θ_run (defs (F := Ideal)) (onTc (τ := τ) (main (F := Ideal))) ⟨m, fun _ => 0, ρ⟩ (fun r => ∀ c : Dev nD,
      r.2.mem ((c.tc : Thread nD τ).loc main_v15)
          = GK (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v15 (Pipeline.mem_restRefs_of main_v15 (by decide) (by decide))).trans (tail_eq m c (hnf c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KValue

end
-- ==== Proof.LibRowIndex.lean ====
/-
  Reading a row gather and a row scatter-add at an index.

  `x[idx]` over the rows of a matrix `x : [N, C]` at a column of row numbers `idx : [n, 1]` is the gather whose
  result row `i` is row `idx[i]` of `x`, the number read signed and clamped into `[0, N - 1]`.
  `segment_sum` of the rows of `upd : [n, C]` by the row numbers `idx : [n, 1]` into `x : [R, C]` is the
  scatter with an add body: at the ideal instance element `(r, c)` of the result is `x (r, c)` plus the sum over
  the update rows `i` whose number, read signed and NOT clamped, is `r`, of `upd (i, c)`; a row whose number is
  outside `[0, R)` contributes nowhere.
-/
import Idealize.ShloMosaic.PureOps.Ideal
import Idealize.ShloMosaic.Lib.ValueIdx

noncomputable section

namespace Idealize.ShloMosaic.RowIndex

open Idealize.ShloMosaic Idealize.ShloMosaic.ValueIdx

/-- The dimension numbers of a gather of whole rows: operand `[N, C]`, row numbers `[n, 1]`, result `[n, C]`. -/
abbrev rowGatherDims (N C n : Nat)
    (wf : GatherDims.WF ⟨2, ![N, C]⟩ ⟨2, ![n, 1]⟩ ⟨2, ![n, C]⟩ [1] [0] [] [0] [] 1 ![1, C]) :
    GatherDims ⟨2, ![N, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- Result element `(i, j)` of a row gather is the operand at row `idx[i, 0]` (signed, clamped), column `j`. -/
theorem gather_rows_apply {α : Type} {N C n w : Nat} (hN : 0 < N)
    (wf : GatherDims.WF ⟨2, ![N, C]⟩ ⟨2, ![n, 1]⟩ ⟨2, ![n, C]⟩ [1] [0] [] [0] [] 1 ![1, C])
    (x : (⟨2, ![N, C]⟩ : Shape).Idx → α) (idx : IVec ⟨2, ![n, 1]⟩ w) (i : Fin n) (j : Fin C) :
    Host.gather (rowGatherDims N C n wf) x idx (ix2 i j)
      = x (ix2 (⟨min (idx (ix2 i (0 : Fin 1))).toInt.toNat (N - 1), by omega⟩ : Fin N) j) := by
  unfold Host.gather
  congr 1
  funext a
  refine Fin.ext ?_
  match a with
  | ⟨0, _⟩ =>
    -- the row axis is collapsed and named by the start index map: the clamped row number, no batch or offset part
    show (rowGatherDims N C n wf).start (ix2 i j) idx 0 + (rowGatherDims N C n wf).batchCoord (ix2 i j) 0
        + (rowGatherDims N C n wf).offCoord (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C n wf).startIndexMap from List.mem_singleton.mpr rfl)]
    have hsi : (rowGatherDims N C n wf).siIdx (ix2 i j) ⟨List.idxOf (0 : Fin 2) (rowGatherDims N C n wf).startIndexMap,
        List.idxOf_lt_length_iff.2 (List.mem_singleton.mpr rfl)⟩ = ix2 i (0 : Fin 1) := by
      funext b; refine Fin.ext ?_
      match b with
      | ⟨0, _⟩ => rfl
      | ⟨1, _⟩ => rfl
    rw [hsi]
    rfl
  | ⟨1, _⟩ =>
    -- the column axis is the one offset axis: the slice starts at 0 and the offset is the result's column
    show (rowGatherDims N C n wf).start (ix2 i j) idx 1 + (rowGatherDims N C n wf).batchCoord (ix2 i j) 1
        + (rowGatherDims N C n wf).offCoord (ix2 i j) 1 = j.val
    rw [GatherDims.batchCoord_eq_zero _ _ _ List.not_mem_nil]
    have hs : (rowGatherDims N C n wf).start (ix2 i j) idx 1 = 0 := by
      unfold GatherDims.start
      rw [dif_neg (show (1 : Fin 2) ∉ ([0] : List (Fin 2)) by decide)]
    have ho : (rowGatherDims N C n wf).offCoord (ix2 i j) 1 = j.val := by
      unfold GatherDims.offCoord
      rw [dif_pos ((GatherDims.mem_sKept _ _).2 ⟨show (1 : Fin 2) ∉ ([0] : List (Fin 2)) by decide, List.not_mem_nil⟩)]
      rfl
    rw [hs, ho]; omega

/-- The dimension numbers of a scatter of whole rows: operand `[R, C]`, row numbers `[n, 1]`, updates `[n, C]`. -/
abbrev rowScatterDims (R C n : Nat)
    (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

/-- On the row axis the window of update element `(i, c')` starts at row `i`'s number, read signed. -/
theorem start_rows_zero {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 0 = (idx (ix2 i (0 : Fin 1))).toInt := by
  unfold ScatterDims.start
  rw [dif_pos (show (0 : Fin 2) ∈ (rowScatterDims R C n wf).scatterDimsToOperandDims from List.mem_singleton.mpr rfl)]
  have hsi : (rowScatterDims R C n wf).siIdx (ix2 i c')
      ⟨List.idxOf (0 : Fin 2) (rowScatterDims R C n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- On the column axis, which the scatter indices do not name, the window starts at `0`. -/
theorem start_rows_one {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) :
    (rowScatterDims R C n wf).start (ix2 i c') idx 1 = 0 := by
  unfold ScatterDims.start
  rw [dif_neg (show (1 : Fin 2) ∉ ([0] : List (Fin 2)) by decide)]

/-- The row axis is inserted: the window coordinate there is `0`. -/
theorem window_rows_zero {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 0 = 0 := by
  unfold ScatterDims.window
  have h : (0 : Fin 2) ∉ (rowScatterDims R C n wf).sKept := by
    show (0 : Fin 2) ∉ (List.finRange 2).filter (· ∉ ([0] : List (Fin 2)))
    decide
  rw [dif_neg h]

/-- The column axis is the one window axis: the window coordinate there is the update's column. -/
theorem window_rows_one {R C n : Nat}
    (wf : ScatterDims.WF ⟨2, ![R, C]⟩ ⟨2, ![n, 1]⟩ ⟨2, ![n, C]⟩ [1] [0] [0] 1)
    (i : Fin n) (c' : Fin C) :
    (rowScatterDims R C n wf).window (ix2 i c') 1 = c'.val := by
  unfold ScatterDims.window
  have h : (1 : Fin 2) ∈ (rowScatterDims R C n wf).sKept := by
    show (1 : Fin 2) ∈ (List.finRange 2).filter (· ∉ ([0] : List (Fin 2)))
    decide
  rw [dif_pos h]
  rfl

/-- Where update element `(i, c')` of a row scatter lands: at `(r, c)` exactly when row `i`'s number is `r` and
    `c' = c`. -/
theorem resultIdx_rows_iff {R C n w : Nat}
    (wf : ScatterDims.WF ⟨2, ![R, C]⟩ ⟨2, ![n, 1]⟩ ⟨2, ![n, C]⟩ [1] [0] [0] 1)
    (idx : IVec ⟨2, ![n, 1]⟩ w) (i : Fin n) (c' : Fin C) (r : Fin R) (c : Fin C) :
    (rowScatterDims R C n wf).resultIdx? (ix2 i c') idx = some (ix2 r c)
      ↔ (idx (ix2 i (0 : Fin 1))).toInt = (r.val : Int) ∧ c' = c := by
  have hs0 := start_rows_zero wf idx i c'
  have hs1 := start_rows_one wf idx i c'
  have hw0 := window_rows_zero wf i c'
  have hw1 := window_rows_one wf i c'
  have hr := r.isLt
  have hc := c.isLt
  have hc' := c'.isLt
  unfold ScatterDims.resultIdx?
  by_cases h : ∀ a : Fin 2, 0 ≤ (rowScatterDims R C n wf).start (ix2 i c') idx a + (rowScatterDims R C n wf).window (ix2 i c') a
      ∧ (rowScatterDims R C n wf).start (ix2 i c') idx a + (rowScatterDims R C n wf).window (ix2 i c') a
          < ((⟨2, ![R, C]⟩ : Shape).size a : Int)
  · -- the window is inside the operand: the landing index is (row number + 0, 0 + c')
    rw [dif_pos h, Option.some.injEq]
    have h0 := h 0
    have h1 := h 1
    rw [hs0, hw0] at h0
    rw [hs1, hw1] at h1
    constructor
    · intro hEq
      have e0 : ((rowScatterDims R C n wf).start (ix2 i c') idx 0 + (rowScatterDims R C n wf).window (ix2 i c') 0).toNat = r.val :=
        congrArg Fin.val (congrFun hEq 0)
      have e1 : ((rowScatterDims R C n wf).start (ix2 i c') idx 1 + (rowScatterDims R C n wf).window (ix2 i c') 1).toNat = c.val :=
        congrArg Fin.val (congrFun hEq 1)
      rw [hs0, hw0] at e0
      rw [hs1, hw1] at e1
      exact ⟨by omega, Fin.ext (by omega)⟩
    · rintro ⟨hrow, hcol⟩
      funext a
      refine Fin.ext ?_
      match a with
      | ⟨0, _⟩ =>
        show ((rowScatterDims R C n wf).start (ix2 i c') idx 0 + (rowScatterDims R C n wf).window (ix2 i c') 0).toNat = r.val
        rw [hs0, hw0]; omega
      | ⟨1, _⟩ =>
        show ((rowScatterDims R C n wf).start (ix2 i c') idx 1 + (rowScatterDims R C n wf).window (ix2 i c') 1).toNat = c.val
        rw [hs1, hw1, hcol]; omega
  · -- the window leaves the operand: the update is dropped, and a row number equal to some `r < R` would be inside
    rw [dif_neg h]
    constructor
    · intro hEq; cases hEq
    · rintro ⟨hrow, hcol⟩
      exfalso; apply h
      intro a
      match a with
      | ⟨0, _⟩ =>
        show 0 ≤ (rowScatterDims R C n wf).start (ix2 i c') idx 0 + (rowScatterDims R C n wf).window (ix2 i c') 0
          ∧ (rowScatterDims R C n wf).start (ix2 i c') idx 0 + (rowScatterDims R C n wf).window (ix2 i c') 0 < (R : Int)
        rw [hs0, hw0]; omega
      | ⟨1, _⟩ =>
        show 0 ≤ (rowScatterDims R C n wf).start (ix2 i c') idx 1 + (rowScatterDims R C n wf).window (ix2 i c') 1
          ∧ (rowScatterDims R C n wf).start (ix2 i c') idx 1 + (rowScatterDims R C n wf).window (ix2 i c') 1 < (C : Int)
        rw [hs1, hw1]; omega

/-- Element `(r, c)` of a row scatter-add at the ideal instance: the operand's element plus the updates of the rows
    numbered `r`. -/
theorem scatterAdd_rows_apply {R C n w : Nat}
    (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (c : Fin C) :
    Ideal.hostScatterAdd (rowScatterDims R C n wf) x idx upd (ix2 r c)
      = x (ix2 r c) + ∑ i : Fin n, if (idx (ix2 i (0 : Fin 1))).toInt = (r.val : Int) then upd (ix2 i c) else 0 := by
  unfold Ideal.hostScatterAdd
  show _ + _ = _ + _
  congr 1
  rw [Finset.sum_filter, sum_idx2]
  refine Finset.sum_congr rfl fun i _ => ?_
  -- row by row: a row numbered `r` contributes its column-`c` element alone, any other row nothing
  by_cases hrow : (idx (ix2 i (0 : Fin 1))).toInt = (r.val : Int)
  · rw [if_pos hrow, Finset.sum_eq_single c]
    · rw [if_pos ((resultIdx_rows_iff wf idx i c r c).2 ⟨hrow, rfl⟩)]
    · intro c' _ hne
      rw [if_neg fun h => hne ((resultIdx_rows_iff wf idx i c' r c).1 h).2]
    · intro h; exact absurd (Finset.mem_univ c) h
  · rw [if_neg hrow]
    refine Finset.sum_eq_zero fun c' _ => ?_
    rw [if_neg fun h => hrow ((resultIdx_rows_iff wf idx i c' r c).1 h).1]

end Idealize.ShloMosaic.RowIndex

end
-- ==== Proof.LibSegCount.lean ====
/-
  Reading a one-dimensional scatter-add (a segment count, or a segment sum of scalars) at an index.

  segment_sum of the entries of upd : [n] by the numbers idx : [n, 1] into x : [R] is the scatter with an add body
  and no window axis: at the ideal instance element r of the result is x r plus the sum over the updates i whose
  number, read signed and NOT clamped, is r, of upd i; an update whose number is outside [0, R) contributes nowhere.
-/
import Idealize.ShloMosaic.PureOps.Ideal
import Idealize.ShloMosaic.Lib.ValueIdx

noncomputable section

namespace Idealize.ShloMosaic.SegCount

open Idealize.ShloMosaic Idealize.ShloMosaic.ValueIdx

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of a scatter of scalars: operand [R], numbers [n, 1], updates [n], no window axis. -/
abbrev segScatterDims (R n : Nat)
    (wf : ScatterDims.WF ⟨1, ![R]⟩ ⟨2, ![n, 1]⟩ ⟨1, ![n]⟩ [] [0] [0] 1) :
    ScatterDims ⟨1, ![R]⟩ ⟨2, ![n, 1]⟩ ⟨1, ![n]⟩ where
  updateWindowDims := []
  insertedWindowDims := [0]
  scatterDimsToOperandDims := [0]
  indexVectorDim := 1
  wf := wf

/-- The window of update i starts at i's number, read signed. -/
theorem start_seg {R n w : Nat}
    (wf : ScatterDims.WF ⟨1, ![R]⟩ ⟨2, ![n, 1]⟩ ⟨1, ![n]⟩ [] [0] [0] 1)
    (idx : IVec ⟨2, ![n, 1]⟩ w) (i : Fin n) :
    (segScatterDims R n wf).start (ix1 i) idx 0 = (idx (ix2 i (0 : Fin 1))).toInt := by
  unfold ScatterDims.start
  rw [dif_pos (show (0 : Fin 1) ∈ (segScatterDims R n wf).scatterDimsToOperandDims from List.mem_singleton.mpr rfl)]
  have hsi : (segScatterDims R n wf).siIdx (ix1 i)
      ⟨List.idxOf (0 : Fin 1) (segScatterDims R n wf).scatterDimsToOperandDims,
        List.idxOf_lt_length_iff.2 (List.mem_singleton.mpr rfl)⟩ = ix2 i (0 : Fin 1) := by
    funext b; refine Fin.ext ?_
    match b with
    | ⟨0, _⟩ => rfl
    | ⟨1, _⟩ => rfl
  rw [hsi]

/-- The one operand axis is inserted: the window coordinate there is 0. -/
theorem window_seg {R n : Nat}
    (wf : ScatterDims.WF ⟨1, ![R]⟩ ⟨2, ![n, 1]⟩ ⟨1, ![n]⟩ [] [0] [0] 1) (i : Fin n) :
    (segScatterDims R n wf).window (ix1 i) 0 = 0 := by
  unfold ScatterDims.window
  have h : (0 : Fin 1) ∉ (segScatterDims R n wf).sKept := by
    show (0 : Fin 1) ∉ (List.finRange 1).filter (· ∉ ([0] : List (Fin 1)))
    decide
  rw [dif_neg h]

/-- Where update i lands: at r exactly when i's number, read signed, is r. -/
theorem resultIdx_seg_iff {R n w : Nat}
    (wf : ScatterDims.WF ⟨1, ![R]⟩ ⟨2, ![n, 1]⟩ ⟨1, ![n]⟩ [] [0] [0] 1)
    (idx : IVec ⟨2, ![n, 1]⟩ w) (i : Fin n) (r : Fin R) :
    (segScatterDims R n wf).resultIdx? (ix1 i) idx = some (ix1 r)
      ↔ (idx (ix2 i (0 : Fin 1))).toInt = (r.val : Int) := by
  have hs0 := start_seg wf idx i
  have hw0 := window_seg wf i
  have hr := r.isLt
  unfold ScatterDims.resultIdx?
  by_cases h : ∀ a : Fin 1, 0 ≤ (segScatterDims R n wf).start (ix1 i) idx a + (segScatterDims R n wf).window (ix1 i) a
      ∧ (segScatterDims R n wf).start (ix1 i) idx a + (segScatterDims R n wf).window (ix1 i) a
          < ((⟨1, ![R]⟩ : Shape).size a : Int)
  · -- the landing index is inside the operand: it is the number itself
    rw [dif_pos h, Option.some.injEq]
    have h0 := h 0
    rw [hs0, hw0] at h0
    constructor
    · intro hEq
      have e0 : ((segScatterDims R n wf).start (ix1 i) idx 0 + (segScatterDims R n wf).window (ix1 i) 0).toNat = r.val :=
        congrArg Fin.val (congrFun hEq 0)
      rw [hs0, hw0] at e0
      omega
    · intro hrow
      funext a
      refine Fin.ext ?_
      match a with
      | ⟨0, _⟩ =>
        show ((segScatterDims R n wf).start (ix1 i) idx 0 + (segScatterDims R n wf).window (ix1 i) 0).toNat = r.val
        rw [hs0, hw0]; omega
  · -- the number is outside the operand: the update is dropped, and a number equal to some r < R would be inside
    rw [dif_neg h]
    constructor
    · intro hEq; cases hEq
    · intro hrow
      exfalso; apply h
      intro a
      match a with
      | ⟨0, _⟩ =>
        show 0 ≤ (segScatterDims R n wf).start (ix1 i) idx 0 + (segScatterDims R n wf).window (ix1 i) 0
          ∧ (segScatterDims R n wf).start (ix1 i) idx 0 + (segScatterDims R n wf).window (ix1 i) 0 < (R : Int)
        rw [hs0, hw0]; omega

/-- Element r of a scatter-add of scalars at the ideal instance: the operand's element plus the updates numbered r. -/
theorem scatterAdd_seg_apply {R n w : Nat}
    (wf : ScatterDims.WF ⟨1, ![R]⟩ ⟨2, ![n, 1]⟩ ⟨1, ![n]⟩ [] [0] [0] 1)
    (x : (⟨1, ![R]⟩ : Shape).Idx → EReal) (idx : IVec ⟨2, ![n, 1]⟩ w)
    (upd : (⟨1, ![n]⟩ : Shape).Idx → EReal) (r : Fin R) :
    Ideal.hostScatterAdd (segScatterDims R n wf) x idx upd (ix1 r)
      = x (ix1 r) + ∑ i : Fin n, if (idx (ix2 i (0 : Fin 1))).toInt = (r.val : Int) then upd (ix1 i) else 0 := by
  unfold Ideal.hostScatterAdd
  show _ + _ = _ + _
  congr 1
  rw [Finset.sum_filter, sum_idx1]
  refine Finset.sum_congr rfl fun i _ => ?_
  exact if_congr (resultIdx_seg_iff wf idx i r) rfl rfl

end Idealize.ShloMosaic.SegCount

end
-- ==== Proof.RefOpsScatter.lean ====
/-
  The reference's three sums into the rows (or entries) an index names, read at an index at the ideal instance: the count of edge ends, the sum of edge rows into destination rows, and the sum of node rows into their graph's row followed by the quotient by 512.
-/
import proofs.«418503_j35381940584593_2_alg».proof.ReferenceIdeal
import proofs.«418503_j35381940584593_2_alg».proof.Proof.Gen.ReferenceIdeal
import proofs.«418503_j35381940584593_2_alg».proof.Proof.Spec
import proofs.«418503_j35381940584593_2_alg».proof.Proof.LibRowIndex
import proofs.«418503_j35381940584593_2_alg».proof.Proof.LibSegCount
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.ROps

open Idealize.ShloMosaic Idealize.ShloMosaic.ValueIdx Cert.ReferenceIdeal Cert.ReferenceIdeal.Facts₀ Cert.GraphConv

variable [Cert.ReferenceIdeal.Facts]

/-- A scalar laid over any shape reads the scalar everywhere. -/
private theorem splat_apply {α : Type} {t : Shape} (h : S_.BroadcastsInDim t ![]) (v : S_.Idx → α) (j : t.Idx) :
    broadcastInDim t ![] h v j = v ix0 := by
  show v _ = v _
  congr 1
  funext a
  exact a.elim0

/-- A vector kept as a one-column matrix reads, at row `p`, the vector at `p`. -/
private theorem col_apply {α : Type} {n : Nat} (h : (⟨1, ![n]⟩ : Shape).BroadcastsInDim ⟨2, ![n, 1]⟩ ![0])
    (v : (⟨1, ![n]⟩ : Shape).Idx → α) (p : Fin n) :
    broadcastInDim ⟨2, ![n, 1]⟩ ![0] h v (ix2 p (0 : Fin 1)) = v (ix1 p) := by
  show v _ = v _
  congr 1
  funext a
  match a with
  | ⟨0, _⟩ =>
    apply Fin.ext
    have hp := p.isLt
    split
    · next h1 => change n = 1 at h1; show (0 : Nat) = p.val; omega
    · rfl

/-! The three sums first at ANY operand, ANY column of numbers and ANY updates: entry `r` of the result is the operand's
    entry plus the updates whose number, read signed, is `r`. The program's own operands (a zero splat, a vector kept as a
    column, a splat of ones) are read at an index afterwards, one small step each. -/

/-- The sum of scalars into the entries a column of numbers names. -/
private theorem seg_any (x0 : FVec Ideal S131072 .f32) (idx : IVec S2097152x1 32) (upd : FVec Ideal S2097152 .f32) (v : Fin 131072) :
    Host.scatterAdd (F := Ideal) scatter_S131072_S2097152x1_S2097152_n_0_0_1 x0 idx upd (ix1 v)
      = x0 (ix1 v) + ∑ k : Fin 2097152, if (idx (ix2 k (0 : Fin 1))).toInt = (v.val : ℤ) then upd (ix1 k) else 0 :=
  SegCount.scatterAdd_seg_apply scatter_S131072_S2097152x1_S2097152_n_0_0_1_wf x0 idx upd v

/-- The sum of edge rows into the node rows a column of numbers names. -/
private theorem rows_any (x0 : FVec Ideal S131072x128 .f32) (idx : IVec S2097152x1 32) (upd : FVec Ideal S2097152x128 .f32)
    (v : Fin 131072) (c : Fin 128) :
    Host.scatterAdd (F := Ideal) scatter_S131072x128_S2097152x1_S2097152x128_1_0_0_1 x0 idx upd (ix2 v c)
      = x0 (ix2 v c) + ∑ k : Fin 2097152, if (idx (ix2 k (0 : Fin 1))).toInt = (v.val : ℤ) then upd (ix2 k c) else 0 :=
  RowIndex.scatterAdd_rows_apply scatter_S131072x128_S2097152x1_S2097152x128_1_0_0_1_wf x0 idx upd v c

/-- The sum of node rows into the graph rows a column of numbers names. -/
private theorem pool_any (x0 : FVec Ideal S256x128 .f32) (idx : IVec S131072x1 32) (upd : FVec Ideal S131072x128 .f32)
    (g : Fin 256) (d : Fin 128) :
    Host.scatterAdd (F := Ideal) scatter_S256x128_S131072x1_S131072x128_1_0_0_1 x0 idx upd (ix2 g d)
      = x0 (ix2 g d) + ∑ v : Fin 131072, if (idx (ix2 v (0 : Fin 1))).toInt = (g.val : ℤ) then upd (ix2 v d) else 0 :=
  RowIndex.scatterAdd_rows_apply scatter_S256x128_S131072x1_S131072x128_1_0_0_1_wf x0 idx upd g d

/-- The quotient of two arrays, element by element. -/
private theorem quot_any {s : Shape} (a b : FVec Ideal s .f32) (i : s.Idx) : Host.divf a b i = Ideal.div (a i) (b i) := rfl

/-- Counting, over all edge slots, the slots whose word names node `v`. -/
theorem count_apply (x : IVec S2097152 32) (v : Fin 131072) :
    Host.scatterAdd (F := Ideal) scatter_S131072_S2097152x1_S2097152_n_0_0_1
        (broadcastInDim S131072 ![] bcast_S_S131072 (constant S_ .f32 0x00000000#32))
        (broadcastInDim S2097152x1 ![0] bcast_S2097152_S2097152x1_0 x)
        (broadcastInDim S2097152 ![] bcast_S_S2097152 (constant S_ .f32 0x3F800000#32)) (ix1 v)
      = rDeg x v := by
  -- the operand is the zero splat; each update is the splat of 1.0; the column of numbers at row `k` is the word `x k`
  rw [seg_any, splat_apply, constant_apply, Ideal.ofBits_zero_f32, zero_add]
  unfold rDeg
  refine Finset.sum_congr rfl fun k _ => ?_
  rw [col_apply, splat_apply, constant_apply]

/-- Summing the rows of `upd` into the rows their edge slot's destination names. -/
theorem scatter_rows_apply (idx : IVec S2097152 32) (upd : FVec Ideal S2097152x128 .f32) (v : Fin 131072) (c : Fin 128) :
    Host.scatterAdd (F := Ideal) scatter_S131072x128_S2097152x1_S2097152x128_1_0_0_1
        (broadcastInDim S131072x128 ![] bcast_S_S131072x128 (constant S_ .f32 0x00000000#32))
        (broadcastInDim S2097152x1 ![0] bcast_S2097152_S2097152x1_0 idx) upd (ix2 v c)
      = ∑ k : Fin 2097152, if (idx (ix1 k)).toInt = (v.val : ℤ) then upd (ix2 k c) else 0 := by
  rw [rows_any, splat_apply, constant_apply, Ideal.ofBits_zero_f32, zero_add]
  refine Finset.sum_congr rfl fun k _ => ?_
  rw [col_apply]

/-- Summing the rows of `h` into the row of the graph each node belongs to, the graph number being the word `gid v`. -/
theorem pool_apply (gid : IVec S131072 32) (hg : ∀ v : Fin 131072, (gid (ix1 v)).toInt = ((v.val / 512 : ℕ) : ℤ))
    (h : FVec Ideal S131072x128 .f32) (g : Fin 256) (d : Fin 128) :
    Host.divf (Host.scatterAdd (F := Ideal) scatter_S256x128_S131072x1_S131072x128_1_0_0_1
        (broadcastInDim S256x128 ![] bcast_S_S256x128 (constant S_ .f32 0x00000000#32))
        (broadcastInDim S131072x1 ![0] bcast_S131072_S131072x1_0 gid) h)
      (broadcastInDim S256x128 ![] bcast_S_S256x128 (constant S_ .f32 0x44000000#32)) (ix2 g d)
      = Ideal.div (∑ v : Fin 131072, if v.val / 512 = g.val then h (ix2 v d) else 0) (Ideal.ofBits .f32 0x44000000#32) := by
  rw [quot_any, pool_any, splat_apply, constant_apply, Ideal.ofBits_zero_f32, zero_add, splat_apply, constant_apply]
  refine congrArg (fun s => Ideal.div s (Ideal.ofBits .f32 0x44000000#32)) ?_
  refine Finset.sum_congr rfl fun v _ => ?_
  -- node `v`'s number is the word `gid v`, whose value is `v / 512`
  rw [col_apply, hg v]
  exact if_congr Nat.cast_inj rfl rfl

end Cert.ReferenceIdeal.ROps

end
-- ==== Proof.RefOpsGather.lean ====
/-
  numpy's wrap of a negative row number, and the reference's two gathers of rows, read at an index.
-/
import proofs.«418503_j35381940584593_2_alg».proof.ReferenceIdeal
import proofs.«418503_j35381940584593_2_alg».proof.Proof.Gen.ReferenceIdeal
import proofs.«418503_j35381940584593_2_alg».proof.Proof.Spec
import proofs.«418503_j35381940584593_2_alg».proof.Proof.LibRowIndex
import proofs.«418503_j35381940584593_2_alg».proof.Proof.LibSegCount
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.ROps

open Idealize.ShloMosaic Idealize.ShloMosaic.ValueIdx Cert.ReferenceIdeal Cert.ReferenceIdeal.Facts₀ Cert.GraphConv

variable [Cert.ReferenceIdeal.Facts]

/-- Comparing a word signed-less-than with the zero word gives the bit 1 exactly when the word, read signed, is
    negative. -/
private theorem slt_zero_bit (a : BitVec 32) :
    IntOp.cmpi .slt a 0#32 = if a.toInt < 0 then 1#1 else 0#1 := by
  show BitVec.ofBool (a.slt 0#32) = _
  by_cases h : a.toInt < 0
  · rw [if_pos h]
    have hs : a.slt 0#32 = true := by
      rw [BitVec.slt_iff_toInt_lt]; simpa using h
    rw [hs]; rfl
  · rw [if_neg h]
    have hs : a.slt 0#32 = false := by
      cases hb : a.slt 0#32 with
      | false => rfl
      | true =>
        exfalso; apply h
        have := (BitVec.slt_iff_toInt_lt).mp hb
        simpa using this
    rw [hs]; rfl

/-- numpy's wrap of a negative row number, element by element. -/
theorem wrap_apply {S : Shape} (n : BitVec 32) (x zero nb : IVec S 32) (hz : ∀ i, zero i = 0#32) (hn : ∀ i, nb i = n) (i : S.Idx) :
    select (cmpi .slt x zero) (addi x nb) x i = wrapIdx n (x i) := by
  rw [select_apply]
  show Scalar.select (IntOp.cmpi .slt (x i) (zero i)) (x i + nb i) (x i) = _
  rw [hz i, hn i, slt_zero_bit]
  unfold wrapIdx
  by_cases h : (x i).toInt < 0
  · rw [if_pos h, if_pos h, select_one]
  · rw [if_neg h, if_neg h, select_zero]

/-- A column of row numbers made from a vector: its entry `(i, 0)` is the vector's entry `i`. -/
private theorem col_apply {α : Type} {n : Nat} (h₁ : (⟨1, ![n]⟩ : Shape).BroadcastsInDim ⟨2, ![n, 1]⟩ ![0])
    (v : (⟨1, ![n]⟩ : Shape).Idx → α) (p : Fin n) :
    broadcastInDim ⟨2, ![n, 1]⟩ ![0] h₁ v (ix2 p (0 : Fin 1)) = v (ix1 p) := by
  have h := StableHlo.Predicate.bcast_col1 h₁ v p
  have e1 : (StableHlo.Predicate.ixP p : (⟨2, ![n, 1]⟩ : Shape).Idx) = ix2 p (0 : Fin 1) := by
    funext a; match a with | ⟨0, _⟩ => rfl | ⟨1, _⟩ => rfl
  have e2 : (Shape.Idx.ofFin p : (⟨1, ![n]⟩ : Shape).Idx) = ix1 p := by
    funext a; match a with | ⟨0, _⟩ => rfl
  rw [e1, e2] at h
  exact h

/-- A gather of whole rows at a column made from a vector of row numbers: result row `i` is the operand's row
    numbered by the vector's entry `i`, read signed and clamped. -/
private theorem gather_col_apply {α : Type} {N C n : Nat} (hN : 0 < N)
    (wf : GatherDims.WF ⟨2, ![N, C]⟩ ⟨2, ![n, 1]⟩ ⟨2, ![n, C]⟩ [1] [0] [] [0] [] 1 ![1, C])
    (h₁ : (⟨1, ![n]⟩ : Shape).BroadcastsInDim ⟨2, ![n, 1]⟩ ![0])
    (x : (⟨2, ![N, C]⟩ : Shape).Idx → α) (idx : IVec ⟨1, ![n]⟩ 32) (i : Fin n) (j : Fin C) :
    Host.gather (RowIndex.rowGatherDims N C n wf) x (broadcastInDim ⟨2, ![n, 1]⟩ ![0] h₁ idx) (ix2 i j)
      = x (ix2 (rowOf N hN (idx (ix1 i))) j) := by
  rw [RowIndex.gather_rows_apply hN wf x _ i j]
  have hrow : (⟨min (broadcastInDim ⟨2, ![n, 1]⟩ ![0] h₁ idx (ix2 i (0 : Fin 1))).toInt.toNat (N - 1), by omega⟩ : Fin N)
      = rowOf N hN (idx (ix1 i)) := by
    refine Fin.ext ?_
    show min _ (N - 1) = min _ (N - 1)
    rw [col_apply h₁ idx i]
  rw [hrow]

/-- The embedding gather's dimension numbers are those of a gather of whole rows. -/
private theorem gather_emb_dims :
    gather_S64x128_S131072x1_S131072x128_1_0_n_n_0_1_1128
      = RowIndex.rowGatherDims 64 128 131072 gather_S64x128_S131072x1_S131072x128_1_0_n_n_0_1_1128_wf := rfl

/-- The feature gather's dimension numbers are those of a gather of whole rows. -/
private theorem gather_rows_dims :
    gather_S131072x128_S2097152x1_S2097152x128_1_0_n_n_0_1_1128
      = RowIndex.rowGatherDims 131072 128 2097152 gather_S131072x128_S2097152x1_S2097152x128_1_0_n_n_0_1_1128_wf := rfl

/-- The embedding row of node `v`'s (wrapped) type. -/
theorem gather_emb_apply (emb : FVec Ideal S64x128 .f32) (idx : IVec S131072 32) (v : Fin 131072) (d : Fin 128) :
    Host.gather gather_S64x128_S131072x1_S131072x128_1_0_n_n_0_1_1128 emb
        (broadcastInDim S131072x1 ![0] bcast_S131072_S131072x1_0 idx) (ix2 v d)
      = emb (ix2 (rowOf 64 (by decide) (idx (ix1 v))) d) := by
  rw [gather_emb_dims]
  exact gather_col_apply (by decide) _ bcast_S131072_S131072x1_0 emb idx v d

/-- The row of `x` that edge slot `k`'s (wrapped) source names. -/
theorem gather_rows_apply (x : FVec Ideal S131072x128 .f32) (idx : IVec S2097152 32) (k : Fin 2097152) (c : Fin 128) :
    Host.gather gather_S131072x128_S2097152x1_S2097152x128_1_0_n_n_0_1_1128 x
        (broadcastInDim S2097152x1 ![0] bcast_S2097152_S2097152x1_0 idx) (ix2 k c)
      = x (ix2 (rowOf 131072 (by decide) (idx (ix1 k))) c) := by
  rw [gather_rows_dims]
  exact gather_col_apply (by decide) _ bcast_S2097152_S2097152x1_0 x idx k c

end Cert.ReferenceIdeal.ROps

end
-- ==== Proof.RefOpsDense.lean ====
/-
  The reference's pointwise and dense operations read at an index at the ideal instance: the degree scaling, the scaling of rows by a vector, and the product with a weight matrix plus a bias row clamped below by 0.
-/
import proofs.«418503_j35381940584593_2_alg».proof.ReferenceIdeal
import proofs.«418503_j35381940584593_2_alg».proof.Proof.Gen.ReferenceIdeal
import proofs.«418503_j35381940584593_2_alg».proof.Proof.Spec
import proofs.«418503_j35381940584593_2_alg».proof.Proof.LibRowIndex
import proofs.«418503_j35381940584593_2_alg».proof.Proof.LibSegCount
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.ROps

open Idealize.ShloMosaic Idealize.ShloMosaic.ValueIdx Cert.ReferenceIdeal Cert.ReferenceIdeal.Facts₀ Cert.GraphConv

variable [Cert.ReferenceIdeal.Facts]

/-- A scalar laid over any shape, clamped against a vector and passed through the reciprocal root, read at an index. -/
private theorem rsqrt_max_scalar_apply {t : Shape} (h : (⟨0, ![]⟩ : Shape).BroadcastsInDim t ![])
    (c : FVec Ideal (⟨0, ![]⟩ : Shape) .f32) (deg : FVec Ideal t .f32) (j : t.Idx) :
    Host.rsqrt (maximumf (broadcastInDim t ![] h (id c)) deg) j = Ideal.rsqrt (max (c ix0) (deg j)) := by
  show FloatOps.hostUnary .rsqrt (maximumf (broadcastInDim t ![] h c) deg j) = _
  rw [Ideal.hostUnary_rsqrt_def, maximumf_apply]
  congr 2
  show c _ = c ix0
  congr 1
  funext a
  exact Fin.elim0 a

/-- The degree scaling: one over the root of the count clamped below by 1. -/
theorem isqrt_apply (deg : FVec Ideal S131072 .f32) (v : Fin 131072) :
    Host.rsqrt (maximumf (broadcastInDim S131072 ![] bcast_S_S131072 (id (constant (F := Ideal) S_ .f32 0x3F800000#32))) deg) (ix1 v)
      = Ideal.rsqrt (max one (deg (ix1 v))) :=
  rsqrt_max_scalar_apply bcast_S_S131072 (constant (F := Ideal) S_ .f32 0x3F800000#32) deg (ix1 v)

/-- A vector laid down the rows of a rectangle, multiplied in, read at an index. -/
private theorem mul_bcast_rows_apply {n m : Nat} (h₁ : (⟨1, ![n]⟩ : Shape).BroadcastsInDim ⟨2, ![n, 1]⟩ ![0])
    (h₂ : (⟨2, ![n, 1]⟩ : Shape).BroadcastsInDim ⟨2, ![n, m]⟩ ![0, 1])
    (x : FVec Ideal (⟨2, ![n, m]⟩ : Shape) .f32) (s : FVec Ideal (⟨1, ![n]⟩ : Shape) .f32) (p : Fin n) (q : Fin m) :
    mulf x (broadcastInDim ⟨2, ![n, m]⟩ ![0, 1] h₂ (broadcastInDim ⟨2, ![n, 1]⟩ ![0] h₁ s)) (ix2 p q) = x (ix2 p q) * s (ix1 p) := by
  rw [mulf_apply]
  congr 1
  have e : (ix2 p q : (⟨2, ![n, m]⟩ : Shape).Idx) = StableHlo.Predicate.ij p q := by
    funext a; match a with | ⟨0, _⟩ => rfl | ⟨1, _⟩ => rfl
  rw [e, StableHlo.Predicate.bcast_rows h₁ h₂ s p q]
  congr 1
  funext a
  match a with
  | ⟨0, _⟩ => rfl

/-- Scaling row `v` by the `v`-th entry of a vector. -/
theorem scale_rows_apply (x : FVec Ideal S131072x128 .f32) (s : FVec Ideal S131072 .f32) (v : Fin 131072) (c : Fin 128) :
    mulf x (broadcastInDim S131072x128 ![0, 1] bcast_S131072x1_S131072x128_0_1 (broadcastInDim S131072x1 ![0] bcast_S131072_S131072x1_0 s)) (ix2 v c)
      = x (ix2 v c) * s (ix1 v) :=
  mul_bcast_rows_apply bcast_S131072_S131072x1_0 bcast_S131072x1_S131072x128_0_1 x s v c

/-- A row vector laid across the columns of a rectangle and added in, the sum clamped below by a scalar laid over the
    rectangle, read at an index. -/
private theorem max_add_bcast_cols_apply {n m : Nat} (h₁ : (⟨1, ![m]⟩ : Shape).BroadcastsInDim ⟨2, ![1, m]⟩ ![1])
    (h₂ : (⟨2, ![1, m]⟩ : Shape).BroadcastsInDim ⟨2, ![n, m]⟩ ![0, 1])
    (h₀ : (⟨0, ![]⟩ : Shape).BroadcastsInDim ⟨2, ![n, m]⟩ ![])
    (y : FVec Ideal (⟨2, ![n, m]⟩ : Shape) .f32) (b : FVec Ideal (⟨1, ![m]⟩ : Shape) .f32)
    (z : FVec Ideal (⟨0, ![]⟩ : Shape) .f32) (p : Fin n) (q : Fin m) :
    maximumf (addf y (broadcastInDim ⟨2, ![n, m]⟩ ![0, 1] h₂ (broadcastInDim ⟨2, ![1, m]⟩ ![1] h₁ b)))
        (broadcastInDim ⟨2, ![n, m]⟩ ![] h₀ z) (ix2 p q)
      = max (y (ix2 p q) + b (ix1 q)) (z ix0) := by
  rw [maximumf_apply, addf_apply]
  have e : (ix2 p q : (⟨2, ![n, m]⟩ : Shape).Idx) = StableHlo.Predicate.ij p q := by
    funext a; match a with | ⟨0, _⟩ => rfl | ⟨1, _⟩ => rfl
  have eb : broadcastInDim ⟨2, ![n, m]⟩ ![0, 1] h₂ (broadcastInDim ⟨2, ![1, m]⟩ ![1] h₁ b) (ix2 p q) = b (ix1 q) := by
    rw [e, StableHlo.Predicate.bcast_cols h₁ h₂ b p q]
    congr 1
    funext a
    match a with
    | ⟨0, _⟩ => rfl
  have ez : broadcastInDim ⟨2, ![n, m]⟩ ![] h₀ z (ix2 p q) = z ix0 := by
    show z _ = z ix0
    congr 1
    funext a
    exact Fin.elim0 a
  rw [eb, ez]

/-- The product's left operand is read at the output row and the contracted coordinate, its right operand at the
    contracted coordinate and the output column. -/
private theorem lhs_dot_0 (j : S131072x128.Idx) (k : dot_S131072x128_S128x128_S131072x128_1_0_0_1_n_n.contr.Idx) :
    (dot_S131072x128_S128x128_S131072x128_1_0_0_1_n_n.lhsIdx j k 0).val = (j 0).val := rfl
private theorem lhs_dot_1 (j : S131072x128.Idx) (k : dot_S131072x128_S128x128_S131072x128_1_0_0_1_n_n.contr.Idx) :
    (dot_S131072x128_S128x128_S131072x128_1_0_0_1_n_n.lhsIdx j k 1).val = (k ⟨0, by decide⟩).val := rfl
private theorem rhs_dot_0 (j : S131072x128.Idx) (k : dot_S131072x128_S128x128_S131072x128_1_0_0_1_n_n.contr.Idx) :
    (dot_S131072x128_S128x128_S131072x128_1_0_0_1_n_n.rhsIdx j k 0).val = (k ⟨0, by decide⟩).val := rfl
private theorem rhs_dot_1 (j : S131072x128.Idx) (k : dot_S131072x128_S128x128_S131072x128_1_0_0_1_n_n.contr.Idx) :
    (dot_S131072x128_S128x128_S131072x128_1_0_0_1_n_n.rhsIdx j k 1).val = (j 1).val := rfl

/-- The product with the weight matrix read at an index: the sum over the contracted coordinate. -/
private theorem dot_apply (x : FVec Ideal S131072x128 .f32) (W : FVec Ideal S128x128 .f32) (v : Fin 131072) (d : Fin 128) :
    Host.dotGeneral dot_S131072x128_S128x128_S131072x128_1_0_0_1_n_n none x W (ix2 v d)
      = ∑ c : Fin 128, x (ix2 v c) * W (ix2 c d) := by
  show FloatOps.dotGeneral dot_S131072x128_S128x128_S131072x128_1_0_0_1_n_n none _ x W (ix2 v d) = _
  rw [Ideal.dotGeneral_apply,
    ← Equiv.sum_comp (contrEquiv1 dot_S131072x128_S128x128_S131072x128_1_0_0_1_n_n 128 rfl rfl).symm]
  refine Finset.sum_congr rfl fun c _ => ?_
  have c2 := contrEquiv1_symm_val dot_S131072x128_S128x128_S131072x128_1_0_0_1_n_n 128 rfl rfl c
  have l2 : dot_S131072x128_S128x128_S131072x128_1_0_0_1_n_n.lhsIdx (ix2 v d)
      ((contrEquiv1 dot_S131072x128_S128x128_S131072x128_1_0_0_1_n_n 128 rfl rfl).symm c) = ix2 v c := by
    funext ax; apply Fin.ext
    match ax with
    | ⟨0, _⟩ => exact lhs_dot_0 _ _
    | ⟨1, _⟩ => exact (lhs_dot_1 _ _).trans c2
  have r2 : dot_S131072x128_S128x128_S131072x128_1_0_0_1_n_n.rhsIdx (ix2 v d)
      ((contrEquiv1 dot_S131072x128_S128x128_S131072x128_1_0_0_1_n_n 128 rfl rfl).symm c) = ix2 c d := by
    funext ax; apply Fin.ext
    match ax with
    | ⟨0, _⟩ => exact (rhs_dot_0 _ _).trans c2
    | ⟨1, _⟩ => exact rhs_dot_1 _ _
  rw [l2, r2]

/-- The product with a weight matrix, plus the bias row, clamped below by 0. -/
theorem dense_relu_apply (x : FVec Ideal S131072x128 .f32) (W : FVec Ideal S128x128 .f32) (b : FVec Ideal S128 .f32) (v : Fin 131072) (d : Fin 128) :
    maximumf (addf (Host.dotGeneral dot_S131072x128_S128x128_S131072x128_1_0_0_1_n_n none x W)
        (broadcastInDim S131072x128 ![0, 1] bcast_S1x128_S131072x128_0_1 (broadcastInDim S1x128 ![1] bcast_S128_S1x128_1 b)))
      (broadcastInDim S131072x128 ![] bcast_S_S131072x128 (constant (F := Ideal) S_ .f32 0x00000000#32)) (ix2 v d)
      = max ((∑ c : Fin 128, x (ix2 v c) * W (ix2 c d)) + b (ix1 d)) 0 := by
  refine (max_add_bcast_cols_apply bcast_S128_S1x128_1 bcast_S1x128_S131072x128_0_1 bcast_S_S131072x128
    (Host.dotGeneral dot_S131072x128_S128x128_S131072x128_1_0_0_1_n_n none x W) b
    (constant (F := Ideal) S_ .f32 0x00000000#32) v d).trans ?_
  rw [dot_apply, constant_apply, Ideal.ofBits_zero_f32]

end Cert.ReferenceIdeal.ROps

end
-- ==== Proof.RefOpsGid.lean ====
/-
  The graph number of each node: jnp's floor division of the node numbers by 512, as the program prints it, is `v / 512`.
-/
import proofs.«418503_j35381940584593_2_alg».proof.ReferenceIdeal
import proofs.«418503_j35381940584593_2_alg».proof.Proof.Gen.ReferenceIdeal
import proofs.«418503_j35381940584593_2_alg».proof.Proof.Spec
import proofs.«418503_j35381940584593_2_alg».proof.Proof.LibRowIndex
import proofs.«418503_j35381940584593_2_alg».proof.Proof.LibSegCount
import Idealize.ShloMosaic.PureOps.Ideal.Laws
import Idealize.ShloMosaic.Lib.ValueIdx
import Idealize.ShloMosaic.Lib.Pipeline.Value
import Idealize.ShloMosaic.Lib.StableHlo.Predicate

noncomputable section

namespace Cert.ReferenceIdeal.ROps

open Idealize.ShloMosaic Idealize.ShloMosaic.ValueIdx Cert.ReferenceIdeal Cert.ReferenceIdeal.Facts₀ Cert.GraphConv

variable [Cert.ReferenceIdeal.Facts]

/-- jnp's floor division of the node numbers `0 … 131071` by 512, operation by operation as the program prints it. -/
def gidTerm : IVec S131072 32 :=
  let io : IVec S131072 32 := iotaInDim S131072 32 0
  let c : IVec S_ 32 := id (constantI S_ 32 512#32)
  let q : IVec S131072 32 := Host.divsi io (broadcastInDim S131072 ![] bcast_S_S131072 c)
  select (andi (cmpi .ne (signi io) (broadcastInDim S131072 ![] bcast_S_S131072 (signi c)))
      (cmpi .ne (Host.remsi io (broadcastInDim S131072 ![] bcast_S_S131072 c))
        (broadcastInDim S131072 ![] bcast_S_S131072 (constantI S_ 32 0#32))))
    (subi q (broadcastInDim S131072 ![] bcast_S_S131072 (constantI S_ 32 1#32))) q

/-- The sign word of a 32-bit word: 0, all ones, or 1. -/
def gidSgnW (x : BitVec 32) : BitVec 32 := if x = 0 then 0 else if x.msb then -1 else 1

/-- The floor-division word of a dividend `x` by 512, operation by operation. -/
def gidFloorW (x : BitVec 32) : BitVec 32 :=
  Scalar.select
    (IntOp.andi (IntOp.cmpi .ne (gidSgnW x) (gidSgnW 512#32)) (IntOp.cmpi .ne (IntOp.remsi .host x 512#32) 0#32))
    (IntOp.subi (IntOp.divsi .host x 512#32) 1#32) (IntOp.divsi .host x 512#32)

/-- Division by 512 never meets the corner of signed division. -/
theorem gid_no_corner (x : BitVec 32) : ¬ IntOp.SDivCorner x 512#32 := by
  intro hc; rcases hc with hc | ⟨_, hc⟩ <;> exact absurd hc (by decide)

/-- A word below 2³¹ divided signed by 512 is its value divided by 512. -/
theorem gid_divsi_512 (x : BitVec 32) (hx : x.toNat < 2 ^ 31) : (IntOp.divsi .host x 512#32).toNat = x.toNat / 512 := by
  have hm : x.msb = false := BitVec.msb_eq_false_iff_two_mul_lt.mpr (by omega)
  simp only [IntOp.divsi, if_neg (gid_no_corner x), BitVec.sdiv_eq, hm, show (512#32 : BitVec 32).msb = false from by decide,
    BitVec.udiv_eq, BitVec.toNat_udiv, BitVec.toNat_ofNat]

/-- Its signed remainder is its value modulo 512. -/
theorem gid_remsi_512 (x : BitVec 32) (hx : x.toNat < 2 ^ 31) : (IntOp.remsi .host x 512#32).toNat = x.toNat % 512 := by
  have hm : x.msb = false := BitVec.msb_eq_false_iff_two_mul_lt.mpr (by omega)
  simp only [IntOp.remsi, if_neg (gid_no_corner x), BitVec.srem_eq, hm, show (512#32 : BitVec 32).msb = false from by decide,
    BitVec.umod_eq, BitVec.toNat_umod, BitVec.toNat_ofNat]

/-- For a dividend below 2³¹ the correction never fires: either the dividend is zero, and then so is the remainder, or it is
    positive, and then its sign word is the divisor's. So the floor quotient is the truncated one. -/
theorem gidFloorW_eq (x : BitVec 32) (hx : x.toNat < 2 ^ 31) : gidFloorW x = IntOp.divsi .host x 512#32 := by
  have hm : x.msb = false := BitVec.msb_eq_false_iff_two_mul_lt.mpr (by omega)
  have hc : IntOp.andi (IntOp.cmpi .ne (gidSgnW x) (gidSgnW 512#32)) (IntOp.cmpi .ne (IntOp.remsi .host x 512#32) 0#32) = 0#1 := by
    have h512 : gidSgnW 512#32 = 1#32 := by decide
    rw [h512]
    by_cases h0 : x = 0
    · have hr : IntOp.remsi .host x 512#32 = 0#32 := by
        apply BitVec.eq_of_toNat_eq
        rw [gid_remsi_512 x hx, h0]; rfl
      rw [hr]
      show (IntOp.cmpi .ne (gidSgnW x) 1#32) &&& (BitVec.ofBool (0#32 != 0#32)) = 0#1
      have : BitVec.ofBool (0#32 != 0#32) = 0#1 := by decide
      rw [this, BitVec.and_zero]
    · have hs : gidSgnW x = 1#32 := by simp only [gidSgnW, if_neg h0, hm]; rfl
      rw [hs]
      show (BitVec.ofBool (1#32 != 1#32)) &&& _ = 0#1
      have : BitVec.ofBool (1#32 != 1#32) = 0#1 := by decide
      rw [this, BitVec.zero_and]
  unfold gidFloorW
  rw [hc]
  rfl

/-- Read signed, the floor-division word of `v < 131072` is `v / 512`. -/
theorem gidFloorW_toInt (v : ℕ) (hv : v < 131072) : (gidFloorW (BitVec.ofNat 32 v)).toInt = ((v / 512 : ℕ) : ℤ) := by
  have hx : (BitVec.ofNat 32 v).toNat = v := by rw [BitVec.toNat_ofNat]; omega
  have hlt : (BitVec.ofNat 32 v).toNat < 2 ^ 31 := by rw [hx]; omega
  rw [gidFloorW_eq _ hlt]
  have hq := gid_divsi_512 _ hlt
  rw [hx] at hq
  rw [StableHlo.Predicate.toInt_eq_toNat_of_lt (by rw [hq]; omega), hq]

/-- The program's vector at node `v` is the floor-division word of `v`. -/
theorem gidTerm_ix1 (v : Fin 131072) : gidTerm (ix1 v) = gidFloorW (BitVec.ofNat 32 v.val) := by
  unfold gidTerm
  rfl

/-- Node `v`'s graph number is `v / 512`. -/
theorem gid_apply (v : Fin 131072) : (gidTerm (ix1 v)).toInt = ((v.val / 512 : ℕ) : ℤ) := by
  rw [gidTerm_ix1]; exact gidFloorW_toInt v.val v.isLt

end Cert.ReferenceIdeal.ROps

end
-- ==== Proof.RefOps.lean ====
/-
  The reference's operations read at an index, at the ideal instance: the four modules below, one per kind of operation.
-/
import proofs.«418503_j35381940584593_2_alg».proof.Proof.RefOpsScatter
import proofs.«418503_j35381940584593_2_alg».proof.Proof.RefOpsGather
import proofs.«418503_j35381940584593_2_alg».proof.Proof.RefOpsDense
import proofs.«418503_j35381940584593_2_alg».proof.Proof.RefOpsGid
-- ==== Proof.LibAfterAt.lean ====
/-
  Reading a straight line of operations in which every buffer is written at most once after the place that matters.

  A line `ops` comes with the list `wl` of the references its operations write, position by position. A reference outside
  `wl` keeps its contents over the whole line; the result of the operation at position `k`, if no later operation writes
  it, is that operation's function of what its operands hold after the first `k` operations; and an operand that no operation
  from position `k` on writes holds after the first `k` operations what it holds at the end. Together: each result at
  the END of the line is its operation's function of its operands at the END of the line.
-/
import Idealize.ShloMosaic.Lib.StableHlo.Run

noncomputable section

namespace Idealize.ShloMosaic.StableHlo

open Idealize.SL.Sem

variable {τ : Topo} {sig : RefSig} {Val : EltTy → Type}

/-- A line run to the end is its first `k` operations, then the rest. -/
theorem after_take_drop : ∀ (ops : List (HloOp τ sig Val)) (k : Nat) (V : Valuation τ sig Val),
    after ops V = after (ops.drop k) (after (ops.take k) V)
  | [], k, V => by rw [List.drop_nil, List.take_nil]; rfl
  | _ :: _, 0, _ => rfl
  | op :: ops, k + 1, V => by
    rw [List.drop_succ_cons, List.take_succ_cons, after_cons, after_cons]
    exact after_take_drop ops k _

/-- `wl` lists, position by position, the one reference each operation of `ops` writes. -/
def WritesAre (ops : List (HloOp τ sig Val)) (wl : List (Ref sig .tc)) : Prop :=
  List.Forall₂ (fun op r => op.writes = {Proc.devRef (τ := τ) .tc r}) ops wl

theorem WritesAre.drop {ops : List (HloOp τ sig Val)} {wl : List (Ref sig .tc)} (h : WritesAre ops wl) (k : Nat) :
    WritesAre (ops.drop k) (wl.drop k) := List.forall₂_drop k h

/-- A reference the line never writes keeps its contents. -/
theorem after_of_writesAre {ops : List (HloOp τ sig Val)} {wl : List (Ref sig .tc)} (h : WritesAre ops wl)
    (V : Valuation τ sig Val) {r : Ref sig .tc} (hr : r ∉ wl) :
    after ops V (Proc.devRef .tc r) = V (Proc.devRef .tc r) := by
  induction h generalizing V with
  | nil => rfl
  | cons hop _ ih =>
    rw [after_cons, ih _ (fun hm => hr (List.mem_cons_of_mem _ hm)), HloOp.result_of_not_mem]
    rw [hop, Finset.mem_singleton]
    exact devRef_ne_of_ne (fun e => hr (e ▸ List.mem_cons_self))

/-- The result of the operation at position `k`, not written again, is the operation's result on the first `k`. -/
theorem after_at {ops : List (HloOp τ sig Val)} {wl : List (Ref sig .tc)} (h : WritesAre ops wl)
    (V : Valuation τ sig Val) (k : Nat) {op : HloOp τ sig Val} (hk : ops[k]? = some op) {y : Ref sig .tc}
    (hy : y ∉ wl.drop (k + 1)) :
    after ops V (Proc.devRef .tc y) = op.result (after (ops.take k) V) (Proc.devRef .tc y) := by
  obtain ⟨hlt, hop⟩ := List.getElem?_eq_some_iff.mp hk
  rw [after_take_drop ops k V, List.drop_eq_getElem_cons hlt, hop, after_cons, after_of_writesAre (h.drop (k + 1)) _ hy]

/-- An operand no operation from position `k` on writes: after the first `k` it holds what it holds at the end. -/
theorem after_before {ops : List (HloOp τ sig Val)} {wl : List (Ref sig .tc)} (h : WritesAre ops wl)
    (V : Valuation τ sig Val) (k : Nat) {x : Ref sig .tc} (hx : x ∉ wl.drop k) :
    after (ops.take k) V (Proc.devRef .tc x) = after ops V (Proc.devRef .tc x) := by
  rw [after_take_drop ops k V, after_of_writesAre (h.drop k) _ hx]

section Builders

variable {ops : List (HloOp τ sig Val)} {wl : List (Ref sig .tc)} (h : WritesAre ops wl) (V : Valuation τ sig Val) (k : Nat)
variable {x a b c y : Ref sig .tc}
include h

theorem after_nullary_at {v : y.ty.Contents Val} {hy} (hk : ops[k]? = some (nullary y v hy))
    (hy' : y ∉ wl.drop (k + 1)) : after ops V (Proc.devRef .tc y) = v := by
  rw [after_at h V k hk hy', nullary_result]

theorem after_unary_at {f : x.ty.Contents Val → y.ty.Contents Val} {hx hy} (hk : ops[k]? = some (unary x y f hx hy))
    (hx' : x ∉ wl.drop k) (hy' : y ∉ wl.drop (k + 1)) :
    after ops V (Proc.devRef .tc y) = f (after ops V (Proc.devRef .tc x)) := by
  rw [after_at h V k hk hy', unary_result, ← after_before h V k hx']

theorem after_binary_at {f : a.ty.Contents Val → b.ty.Contents Val → y.ty.Contents Val} {ha hb hy}
    (hk : ops[k]? = some (binary a b y f ha hb hy)) (ha' : a ∉ wl.drop k) (hb' : b ∉ wl.drop k) (hy' : y ∉ wl.drop (k + 1)) :
    after ops V (Proc.devRef .tc y) = f (after ops V (Proc.devRef .tc a)) (after ops V (Proc.devRef .tc b)) := by
  rw [after_at h V k hk hy', binary_result, ← after_before h V k ha', ← after_before h V k hb']

theorem after_ternary_at {f : c.ty.Contents Val → a.ty.Contents Val → b.ty.Contents Val → y.ty.Contents Val} {hc ha hb hy}
    (hk : ops[k]? = some (ternary c a b y f hc ha hb hy)) (hc' : c ∉ wl.drop k) (ha' : a ∉ wl.drop k) (hb' : b ∉ wl.drop k)
    (hy' : y ∉ wl.drop (k + 1)) :
    after ops V (Proc.devRef .tc y)
      = f (after ops V (Proc.devRef .tc c)) (after ops V (Proc.devRef .tc a)) (after ops V (Proc.devRef .tc b)) := by
  rw [after_at h V k hk hy', ternary_result, ← after_before h V k hc', ← after_before h V k ha', ← after_before h V k hb']

theorem after_reshape_at {he : x.ty.elt = y.ty.elt} {hn : x.ty.shape.ShapeCasts y.ty.shape} {hx hy}
    (hk : ops[k]? = some (reshape x y he hn hx hy)) (hx' : x ∉ wl.drop k) (hy' : y ∉ wl.drop (k + 1)) :
    after ops V (Proc.devRef .tc y) = fun i => he ▸ shapeCast y.ty.shape (after ops V (Proc.devRef .tc x)) hn i := by
  rw [after_at h V k hk hy', reshape_result, ← after_before h V k hx']

end Builders

end Idealize.ShloMosaic.StableHlo

end
-- ==== Proof.RefRun.lean ====
/-
  The reference program as one straight line of host operations, and what every buffer holds at the end of the line.

  The program is 107 operations, each writing one buffer that no other operation writes: the two degree counts (a
  scatter-add of ones along the edge ends), each clamped below by one and turned into an inverse square root; the
  embedding rows gathered by node type; two layers, each a column scaling, a gather of source rows along the edges, a
  scatter-add into destination rows, a second scaling, a matrix product, a bias row and a clamp below by zero; the
  graph number of each node (a floor division of the node number by 512); a scatter-add of the node rows into their
  graph's row; and the quotient by 512. A call of a local function is its body's operations over that call's own buffers.

  Since every buffer is written once and only read afterwards, the contents of each buffer at the END of the line
  are its operation's function of its operands' contents at the END of the line (`at_…`), and an argument buffer
  holds what it held at the start.
-/
import proofs.«418503_j35381940584593_2_alg».proof.Proof.Gen.ReferenceIdeal
import proofs.«418503_j35381940584593_2_alg».proof.Proof.LibAfterAt
import Idealize.ShloMosaic.Lib.StableHlo.Run

noncomputable section

namespace Cert.ReferenceIdeal.RRun

open Idealize.ShloMosaic Idealize.ShloMosaic.TcCoe Idealize.ShloMosaic.StableHlo Idealize.SL.Sem
open Cert.ReferenceIdeal Cert.ReferenceIdeal.Gen

variable {F : FTy → Type} [FloatOps F]

/-- The program's operations in order, each call's body in place of the call, over that call's buffers. -/
abbrev ops : List (HloOp τ sig (Elt F)) :=
  [ nullary main_cst (constant S_ .f32 0x3F800000#32),
    unary main_cst main_v0 (broadcastInDim S2097152 ![] bcast_S_S2097152 : (⟨S_, .f32⟩ : BufTy).Contents (Elt F) → (⟨S2097152, .f32⟩ : BufTy).Contents (Elt F)),
    nullary main_cst_0 (constant S_ .f32 0x00000000#32),
    unary main_cst_0 main_v1 (broadcastInDim S131072 ![] bcast_S_S131072 : (⟨S_, .f32⟩ : BufTy).Contents (Elt F) → (⟨S131072, .f32⟩ : BufTy).Contents (Elt F)),
    unary main_arg1 main_v2 (broadcastInDim S2097152x1 ![0] bcast_S2097152_S2097152x1_0 : (⟨S2097152, .i32⟩ : BufTy).Contents (Elt F) → (⟨S2097152x1, .i32⟩ : BufTy).Contents (Elt F)),
    ternary main_v1 main_v2 main_v0 main_v3 ((fun x i u => Host.scatterAdd scatter_S131072_S2097152x1_S2097152_n_0_0_1 x i u) : (⟨S131072, .f32⟩ : BufTy).Contents (Elt F) → (⟨S2097152x1, .i32⟩ : BufTy).Contents (Elt F) → (⟨S2097152, .f32⟩ : BufTy).Contents (Elt F) → (⟨S131072, .f32⟩ : BufTy).Contents (Elt F)),
    nullary main_cst_1 (constant S_ .f32 0x3F800000#32),
    TRef.unary (.of main_cst_1) main_call0.v0 id,
    TRef.unary main_call0.v0 main_call0.v1 (broadcastInDim S131072 ![] bcast_S_S131072),
    TRef.binary main_call0.v1 (.of main_v3) main_call0.v2 maximumf,
    nullary main_cst_2 (constant S_ .f32 0x00000000#32),
    unary main_cst_2 main_v5 (broadcastInDim S131072 ![] bcast_S_S131072 : (⟨S_, .f32⟩ : BufTy).Contents (Elt F) → (⟨S131072, .f32⟩ : BufTy).Contents (Elt F)),
    unary main_arg2 main_v6 (broadcastInDim S2097152x1 ![0] bcast_S2097152_S2097152x1_0 : (⟨S2097152, .i32⟩ : BufTy).Contents (Elt F) → (⟨S2097152x1, .i32⟩ : BufTy).Contents (Elt F)),
    ternary main_v5 main_v6 main_v0 main_v7 ((fun x i u => Host.scatterAdd scatter_S131072_S2097152x1_S2097152_n_0_0_1 x i u) : (⟨S131072, .f32⟩ : BufTy).Contents (Elt F) → (⟨S2097152x1, .i32⟩ : BufTy).Contents (Elt F) → (⟨S2097152, .f32⟩ : BufTy).Contents (Elt F) → (⟨S131072, .f32⟩ : BufTy).Contents (Elt F)),
    nullary main_cst_3 (constant S_ .f32 0x3F800000#32),
    TRef.unary (.of main_cst_3) main_call1.v0 id,
    TRef.unary main_call1.v0 main_call1.v1 (broadcastInDim S131072 ![] bcast_S_S131072),
    TRef.binary main_call1.v1 (.of main_v7) main_call1.v2 maximumf,
    unary main_v4 main_v9 (Host.rsqrt : (⟨S131072, .f32⟩ : BufTy).Contents (Elt F) → (⟨S131072, .f32⟩ : BufTy).Contents (Elt F)),
    unary main_v8 main_v10 (Host.rsqrt : (⟨S131072, .f32⟩ : BufTy).Contents (Elt F) → (⟨S131072, .f32⟩ : BufTy).Contents (Elt F)),
    nullary main_c (constantI S_ 32 0#32),
    unary main_c main_v11 (broadcastInDim S131072 ![] bcast_S_S131072 : (⟨S_, .i32⟩ : BufTy).Contents (Elt F) → (⟨S131072, .i32⟩ : BufTy).Contents (Elt F)),
    binary main_arg0 main_v11 main_v12 (cmpi .slt : (⟨S131072, .i32⟩ : BufTy).Contents (Elt F) → (⟨S131072, .i32⟩ : BufTy).Contents (Elt F) → (⟨S131072, .i1⟩ : BufTy).Contents (Elt F)),
    nullary main_c_4 (constantI S_ 32 64#32),
    unary main_c_4 main_v13 (broadcastInDim S131072 ![] bcast_S_S131072 : (⟨S_, .i32⟩ : BufTy).Contents (Elt F) → (⟨S131072, .i32⟩ : BufTy).Contents (Elt F)),
    binary main_arg0 main_v13 main_v14 (addi : (⟨S131072, .i32⟩ : BufTy).Contents (Elt F) → (⟨S131072, .i32⟩ : BufTy).Contents (Elt F) → (⟨S131072, .i32⟩ : BufTy).Contents (Elt F)),
    ternary main_v12 main_v14 main_arg0 main_v15 (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)),
    unary main_v15 main_v16 (broadcastInDim S131072x1 ![0] bcast_S131072_S131072x1_0 : (⟨S131072, .i32⟩ : BufTy).Contents (Elt F) → (⟨S131072x1, .i32⟩ : BufTy).Contents (Elt F)),
    binary main_arg3 main_v16 main_v17 ((fun x i => Host.gather gather_S64x128_S131072x1_S131072x128_1_0_n_n_0_1_1128 x i) : (⟨S64x128, .f32⟩ : BufTy).Contents (Elt F) → (⟨S131072x1, .i32⟩ : BufTy).Contents (Elt F) → (⟨S131072x128, .f32⟩ : BufTy).Contents (Elt F)),
    unary main_v9 main_v18 (broadcastInDim S131072x1 ![0] bcast_S131072_S131072x1_0 : (⟨S131072, .f32⟩ : BufTy).Contents (Elt F) → (⟨S131072x1, .f32⟩ : BufTy).Contents (Elt F)),
    unary main_v18 main_v19 (broadcastInDim S131072x128 ![0, 1] bcast_S131072x1_S131072x128_0_1 : (⟨S131072x1, .f32⟩ : BufTy).Contents (Elt F) → (⟨S131072x128, .f32⟩ : BufTy).Contents (Elt F)),
    binary main_v17 main_v19 main_v20 (mulf : (⟨S131072x128, .f32⟩ : BufTy).Contents (Elt F) → (⟨S131072x128, .f32⟩ : BufTy).Contents (Elt F) → (⟨S131072x128, .f32⟩ : BufTy).Contents (Elt F)),
    nullary main_c_5 (constantI S_ 32 0#32),
    unary main_c_5 main_v21 (broadcastInDim S2097152 ![] bcast_S_S2097152 : (⟨S_, .i32⟩ : BufTy).Contents (Elt F) → (⟨S2097152, .i32⟩ : BufTy).Contents (Elt F)),
    binary main_arg1 main_v21 main_v22 (cmpi .slt : (⟨S2097152, .i32⟩ : BufTy).Contents (Elt F) → (⟨S2097152, .i32⟩ : BufTy).Contents (Elt F) → (⟨S2097152, .i1⟩ : BufTy).Contents (Elt F)),
    nullary main_c_6 (constantI S_ 32 131072#32),
    unary main_c_6 main_v23 (broadcastInDim S2097152 ![] bcast_S_S2097152 : (⟨S_, .i32⟩ : BufTy).Contents (Elt F) → (⟨S2097152, .i32⟩ : BufTy).Contents (Elt F)),
    binary main_arg1 main_v23 main_v24 (addi : (⟨S2097152, .i32⟩ : BufTy).Contents (Elt F) → (⟨S2097152, .i32⟩ : BufTy).Contents (Elt F) → (⟨S2097152, .i32⟩ : BufTy).Contents (Elt F)),
    ternary main_v22 main_v24 main_arg1 main_v25 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v25 main_v26 (broadcastInDim S2097152x1 ![0] bcast_S2097152_S2097152x1_0 : (⟨S2097152, .i32⟩ : BufTy).Contents (Elt F) → (⟨S2097152x1, .i32⟩ : BufTy).Contents (Elt F)),
    binary main_v20 main_v26 main_v27 ((fun x i => Host.gather gather_S131072x128_S2097152x1_S2097152x128_1_0_n_n_0_1_1128 x i) : (⟨S131072x128, .f32⟩ : BufTy).Contents (Elt F) → (⟨S2097152x1, .i32⟩ : BufTy).Contents (Elt F) → (⟨S2097152x128, .f32⟩ : BufTy).Contents (Elt F)),
    nullary main_cst_7 (constant S_ .f32 0x00000000#32),
    unary main_cst_7 main_v28 (broadcastInDim S131072x128 ![] bcast_S_S131072x128 : (⟨S_, .f32⟩ : BufTy).Contents (Elt F) → (⟨S131072x128, .f32⟩ : BufTy).Contents (Elt F)),
    unary main_arg2 main_v29 (broadcastInDim S2097152x1 ![0] bcast_S2097152_S2097152x1_0 : (⟨S2097152, .i32⟩ : BufTy).Contents (Elt F) → (⟨S2097152x1, .i32⟩ : BufTy).Contents (Elt F)),
    ternary main_v28 main_v29 main_v27 main_v30 ((fun x i u => Host.scatterAdd scatter_S131072x128_S2097152x1_S2097152x128_1_0_0_1 x i u) : (⟨S131072x128, .f32⟩ : BufTy).Contents (Elt F) → (⟨S2097152x1, .i32⟩ : BufTy).Contents (Elt F) → (⟨S2097152x128, .f32⟩ : BufTy).Contents (Elt F) → (⟨S131072x128, .f32⟩ : BufTy).Contents (Elt F)),
    unary main_v10 main_v31 (broadcastInDim S131072x1 ![0] bcast_S131072_S131072x1_0 : (⟨S131072, .f32⟩ : BufTy).Contents (Elt F) → (⟨S131072x1, .f32⟩ : BufTy).Contents (Elt F)),
    unary main_v31 main_v32 (broadcastInDim S131072x128 ![0, 1] bcast_S131072x1_S131072x128_0_1 : (⟨S131072x1, .f32⟩ : BufTy).Contents (Elt F) → (⟨S131072x128, .f32⟩ : BufTy).Contents (Elt F)),
    binary main_v30 main_v32 main_v33 (mulf : (⟨S131072x128, .f32⟩ : BufTy).Contents (Elt F) → (⟨S131072x128, .f32⟩ : BufTy).Contents (Elt F) → (⟨S131072x128, .f32⟩ : BufTy).Contents (Elt F)),
    binary main_v33 main_arg4 main_v34 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    unary main_arg5 main_v35 (broadcastInDim S1x128 ![1] bcast_S128_S1x128_1 : (⟨S128, .f32⟩ : BufTy).Contents (Elt F) → (⟨S1x128, .f32⟩ : BufTy).Contents (Elt F)),
    unary main_v35 main_v36 (broadcastInDim S131072x128 ![0, 1] bcast_S1x128_S131072x128_0_1 : (⟨S1x128, .f32⟩ : BufTy).Contents (Elt F) → (⟨S131072x128, .f32⟩ : BufTy).Contents (Elt F)),
    binary main_v34 main_v36 main_v37 (addf : (⟨S131072x128, .f32⟩ : BufTy).Contents (Elt F) → (⟨S131072x128, .f32⟩ : BufTy).Contents (Elt F) → (⟨S131072x128, .f32⟩ : BufTy).Contents (Elt F)),
    TRef.nullary main_call2.cst (constant S_ .f32 0x00000000#32),
    TRef.unary main_call2.cst main_call2.v0 (broadcastInDim S131072x128 ![] bcast_S_S131072x128),
    TRef.binary (.of main_v37) main_call2.v0 main_call2.v1 maximumf,
    unary main_v9 main_v39 (broadcastInDim S131072x1 ![0] bcast_S131072_S131072x1_0 : (⟨S131072, .f32⟩ : BufTy).Contents (Elt F) → (⟨S131072x1, .f32⟩ : BufTy).Contents (Elt F)),
    unary main_v39 main_v40 (broadcastInDim S131072x128 ![0, 1] bcast_S131072x1_S131072x128_0_1 : (⟨S131072x1, .f32⟩ : BufTy).Contents (Elt F) → (⟨S131072x128, .f32⟩ : BufTy).Contents (Elt F)),
    binary main_v38 main_v40 main_v41 (mulf : (⟨S131072x128, .f32⟩ : BufTy).Contents (Elt F) → (⟨S131072x128, .f32⟩ : BufTy).Contents (Elt F) → (⟨S131072x128, .f32⟩ : BufTy).Contents (Elt F)),
    nullary main_c_8 (constantI S_ 32 0#32),
    unary main_c_8 main_v42 (broadcastInDim S2097152 ![] bcast_S_S2097152 : (⟨S_, .i32⟩ : BufTy).Contents (Elt F) → (⟨S2097152, .i32⟩ : BufTy).Contents (Elt F)),
    binary main_arg1 main_v42 main_v43 (cmpi .slt : (⟨S2097152, .i32⟩ : BufTy).Contents (Elt F) → (⟨S2097152, .i32⟩ : BufTy).Contents (Elt F) → (⟨S2097152, .i1⟩ : BufTy).Contents (Elt F)),
    nullary main_c_9 (constantI S_ 32 131072#32),
    unary main_c_9 main_v44 (broadcastInDim S2097152 ![] bcast_S_S2097152 : (⟨S_, .i32⟩ : BufTy).Contents (Elt F) → (⟨S2097152, .i32⟩ : BufTy).Contents (Elt F)),
    binary main_arg1 main_v44 main_v45 (addi : (⟨S2097152, .i32⟩ : BufTy).Contents (Elt F) → (⟨S2097152, .i32⟩ : BufTy).Contents (Elt F) → (⟨S2097152, .i32⟩ : BufTy).Contents (Elt F)),
    ternary main_v43 main_v45 main_arg1 main_v46 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v46 main_v47 (broadcastInDim S2097152x1 ![0] bcast_S2097152_S2097152x1_0 : (⟨S2097152, .i32⟩ : BufTy).Contents (Elt F) → (⟨S2097152x1, .i32⟩ : BufTy).Contents (Elt F)),
    binary main_v41 main_v47 main_v48 ((fun x i => Host.gather gather_S131072x128_S2097152x1_S2097152x128_1_0_n_n_0_1_1128 x i) : (⟨S131072x128, .f32⟩ : BufTy).Contents (Elt F) → (⟨S2097152x1, .i32⟩ : BufTy).Contents (Elt F) → (⟨S2097152x128, .f32⟩ : BufTy).Contents (Elt F)),
    nullary main_cst_10 (constant S_ .f32 0x00000000#32),
    unary main_cst_10 main_v49 (broadcastInDim S131072x128 ![] bcast_S_S131072x128 : (⟨S_, .f32⟩ : BufTy).Contents (Elt F) → (⟨S131072x128, .f32⟩ : BufTy).Contents (Elt F)),
    unary main_arg2 main_v50 (broadcastInDim S2097152x1 ![0] bcast_S2097152_S2097152x1_0 : (⟨S2097152, .i32⟩ : BufTy).Contents (Elt F) → (⟨S2097152x1, .i32⟩ : BufTy).Contents (Elt F)),
    ternary main_v49 main_v50 main_v48 main_v51 ((fun x i u => Host.scatterAdd scatter_S131072x128_S2097152x1_S2097152x128_1_0_0_1 x i u) : (⟨S131072x128, .f32⟩ : BufTy).Contents (Elt F) → (⟨S2097152x1, .i32⟩ : BufTy).Contents (Elt F) → (⟨S2097152x128, .f32⟩ : BufTy).Contents (Elt F) → (⟨S131072x128, .f32⟩ : BufTy).Contents (Elt F)),
    unary main_v10 main_v52 (broadcastInDim S131072x1 ![0] bcast_S131072_S131072x1_0 : (⟨S131072, .f32⟩ : BufTy).Contents (Elt F) → (⟨S131072x1, .f32⟩ : BufTy).Contents (Elt F)),
    unary main_v52 main_v53 (broadcastInDim S131072x128 ![0, 1] bcast_S131072x1_S131072x128_0_1 : (⟨S131072x1, .f32⟩ : BufTy).Contents (Elt F) → (⟨S131072x128, .f32⟩ : BufTy).Contents (Elt F)),
    binary main_v51 main_v53 main_v54 (mulf : (⟨S131072x128, .f32⟩ : BufTy).Contents (Elt F) → (⟨S131072x128, .f32⟩ : BufTy).Contents (Elt F) → (⟨S131072x128, .f32⟩ : BufTy).Contents (Elt F)),
    binary main_v54 main_arg6 main_v55 ((fun l r => Host.dotGeneral dot_S131072x128_S128x128_S131072x128_1_0_0_1_n_n none l r) : (⟨S131072x128, .f32⟩ : BufTy).Contents (Elt F) → (⟨S128x128, .f32⟩ : BufTy).Contents (Elt F) → (⟨S131072x128, .f32⟩ : BufTy).Contents (Elt F)),
    unary main_arg7 main_v56 (broadcastInDim S1x128 ![1] bcast_S128_S1x128_1 : (⟨S128, .f32⟩ : BufTy).Contents (Elt F) → (⟨S1x128, .f32⟩ : BufTy).Contents (Elt F)),
    unary main_v56 main_v57 (broadcastInDim S131072x128 ![0, 1] bcast_S1x128_S131072x128_0_1 : (⟨S1x128, .f32⟩ : BufTy).Contents (Elt F) → (⟨S131072x128, .f32⟩ : BufTy).Contents (Elt F)),
    binary main_v55 main_v57 main_v58 (addf : (⟨S131072x128, .f32⟩ : BufTy).Contents (Elt F) → (⟨S131072x128, .f32⟩ : BufTy).Contents (Elt F) → (⟨S131072x128, .f32⟩ : BufTy).Contents (Elt F)),
    TRef.nullary main_call3.cst (constant S_ .f32 0x00000000#32),
    TRef.unary main_call3.cst main_call3.v0 (broadcastInDim S131072x128 ![] bcast_S_S131072x128),
    TRef.binary (.of main_v58) main_call3.v0 main_call3.v1 maximumf,
    nullary main_v60 (iotaInDim S131072 32 0),
    nullary main_c_11 (constantI S_ 32 512#32),
    TRef.unary (.of main_c_11) main_call4.v0 id,
    TRef.unary main_call4.v0 main_call4.v1 (broadcastInDim S131072 ![] bcast_S_S131072),
    TRef.binary (.of main_v60) main_call4.v1 main_call4.v2 Host.divsi,
    TRef.unary (.of main_v60) main_call4.v3 signi,
    TRef.unary main_call4.v0 main_call4.v4 signi,
    TRef.unary main_call4.v4 main_call4.v5 (broadcastInDim S131072 ![] bcast_S_S131072),
    TRef.binary main_call4.v3 main_call4.v5 main_call4.v6 (cmpi .ne),
    TRef.unary main_call4.v0 main_call4.v7 (broadcastInDim S131072 ![] bcast_S_S131072),
    TRef.binary (.of main_v60) main_call4.v7 main_call4.v8 Host.remsi,
    TRef.nullary main_call4.c (constantI S_ 32 0#32),
    TRef.unary main_call4.c main_call4.v9 (broadcastInDim S131072 ![] bcast_S_S131072),
    TRef.binary main_call4.v8 main_call4.v9 main_call4.v10 (cmpi .ne),
    TRef.binary main_call4.v6 main_call4.v10 main_call4.v11 andi,
    TRef.nullary main_call4.c_0 (constantI S_ 32 1#32),
    TRef.unary main_call4.c_0 main_call4.v12 (broadcastInDim S131072 ![] bcast_S_S131072),
    TRef.binary main_call4.v2 main_call4.v12 main_call4.v13 subi,
    TRef.ternary main_call4.v11 main_call4.v13 main_call4.v2 main_call4.call0.v0 select,
    nullary main_cst_12 (constant S_ .f32 0x00000000#32),
    unary main_cst_12 main_v62 (broadcastInDim S256x128 ![] bcast_S_S256x128 : (⟨S_, .f32⟩ : BufTy).Contents (Elt F) → (⟨S256x128, .f32⟩ : BufTy).Contents (Elt F)),
    unary main_v61 main_v63 (broadcastInDim S131072x1 ![0] bcast_S131072_S131072x1_0 : (⟨S131072, .i32⟩ : BufTy).Contents (Elt F) → (⟨S131072x1, .i32⟩ : BufTy).Contents (Elt F)),
    ternary main_v62 main_v63 main_v59 main_v64 ((fun x i u => Host.scatterAdd scatter_S256x128_S131072x1_S131072x128_1_0_0_1 x i u) : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F)),
    nullary main_cst_13 (constant S_ .f32 0x44000000#32),
    unary main_cst_13 main_v65 (broadcastInDim S256x128 ![] bcast_S_S256x128 : (⟨S_, .f32⟩ : BufTy).Contents (Elt F) → (⟨S256x128, .f32⟩ : BufTy).Contents (Elt F)),
    binary main_v64 main_v65 main_v66 (Host.divf : (⟨S256x128, .f32⟩ : BufTy).Contents (Elt F) → (⟨S256x128, .f32⟩ : BufTy).Contents (Elt F) → (⟨S256x128, .f32⟩ : BufTy).Contents (Elt F)) ]

set_option maxRecDepth 4096 in
set_option maxHeartbeats 4000000 in
/-- The program is that straight line: the local functions' bodies stand at their calls, and sequencing is associative. -/
theorem main_eq (c : Dev nD) : main (F := F) c = seq ops := by
  simp only [main, main_part0, main_part1, fn_clip.body, fn_relu.body, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    unary_bufs_sub .., unary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., unary_bufs_sub .., ternary_bufs_sub .., unary_bufs_sub .., unary_bufs_sub .., binary_bufs_sub ..,
    binary_bufs_sub .., unary_bufs_sub .., unary_bufs_sub .., binary_bufs_sub .., nullary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., nullary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., nullary_bufs_sub .., unary_bufs_sub ..,
    unary_bufs_sub .., ternary_bufs_sub .., nullary_bufs_sub .., unary_bufs_sub .., binary_bufs_sub ..⟩

/-- From any memory with zero counters, every weakly fair execution of the program terminates, and each buffer ends at
    the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The buffer each operation writes, position by position. -/
def wl : List (Ref sig .tc) :=
  [ main_cst, main_v0, main_cst_0, main_v1, main_v2, main_v3, main_cst_1, main_call0_v0,
    main_call0_v1, main_v4, main_cst_2, main_v5, main_v6, main_v7, main_cst_3, main_call1_v0,
    main_call1_v1, main_v8, main_v9, main_v10, main_c, main_v11, main_v12, main_c_4,
    main_v13, main_v14, main_v15, main_v16, main_v17, main_v18, main_v19, main_v20,
    main_c_5, main_v21, main_v22, main_c_6, main_v23, main_v24, main_v25, main_v26,
    main_v27, main_cst_7, main_v28, main_v29, main_v30, main_v31, main_v32, main_v33,
    main_v34, main_v35, main_v36, main_v37, main_call2_cst, main_call2_v0, main_v38, main_v39,
    main_v40, main_v41, main_c_8, main_v42, main_v43, main_c_9, main_v44, main_v45,
    main_v46, main_v47, main_v48, main_cst_10, main_v49, main_v50, main_v51, main_v52,
    main_v53, main_v54, main_v55, main_v56, main_v57, main_v58, main_call3_cst, main_call3_v0,
    main_v59, main_v60, main_c_11, main_call4_v0, main_call4_v1, main_call4_v2, main_call4_v3, main_call4_v4,
    main_call4_v5, main_call4_v6, main_call4_v7, main_call4_v8, main_call4_c, main_call4_v9, main_call4_v10, main_call4_v11,
    main_call4_c_0, main_call4_v12, main_call4_v13, main_v61, main_cst_12, main_v62, main_v63, main_v64,
    main_cst_13, main_v65, main_v66 ]

/-- Each operation writes exactly the buffer listed at its position. -/
theorem writesAre : StableHlo.WritesAre (ops (F := F)) wl :=
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <| List.Forall₂.cons rfl <|
  List.Forall₂.cons rfl <| List.Forall₂.cons rfl <| List.Forall₂.cons rfl <| List.Forall₂.cons rfl <| List.Forall₂.cons rfl <|
  List.Forall₂.nil

/-! ## Each buffer at the end of the line -/

theorem at_main_arg0 (V : Valuation τ sig (Elt F)) :
    after ops V (Proc.devRef .tc main_arg0) = V (Proc.devRef .tc main_arg0) :=
  after_of_writesAre writesAre V (by decide)

theorem at_main_arg1 (V : Valuation τ sig (Elt F)) :
    after ops V (Proc.devRef .tc main_arg1) = V (Proc.devRef .tc main_arg1) :=
  after_of_writesAre writesAre V (by decide)

theorem at_main_arg2 (V : Valuation τ sig (Elt F)) :
    after ops V (Proc.devRef .tc main_arg2) = V (Proc.devRef .tc main_arg2) :=
  after_of_writesAre writesAre V (by decide)

theorem at_main_arg3 (V : Valuation τ sig (Elt F)) :
    after ops V (Proc.devRef .tc main_arg3) = V (Proc.devRef .tc main_arg3) :=
  after_of_writesAre writesAre V (by decide)

theorem at_main_arg4 (V : Valuation τ sig (Elt F)) :
    after ops V (Proc.devRef .tc main_arg4) = V (Proc.devRef .tc main_arg4) :=
  after_of_writesAre writesAre V (by decide)

theorem at_main_arg5 (V : Valuation τ sig (Elt F)) :
    after ops V (Proc.devRef .tc main_arg5) = V (Proc.devRef .tc main_arg5) :=
  after_of_writesAre writesAre V (by decide)

theorem at_main_arg6 (V : Valuation τ sig (Elt F)) :
    after ops V (Proc.devRef .tc main_arg6) = V (Proc.devRef .tc main_arg6) :=
  after_of_writesAre writesAre V (by decide)

theorem at_main_arg7 (V : Valuation τ sig (Elt F)) :
    after ops V (Proc.devRef .tc main_arg7) = V (Proc.devRef .tc main_arg7) :=
  after_of_writesAre writesAre V (by decide)

theorem at_main_cst (V : Valuation τ sig (Elt F)) :
    after ops V (Proc.devRef .tc main_cst)
      = (constant S_ .f32 0x3F800000#32 : (⟨S_, .f32⟩ : BufTy).Contents (Elt F)) :=
  after_nullary_at writesAre V 0 rfl (by decide)

theorem at_main_v0 (V : Valuation τ sig (Elt F)) :
    after ops V (Proc.devRef .tc main_v0)
      = (broadcastInDim S2097152 ![] bcast_S_S2097152 : (⟨S_, .f32⟩ : BufTy).Contents (Elt F) → (⟨S2097152, .f32⟩ : BufTy).Contents (Elt F)) (after ops V (Proc.devRef .tc main_cst)) :=
  after_unary_at writesAre V 1 rfl (by decide) (by decide)

theorem at_main_cst_0 (V : Valuation τ sig (Elt F)) :
    after ops V (Proc.devRef .tc main_cst_0)
      = (constant S_ .f32 0x00000000#32 : (⟨S_, .f32⟩ : BufTy).Contents (Elt F)) :=
  after_nullary_at writesAre V 2 rfl (by decide)

theorem at_main_v1 (V : Valuation τ sig (Elt F)) :
    after ops V (Proc.devRef .tc main_v1)
      = (broadcastInDim S131072 ![] bcast_S_S131072 : (⟨S_, .f32⟩ : BufTy).Contents (Elt F) → (⟨S131072, .f32⟩ : BufTy).Contents (Elt F)) (after ops V (Proc.devRef .tc main_cst_0)) :=
  after_unary_at writesAre V 3 rfl (by decide) (by decide)

theorem at_main_v2 (V : Valuation τ sig (Elt F)) :
    after ops V (Proc.devRef .tc main_v2)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_arg1)) :=
  after_unary_at writesAre V 4 rfl (by decide) (by decide)

theorem at_main_v3 (V : Valuation τ sig (Elt F)) :
    after ops V (Proc.devRef .tc main_v3)
      = (Host.scatterAdd scatter_S131072_S2097152x1_S2097152_n_0_0_1 : (⟨S131072, .f32⟩ : BufTy).Contents (Elt F) → (⟨S2097152x1, .i32⟩ : BufTy).Contents (Elt F) → (⟨S2097152, .f32⟩ : BufTy).Contents (Elt F) → (⟨S131072, .f32⟩ : BufTy).Contents (Elt F)) (after ops V (Proc.devRef .tc main_v1)) (after ops V (Proc.devRef .tc main_v2)) (after ops V (Proc.devRef .tc main_v0)) :=
  after_ternary_at writesAre V 5 rfl (by decide) (by decide) (by decide) (by decide)

theorem at_main_cst_1 (V : Valuation τ sig (Elt F)) :
    after ops V (Proc.devRef .tc main_cst_1)
      = (constant S_ .f32 0x3F800000#32 : (⟨S_, .f32⟩ : BufTy).Contents (Elt F)) :=
  after_nullary_at writesAre V 6 rfl (by decide)

theorem at_main_call0_v0 (V : Valuation τ sig (Elt F)) :
    after ops V (Proc.devRef .tc main_call0_v0)
      = (id : (⟨S_, .f32⟩ : BufTy).Contents (Elt F) → (⟨S_, .f32⟩ : BufTy).Contents (Elt F)) (after ops V (Proc.devRef .tc main_cst_1)) :=
  after_unary_at writesAre V 7 rfl (by decide) (by decide)

theorem at_main_call0_v1 (V : Valuation τ sig (Elt F)) :
    after ops V (Proc.devRef .tc main_call0_v1)
      = (broadcastInDim S131072 ![] bcast_S_S131072 : (⟨S_, .f32⟩ : BufTy).Contents (Elt F) → (⟨S131072, .f32⟩ : BufTy).Contents (Elt F)) (after ops V (Proc.devRef .tc main_call0_v0)) :=
  after_unary_at writesAre V 8 rfl (by decide) (by decide)

theorem at_main_v4 (V : Valuation τ sig (Elt F)) :
    after ops V (Proc.devRef .tc main_v4)
      = (maximumf : (⟨S131072, .f32⟩ : BufTy).Contents (Elt F) → (⟨S131072, .f32⟩ : BufTy).Contents (Elt F) → (⟨S131072, .f32⟩ : BufTy).Contents (Elt F)) (after ops V (Proc.devRef .tc main_call0_v1)) (after ops V (Proc.devRef .tc main_v3)) :=
  after_binary_at writesAre V 9 rfl (by decide) (by decide) (by decide)

theorem at_main_cst_2 (V : Valuation τ sig (Elt F)) :
    after ops V (Proc.devRef .tc main_cst_2)
      = (constant S_ .f32 0x00000000#32 : (⟨S_, .f32⟩ : BufTy).Contents (Elt F)) :=
  after_nullary_at writesAre V 10 rfl (by decide)

theorem at_main_v5 (V : Valuation τ sig (Elt F)) :
    after ops V (Proc.devRef .tc main_v5)
      = (broadcastInDim S131072 ![] bcast_S_S131072 : (⟨S_, .f32⟩ : BufTy).Contents (Elt F) → (⟨S131072, .f32⟩ : BufTy).Contents (Elt F)) (after ops V (Proc.devRef .tc main_cst_2)) :=
  after_unary_at writesAre V 11 rfl (by decide) (by decide)

theorem at_main_v6 (V : Valuation τ sig (Elt F)) :
    after ops V (Proc.devRef .tc main_v6)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_arg2)) :=
  after_unary_at writesAre V 12 rfl (by decide) (by decide)

theorem at_main_v7 (V : Valuation τ sig (Elt F)) :
    after ops V (Proc.devRef .tc main_v7)
      = (Host.scatterAdd scatter_S131072_S2097152x1_S2097152_n_0_0_1 : (⟨S131072, .f32⟩ : BufTy).Contents (Elt F) → (⟨S2097152x1, .i32⟩ : BufTy).Contents (Elt F) → (⟨S2097152, .f32⟩ : BufTy).Contents (Elt F) → (⟨S131072, .f32⟩ : BufTy).Contents (Elt F)) (after ops V (Proc.devRef .tc main_v5)) (after ops V (Proc.devRef .tc main_v6)) (after ops V (Proc.devRef .tc main_v0)) :=
  after_ternary_at writesAre V 13 rfl (by decide) (by decide) (by decide) (by decide)

theorem at_main_cst_3 (V : Valuation τ sig (Elt F)) :
    after ops V (Proc.devRef .tc main_cst_3)
      = (constant S_ .f32 0x3F800000#32 : (⟨S_, .f32⟩ : BufTy).Contents (Elt F)) :=
  after_nullary_at writesAre V 14 rfl (by decide)

theorem at_main_call1_v0 (V : Valuation τ sig (Elt F)) :
    after ops V (Proc.devRef .tc main_call1_v0)
      = (id : (⟨S_, .f32⟩ : BufTy).Contents (Elt F) → (⟨S_, .f32⟩ : BufTy).Contents (Elt F)) (after ops V (Proc.devRef .tc main_cst_3)) :=
  after_unary_at writesAre V 15 rfl (by decide) (by decide)

theorem at_main_call1_v1 (V : Valuation τ sig (Elt F)) :
    after ops V (Proc.devRef .tc main_call1_v1)
      = (broadcastInDim S131072 ![] bcast_S_S131072 : (⟨S_, .f32⟩ : BufTy).Contents (Elt F) → (⟨S131072, .f32⟩ : BufTy).Contents (Elt F)) (after ops V (Proc.devRef .tc main_call1_v0)) :=
  after_unary_at writesAre V 16 rfl (by decide) (by decide)

theorem at_main_v8 (V : Valuation τ sig (Elt F)) :
    after ops V (Proc.devRef .tc main_v8)
      = (maximumf : (⟨S131072, .f32⟩ : BufTy).Contents (Elt F) → (⟨S131072, .f32⟩ : BufTy).Contents (Elt F) → (⟨S131072, .f32⟩ : BufTy).Contents (Elt F)) (after ops V (Proc.devRef .tc main_call1_v1)) (after ops V (Proc.devRef .tc main_v7)) :=
  after_binary_at writesAre V 17 rfl (by decide) (by decide) (by decide)

theorem at_main_v9 (V : Valuation τ sig (Elt F)) :
    after ops V (Proc.devRef .tc main_v9)
      = (Host.rsqrt : (⟨S131072, .f32⟩ : BufTy).Contents (Elt F) → (⟨S131072, .f32⟩ : BufTy).Contents (Elt F)) (after ops V (Proc.devRef .tc main_v4)) :=
  after_unary_at writesAre V 18 rfl (by decide) (by decide)

theorem at_main_v10 (V : Valuation τ sig (Elt F)) :
    after ops V (Proc.devRef .tc main_v10)
      = (Host.rsqrt : (⟨S131072, .f32⟩ : BufTy).Contents (Elt F) → (⟨S131072, .f32⟩ : BufTy).Contents (Elt F)) (after ops V (Proc.devRef .tc main_v8)) :=
  after_unary_at writesAre V 19 rfl (by decide) (by decide)

theorem at_main_c (V : Valuation τ sig (Elt F)) :
    after ops V (Proc.devRef .tc main_c)
      = (constantI S_ 32 0#32 : (⟨S_, .i32⟩ : BufTy).Contents (Elt F)) :=
  after_nullary_at writesAre V 20 rfl (by decide)

theorem at_main_v11 (V : Valuation τ sig (Elt F)) :
    after ops V (Proc.devRef .tc main_v11)
      = (broadcastInDim S131072 ![] bcast_S_S131072 : (⟨S_, .i32⟩ : BufTy).Contents (Elt F) → (⟨S131072, .i32⟩ : BufTy).Contents (Elt F)) (after ops V (Proc.devRef .tc main_c)) :=
  after_unary_at writesAre V 21 rfl (by decide) (by decide)

theorem at_main_v12 (V : Valuation τ sig (Elt F)) :
    after ops V (Proc.devRef .tc main_v12)
      = (cmpi .slt : (⟨S131072, .i32⟩ : BufTy).Contents (Elt F) → (⟨S131072, .i32⟩ : BufTy).Contents (Elt F) → (⟨S131072, .i1⟩ : BufTy).Contents (Elt F)) (after ops V (Proc.devRef .tc main_arg0)) (after ops V (Proc.devRef .tc main_v11)) :=
  after_binary_at writesAre V 22 rfl (by decide) (by decide) (by decide)

theorem at_main_c_4 (V : Valuation τ sig (Elt F)) :
    after ops V (Proc.devRef .tc main_c_4)
      = (constantI S_ 32 64#32 : (⟨S_, .i32⟩ : BufTy).Contents (Elt F)) :=
  after_nullary_at writesAre V 23 rfl (by decide)

theorem at_main_v13 (V : Valuation τ sig (Elt F)) :
    after ops V (Proc.devRef .tc main_v13)
      = (broadcastInDim S131072 ![] bcast_S_S131072 : (⟨S_, .i32⟩ : BufTy).Contents (Elt F) → (⟨S131072, .i32⟩ : BufTy).Contents (Elt F)) (after ops V (Proc.devRef .tc main_c_4)) :=
  after_unary_at writesAre V 24 rfl (by decide) (by decide)

theorem at_main_v14 (V : Valuation τ sig (Elt F)) :
    after ops V (Proc.devRef .tc main_v14)
      = (addi : (⟨S131072, .i32⟩ : BufTy).Contents (Elt F) → (⟨S131072, .i32⟩ : BufTy).Contents (Elt F) → (⟨S131072, .i32⟩ : BufTy).Contents (Elt F)) (after ops V (Proc.devRef .tc main_arg0)) (after ops V (Proc.devRef .tc main_v13)) :=
  after_binary_at writesAre V 25 rfl (by decide) (by decide) (by decide)

theorem at_main_v15 (V : Valuation τ sig (Elt F)) :
    after ops V (Proc.devRef .tc main_v15)
      = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (after ops V (Proc.devRef .tc main_v12)) (after ops V (Proc.devRef .tc main_v14)) (after ops V (Proc.devRef .tc main_arg0)) :=
  after_ternary_at writesAre V 26 rfl (by decide) (by decide) (by decide) (by decide)

theorem at_main_v16 (V : Valuation τ sig (Elt F)) :
    after ops V (Proc.devRef .tc main_v16)
      = (broadcastInDim S131072x1 ![0] bcast_S131072_S131072x1_0 : (⟨S131072, .i32⟩ : BufTy).Contents (Elt F) → (⟨S131072x1, .i32⟩ : BufTy).Contents (Elt F)) (after ops V (Proc.devRef .tc main_v15)) :=
  after_unary_at writesAre V 27 rfl (by decide) (by decide)

theorem at_main_v17 (V : Valuation τ sig (Elt F)) :
    after ops V (Proc.devRef .tc main_v17)
      = (Host.gather gather_S64x128_S131072x1_S131072x128_1_0_n_n_0_1_1128 : (⟨S64x128, .f32⟩ : BufTy).Contents (Elt F) → (⟨S131072x1, .i32⟩ : BufTy).Contents (Elt F) → (⟨S131072x128, .f32⟩ : BufTy).Contents (Elt F)) (after ops V (Proc.devRef .tc main_arg3)) (after ops V (Proc.devRef .tc main_v16)) :=
  after_binary_at writesAre V 28 rfl (by decide) (by decide) (by decide)

theorem at_main_v18 (V : Valuation τ sig (Elt F)) :
    after ops V (Proc.devRef .tc main_v18)
      = (broadcastInDim S131072x1 ![0] bcast_S131072_S131072x1_0 : (⟨S131072, .f32⟩ : BufTy).Contents (Elt F) → (⟨S131072x1, .f32⟩ : BufTy).Contents (Elt F)) (after ops V (Proc.devRef .tc main_v9)) :=
  after_unary_at writesAre V 29 rfl (by decide) (by decide)

theorem at_main_v19 (V : Valuation τ sig (Elt F)) :
    after ops V (Proc.devRef .tc main_v19)
      = (broadcastInDim S131072x128 ![0, 1] bcast_S131072x1_S131072x128_0_1 : (⟨S131072x1, .f32⟩ : BufTy).Contents (Elt F) → (⟨S131072x128, .f32⟩ : BufTy).Contents (Elt F)) (after ops V (Proc.devRef .tc main_v18)) :=
  after_unary_at writesAre V 30 rfl (by decide) (by decide)

theorem at_main_v20 (V : Valuation τ sig (Elt F)) :
    after ops V (Proc.devRef .tc main_v20)
      = (mulf : (⟨S131072x128, .f32⟩ : BufTy).Contents (Elt F) → (⟨S131072x128, .f32⟩ : BufTy).Contents (Elt F) → (⟨S131072x128, .f32⟩ : BufTy).Contents (Elt F)) (after ops V (Proc.devRef .tc main_v17)) (after ops V (Proc.devRef .tc main_v19)) :=
  after_binary_at writesAre V 31 rfl (by decide) (by decide) (by decide)

theorem at_main_c_5 (V : Valuation τ sig (Elt F)) :
    after ops V (Proc.devRef .tc main_c_5)
      = (constantI S_ 32 0#32 : (⟨S_, .i32⟩ : BufTy).Contents (Elt F)) :=
  after_nullary_at writesAre V 32 rfl (by decide)

theorem at_main_v21 (V : Valuation τ sig (Elt F)) :
    after ops V (Proc.devRef .tc main_v21)
      = (broadcastInDim S2097152 ![] bcast_S_S2097152 : (⟨S_, .i32⟩ : BufTy).Contents (Elt F) → (⟨S2097152, .i32⟩ : BufTy).Contents (Elt F)) (after ops V (Proc.devRef .tc main_c_5)) :=
  after_unary_at writesAre V 33 rfl (by decide) (by decide)

theorem at_main_v22 (V : Valuation τ sig (Elt F)) :
    after ops V (Proc.devRef .tc main_v22)
      = (cmpi .slt : (⟨S2097152, .i32⟩ : BufTy).Contents (Elt F) → (⟨S2097152, .i32⟩ : BufTy).Contents (Elt F) → (⟨S2097152, .i1⟩ : BufTy).Contents (Elt F)) (after ops V (Proc.devRef .tc main_arg1)) (after ops V (Proc.devRef .tc main_v21)) :=
  after_binary_at writesAre V 34 rfl (by decide) (by decide) (by decide)

theorem at_main_c_6 (V : Valuation τ sig (Elt F)) :
    after ops V (Proc.devRef .tc main_c_6)
      = (constantI S_ 32 131072#32 : (⟨S_, .i32⟩ : BufTy).Contents (Elt F)) :=
  after_nullary_at writesAre V 35 rfl (by decide)

theorem at_main_v23 (V : Valuation τ sig (Elt F)) :
    after ops V (Proc.devRef .tc main_v23)
      = (broadcastInDim S2097152 ![] bcast_S_S2097152 : (⟨S_, .i32⟩ : BufTy).Contents (Elt F) → (⟨S2097152, .i32⟩ : BufTy).Contents (Elt F)) (after ops V (Proc.devRef .tc main_c_6)) :=
  after_unary_at writesAre V 36 rfl (by decide) (by decide)

theorem at_main_v24 (V : Valuation τ sig (Elt F)) :
    after ops V (Proc.devRef .tc main_v24)
      = (addi : (⟨S2097152, .i32⟩ : BufTy).Contents (Elt F) → (⟨S2097152, .i32⟩ : BufTy).Contents (Elt F) → (⟨S2097152, .i32⟩ : BufTy).Contents (Elt F)) (after ops V (Proc.devRef .tc main_arg1)) (after ops V (Proc.devRef .tc main_v23)) :=
  after_binary_at writesAre V 37 rfl (by decide) (by decide) (by decide)

theorem at_main_v25 (V : Valuation τ sig (Elt F)) :
    after ops V (Proc.devRef .tc main_v25)
      = (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)) (after ops V (Proc.devRef .tc main_v22)) (after ops V (Proc.devRef .tc main_v24)) (after ops V (Proc.devRef .tc main_arg1)) :=
  after_ternary_at writesAre V 38 rfl (by decide) (by decide) (by decide) (by decide)

theorem at_main_v26 (V : Valuation τ sig (Elt F)) :
    after ops V (Proc.devRef .tc main_v26)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_v25)) :=
  after_unary_at writesAre V 39 rfl (by decide) (by decide)

theorem at_main_v27 (V : Valuation τ sig (Elt F)) :
    after ops V (Proc.devRef .tc main_v27)
      = (Host.gather gather_S131072x128_S2097152x1_S2097152x128_1_0_n_n_0_1_1128 : (⟨S131072x128, .f32⟩ : BufTy).Contents (Elt F) → (⟨S2097152x1, .i32⟩ : BufTy).Contents (Elt F) → (⟨S2097152x128, .f32⟩ : BufTy).Contents (Elt F)) (after ops V (Proc.devRef .tc main_v20)) (after ops V (Proc.devRef .tc main_v26)) :=
  after_binary_at writesAre V 40 rfl (by decide) (by decide) (by decide)

theorem at_main_cst_7 (V : Valuation τ sig (Elt F)) :
    after ops V (Proc.devRef .tc main_cst_7)
      = (constant S_ .f32 0x00000000#32 : (⟨S_, .f32⟩ : BufTy).Contents (Elt F)) :=
  after_nullary_at writesAre V 41 rfl (by decide)

theorem at_main_v28 (V : Valuation τ sig (Elt F)) :
    after ops V (Proc.devRef .tc main_v28)
      = (broadcastInDim S131072x128 ![] bcast_S_S131072x128 : (⟨S_, .f32⟩ : BufTy).Contents (Elt F) → (⟨S131072x128, .f32⟩ : BufTy).Contents (Elt F)) (after ops V (Proc.devRef .tc main_cst_7)) :=
  after_unary_at writesAre V 42 rfl (by decide) (by decide)

theorem at_main_v29 (V : Valuation τ sig (Elt F)) :
    after ops V (Proc.devRef .tc main_v29)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_arg2)) :=
  after_unary_at writesAre V 43 rfl (by decide) (by decide)

theorem at_main_v30 (V : Valuation τ sig (Elt F)) :
    after ops V (Proc.devRef .tc main_v30)
      = (Host.scatterAdd scatter_S131072x128_S2097152x1_S2097152x128_1_0_0_1 : (⟨S131072x128, .f32⟩ : BufTy).Contents (Elt F) → (⟨S2097152x1, .i32⟩ : BufTy).Contents (Elt F) → (⟨S2097152x128, .f32⟩ : BufTy).Contents (Elt F) → (⟨S131072x128, .f32⟩ : BufTy).Contents (Elt F)) (after ops V (Proc.devRef .tc main_v28)) (after ops V (Proc.devRef .tc main_v29)) (after ops V (Proc.devRef .tc main_v27)) :=
  after_ternary_at writesAre V 44 rfl (by decide) (by decide) (by decide) (by decide)

theorem at_main_v31 (V : Valuation τ sig (Elt F)) :
    after ops V (Proc.devRef .tc main_v31)
      = (broadcastInDim S131072x1 ![0] bcast_S131072_S131072x1_0 : (⟨S131072, .f32⟩ : BufTy).Contents (Elt F) → (⟨S131072x1, .f32⟩ : BufTy).Contents (Elt F)) (after ops V (Proc.devRef .tc main_v10)) :=
  after_unary_at writesAre V 45 rfl (by decide) (by decide)

theorem at_main_v32 (V : Valuation τ sig (Elt F)) :
    after ops V (Proc.devRef .tc main_v32)
      = (broadcastInDim S131072x128 ![0, 1] bcast_S131072x1_S131072x128_0_1 : (⟨S131072x1, .f32⟩ : BufTy).Contents (Elt F) → (⟨S131072x128, .f32⟩ : BufTy).Contents (Elt F)) (after ops V (Proc.devRef .tc main_v31)) :=
  after_unary_at writesAre V 46 rfl (by decide) (by decide)

theorem at_main_v33 (V : Valuation τ sig (Elt F)) :
    after ops V (Proc.devRef .tc main_v33)
      = (mulf : (⟨S131072x128, .f32⟩ : BufTy).Contents (Elt F) → (⟨S131072x128, .f32⟩ : BufTy).Contents (Elt F) → (⟨S131072x128, .f32⟩ : BufTy).Contents (Elt F)) (after ops V (Proc.devRef .tc main_v30)) (after ops V (Proc.devRef .tc main_v32)) :=
  after_binary_at writesAre V 47 rfl (by decide) (by decide) (by decide)

theorem at_main_v34 (V : Valuation τ sig (Elt F)) :
    after ops V (Proc.devRef .tc main_v34)
      = (Host.dotGeneral dot_S131072x128_S128x128_S131072x128_1_0_0_1_n_n none : (⟨S131072x128, .f32⟩ : BufTy).Contents (Elt F) → (⟨S128x128, .f32⟩ : BufTy).Contents (Elt F) → (⟨S131072x128, .f32⟩ : BufTy).Contents (Elt F)) (after ops V (Proc.devRef .tc main_v33)) (after ops V (Proc.devRef .tc main_arg4)) :=
  after_binary_at writesAre V 48 rfl (by decide) (by decide) (by decide)

theorem at_main_v35 (V : Valuation τ sig (Elt F)) :
    after ops V (Proc.devRef .tc main_v35)
      = (broadcastInDim S1x128 ![1] bcast_S128_S1x128_1 : (⟨S128, .f32⟩ : BufTy).Contents (Elt F) → (⟨S1x128, .f32⟩ : BufTy).Contents (Elt F)) (after ops V (Proc.devRef .tc main_arg5)) :=
  after_unary_at writesAre V 49 rfl (by decide) (by decide)

theorem at_main_v36 (V : Valuation τ sig (Elt F)) :
    after ops V (Proc.devRef .tc main_v36)
      = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v35)) :=
  after_unary_at writesAre V 50 rfl (by decide) (by decide)

theorem at_main_v37 (V : Valuation τ sig (Elt F)) :
    after ops V (Proc.devRef .tc main_v37)
      = (addf : (⟨S131072x128, .f32⟩ : BufTy).Contents (Elt F) → (⟨S131072x128, .f32⟩ : BufTy).Contents (Elt F) → (⟨S131072x128, .f32⟩ : BufTy).Contents (Elt F)) (after ops V (Proc.devRef .tc main_v34)) (after ops V (Proc.devRef .tc main_v36)) :=
  after_binary_at writesAre V 51 rfl (by decide) (by decide) (by decide)

theorem at_main_call2_cst (V : Valuation τ sig (Elt F)) :
    after ops V (Proc.devRef .tc main_call2_cst)
      = (constant S_ .f32 0x00000000#32 : (⟨S_, .f32⟩ : BufTy).Contents (Elt F)) :=
  after_nullary_at writesAre V 52 rfl (by decide)

theorem at_main_call2_v0 (V : Valuation τ sig (Elt F)) :
    after ops V (Proc.devRef .tc main_call2_v0)
      = (broadcastInDim S131072x128 ![] bcast_S_S131072x128 : (⟨S_, .f32⟩ : BufTy).Contents (Elt F) → (⟨S131072x128, .f32⟩ : BufTy).Contents (Elt F)) (after ops V (Proc.devRef .tc main_call2_cst)) :=
  after_unary_at writesAre V 53 rfl (by decide) (by decide)

theorem at_main_v38 (V : Valuation τ sig (Elt F)) :
    after ops V (Proc.devRef .tc main_v38)
      = (maximumf : (⟨S131072x128, .f32⟩ : BufTy).Contents (Elt F) → (⟨S131072x128, .f32⟩ : BufTy).Contents (Elt F) → (⟨S131072x128, .f32⟩ : BufTy).Contents (Elt F)) (after ops V (Proc.devRef .tc main_v37)) (after ops V (Proc.devRef .tc main_call2_v0)) :=
  after_binary_at writesAre V 54 rfl (by decide) (by decide) (by decide)

theorem at_main_v39 (V : Valuation τ sig (Elt F)) :
    after ops V (Proc.devRef .tc main_v39)
      = (broadcastInDim S131072x1 ![0] bcast_S131072_S131072x1_0 : (⟨S131072, .f32⟩ : BufTy).Contents (Elt F) → (⟨S131072x1, .f32⟩ : BufTy).Contents (Elt F)) (after ops V (Proc.devRef .tc main_v9)) :=
  after_unary_at writesAre V 55 rfl (by decide) (by decide)

theorem at_main_v40 (V : Valuation τ sig (Elt F)) :
    after ops V (Proc.devRef .tc main_v40)
      = (broadcastInDim S131072x128 ![0, 1] bcast_S131072x1_S131072x128_0_1 : (⟨S131072x1, .f32⟩ : BufTy).Contents (Elt F) → (⟨S131072x128, .f32⟩ : BufTy).Contents (Elt F)) (after ops V (Proc.devRef .tc main_v39)) :=
  after_unary_at writesAre V 56 rfl (by decide) (by decide)

theorem at_main_v41 (V : Valuation τ sig (Elt F)) :
    after ops V (Proc.devRef .tc main_v41)
      = (mulf : (⟨S131072x128, .f32⟩ : BufTy).Contents (Elt F) → (⟨S131072x128, .f32⟩ : BufTy).Contents (Elt F) → (⟨S131072x128, .f32⟩ : BufTy).Contents (Elt F)) (after ops V (Proc.devRef .tc main_v38)) (after ops V (Proc.devRef .tc main_v40)) :=
  after_binary_at writesAre V 57 rfl (by decide) (by decide) (by decide)

theorem at_main_c_8 (V : Valuation τ sig (Elt F)) :
    after ops V (Proc.devRef .tc main_c_8)
      = (constantI S_ 32 0#32 : (⟨S_, .i32⟩ : BufTy).Contents (Elt F)) :=
  after_nullary_at writesAre V 58 rfl (by decide)

theorem at_main_v42 (V : Valuation τ sig (Elt F)) :
    after ops V (Proc.devRef .tc main_v42)
      = (broadcastInDim S2097152 ![] bcast_S_S2097152 : (⟨S_, .i32⟩ : BufTy).Contents (Elt F) → (⟨S2097152, .i32⟩ : BufTy).Contents (Elt F)) (after ops V (Proc.devRef .tc main_c_8)) :=
  after_unary_at writesAre V 59 rfl (by decide) (by decide)

theorem at_main_v43 (V : Valuation τ sig (Elt F)) :
    after ops V (Proc.devRef .tc main_v43)
      = (cmpi .slt : (⟨S2097152, .i32⟩ : BufTy).Contents (Elt F) → (⟨S2097152, .i32⟩ : BufTy).Contents (Elt F) → (⟨S2097152, .i1⟩ : BufTy).Contents (Elt F)) (after ops V (Proc.devRef .tc main_arg1)) (after ops V (Proc.devRef .tc main_v42)) :=
  after_binary_at writesAre V 60 rfl (by decide) (by decide) (by decide)

theorem at_main_c_9 (V : Valuation τ sig (Elt F)) :
    after ops V (Proc.devRef .tc main_c_9)
      = (constantI S_ 32 131072#32 : (⟨S_, .i32⟩ : BufTy).Contents (Elt F)) :=
  after_nullary_at writesAre V 61 rfl (by decide)

theorem at_main_v44 (V : Valuation τ sig (Elt F)) :
    after ops V (Proc.devRef .tc main_v44)
      = (broadcastInDim S2097152 ![] bcast_S_S2097152 : (⟨S_, .i32⟩ : BufTy).Contents (Elt F) → (⟨S2097152, .i32⟩ : BufTy).Contents (Elt F)) (after ops V (Proc.devRef .tc main_c_9)) :=
  after_unary_at writesAre V 62 rfl (by decide) (by decide)

theorem at_main_v45 (V : Valuation τ sig (Elt F)) :
    after ops V (Proc.devRef .tc main_v45)
      = (addi : (⟨S2097152, .i32⟩ : BufTy).Contents (Elt F) → (⟨S2097152, .i32⟩ : BufTy).Contents (Elt F) → (⟨S2097152, .i32⟩ : BufTy).Contents (Elt F)) (after ops V (Proc.devRef .tc main_arg1)) (after ops V (Proc.devRef .tc main_v44)) :=
  after_binary_at writesAre V 63 rfl (by decide) (by decide) (by decide)

theorem at_main_v46 (V : Valuation τ sig (Elt F)) :
    after ops V (Proc.devRef .tc main_v46)
      = (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)) (after ops V (Proc.devRef .tc main_v43)) (after ops V (Proc.devRef .tc main_v45)) (after ops V (Proc.devRef .tc main_arg1)) :=
  after_ternary_at writesAre V 64 rfl (by decide) (by decide) (by decide) (by decide)

theorem at_main_v47 (V : Valuation τ sig (Elt F)) :
    after ops V (Proc.devRef .tc main_v47)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_v46)) :=
  after_unary_at writesAre V 65 rfl (by decide) (by decide)

theorem at_main_v48 (V : Valuation τ sig (Elt F)) :
    after ops V (Proc.devRef .tc main_v48)
      = (Host.gather gather_S131072x128_S2097152x1_S2097152x128_1_0_n_n_0_1_1128 : (⟨S131072x128, .f32⟩ : BufTy).Contents (Elt F) → (⟨S2097152x1, .i32⟩ : BufTy).Contents (Elt F) → (⟨S2097152x128, .f32⟩ : BufTy).Contents (Elt F)) (after ops V (Proc.devRef .tc main_v41)) (after ops V (Proc.devRef .tc main_v47)) :=
  after_binary_at writesAre V 66 rfl (by decide) (by decide) (by decide)

theorem at_main_cst_10 (V : Valuation τ sig (Elt F)) :
    after ops V (Proc.devRef .tc main_cst_10)
      = (constant S_ .f32 0x00000000#32 : (⟨S_, .f32⟩ : BufTy).Contents (Elt F)) :=
  after_nullary_at writesAre V 67 rfl (by decide)

theorem at_main_v49 (V : Valuation τ sig (Elt F)) :
    after ops V (Proc.devRef .tc main_v49)
      = (broadcastInDim S131072x128 ![] bcast_S_S131072x128 : (⟨S_, .f32⟩ : BufTy).Contents (Elt F) → (⟨S131072x128, .f32⟩ : BufTy).Contents (Elt F)) (after ops V (Proc.devRef .tc main_cst_10)) :=
  after_unary_at writesAre V 68 rfl (by decide) (by decide)

theorem at_main_v50 (V : Valuation τ sig (Elt F)) :
    after ops V (Proc.devRef .tc main_v50)
      = (broadcastInDim S2097152x1 ![0] bcast_S2097152_S2097152x1_0 : (⟨S2097152, .i32⟩ : BufTy).Contents (Elt F) → (⟨S2097152x1, .i32⟩ : BufTy).Contents (Elt F)) (after ops V (Proc.devRef .tc main_arg2)) :=
  after_unary_at writesAre V 69 rfl (by decide) (by decide)

theorem at_main_v51 (V : Valuation τ sig (Elt F)) :
    after ops V (Proc.devRef .tc main_v51)
      = (Host.scatterAdd scatter_S131072x128_S2097152x1_S2097152x128_1_0_0_1 : (⟨S131072x128, .f32⟩ : BufTy).Contents (Elt F) → (⟨S2097152x1, .i32⟩ : BufTy).Contents (Elt F) → (⟨S2097152x128, .f32⟩ : BufTy).Contents (Elt F) → (⟨S131072x128, .f32⟩ : BufTy).Contents (Elt F)) (after ops V (Proc.devRef .tc main_v49)) (after ops V (Proc.devRef .tc main_v50)) (after ops V (Proc.devRef .tc main_v48)) :=
  after_ternary_at writesAre V 70 rfl (by decide) (by decide) (by decide) (by decide)

theorem at_main_v52 (V : Valuation τ sig (Elt F)) :
    after ops V (Proc.devRef .tc main_v52)
      = (broadcastInDim S131072x1 ![0] bcast_S131072_S131072x1_0 : (⟨S131072, .f32⟩ : BufTy).Contents (Elt F) → (⟨S131072x1, .f32⟩ : BufTy).Contents (Elt F)) (after ops V (Proc.devRef .tc main_v10)) :=
  after_unary_at writesAre V 71 rfl (by decide) (by decide)

theorem at_main_v53 (V : Valuation τ sig (Elt F)) :
    after ops V (Proc.devRef .tc main_v53)
      = (broadcastInDim S131072x128 ![0, 1] bcast_S131072x1_S131072x128_0_1 : (⟨S131072x1, .f32⟩ : BufTy).Contents (Elt F) → (⟨S131072x128, .f32⟩ : BufTy).Contents (Elt F)) (after ops V (Proc.devRef .tc main_v52)) :=
  after_unary_at writesAre V 72 rfl (by decide) (by decide)

theorem at_main_v54 (V : Valuation τ sig (Elt F)) :
    after ops V (Proc.devRef .tc main_v54)
      = (mulf : (⟨S131072x128, .f32⟩ : BufTy).Contents (Elt F) → (⟨S131072x128, .f32⟩ : BufTy).Contents (Elt F) → (⟨S131072x128, .f32⟩ : BufTy).Contents (Elt F)) (after ops V (Proc.devRef .tc main_v51)) (after ops V (Proc.devRef .tc main_v53)) :=
  after_binary_at writesAre V 73 rfl (by decide) (by decide) (by decide)

theorem at_main_v55 (V : Valuation τ sig (Elt F)) :
    after ops V (Proc.devRef .tc main_v55)
      = (Host.dotGeneral dot_S131072x128_S128x128_S131072x128_1_0_0_1_n_n none : (⟨S131072x128, .f32⟩ : BufTy).Contents (Elt F) → (⟨S128x128, .f32⟩ : BufTy).Contents (Elt F) → (⟨S131072x128, .f32⟩ : BufTy).Contents (Elt F)) (after ops V (Proc.devRef .tc main_v54)) (after ops V (Proc.devRef .tc main_arg6)) :=
  after_binary_at writesAre V 74 rfl (by decide) (by decide) (by decide)

theorem at_main_v56 (V : Valuation τ sig (Elt F)) :
    after ops V (Proc.devRef .tc main_v56)
      = (broadcastInDim S1x128 ![1] bcast_S128_S1x128_1 : (⟨S128, .f32⟩ : BufTy).Contents (Elt F) → (⟨S1x128, .f32⟩ : BufTy).Contents (Elt F)) (after ops V (Proc.devRef .tc main_arg7)) :=
  after_unary_at writesAre V 75 rfl (by decide) (by decide)

theorem at_main_v57 (V : Valuation τ sig (Elt F)) :
    after ops V (Proc.devRef .tc main_v57)
      = (broadcastInDim S131072x128 ![0, 1] bcast_S1x128_S131072x128_0_1 : (⟨S1x128, .f32⟩ : BufTy).Contents (Elt F) → (⟨S131072x128, .f32⟩ : BufTy).Contents (Elt F)) (after ops V (Proc.devRef .tc main_v56)) :=
  after_unary_at writesAre V 76 rfl (by decide) (by decide)

theorem at_main_v58 (V : Valuation τ sig (Elt F)) :
    after ops V (Proc.devRef .tc main_v58)
      = (addf : (⟨S131072x128, .f32⟩ : BufTy).Contents (Elt F) → (⟨S131072x128, .f32⟩ : BufTy).Contents (Elt F) → (⟨S131072x128, .f32⟩ : BufTy).Contents (Elt F)) (after ops V (Proc.devRef .tc main_v55)) (after ops V (Proc.devRef .tc main_v57)) :=
  after_binary_at writesAre V 77 rfl (by decide) (by decide) (by decide)

theorem at_main_call3_cst (V : Valuation τ sig (Elt F)) :
    after ops V (Proc.devRef .tc main_call3_cst)
      = (constant S_ .f32 0x00000000#32 : (⟨S_, .f32⟩ : BufTy).Contents (Elt F)) :=
  after_nullary_at writesAre V 78 rfl (by decide)

theorem at_main_call3_v0 (V : Valuation τ sig (Elt F)) :
    after ops V (Proc.devRef .tc main_call3_v0)
      = (broadcastInDim S131072x128 ![] bcast_S_S131072x128 : (⟨S_, .f32⟩ : BufTy).Contents (Elt F) → (⟨S131072x128, .f32⟩ : BufTy).Contents (Elt F)) (after ops V (Proc.devRef .tc main_call3_cst)) :=
  after_unary_at writesAre V 79 rfl (by decide) (by decide)

theorem at_main_v59 (V : Valuation τ sig (Elt F)) :
    after ops V (Proc.devRef .tc main_v59)
      = (maximumf : (⟨S131072x128, .f32⟩ : BufTy).Contents (Elt F) → (⟨S131072x128, .f32⟩ : BufTy).Contents (Elt F) → (⟨S131072x128, .f32⟩ : BufTy).Contents (Elt F)) (after ops V (Proc.devRef .tc main_v58)) (after ops V (Proc.devRef .tc main_call3_v0)) :=
  after_binary_at writesAre V 80 rfl (by decide) (by decide) (by decide)

theorem at_main_v60 (V : Valuation τ sig (Elt F)) :
    after ops V (Proc.devRef .tc main_v60)
      = (iotaInDim S131072 32 0 : (⟨S131072, .i32⟩ : BufTy).Contents (Elt F)) :=
  after_nullary_at writesAre V 81 rfl (by decide)

theorem at_main_c_11 (V : Valuation τ sig (Elt F)) :
    after ops V (Proc.devRef .tc main_c_11)
      = (constantI S_ 32 512#32 : (⟨S_, .i32⟩ : BufTy).Contents (Elt F)) :=
  after_nullary_at writesAre V 82 rfl (by decide)

theorem at_main_call4_v0 (V : Valuation τ sig (Elt F)) :
    after ops V (Proc.devRef .tc main_call4_v0)
      = (id : (⟨S_, .i32⟩ : BufTy).Contents (Elt F) → (⟨S_, .i32⟩ : BufTy).Contents (Elt F)) (after ops V (Proc.devRef .tc main_c_11)) :=
  after_unary_at writesAre V 83 rfl (by decide) (by decide)

theorem at_main_call4_v1 (V : Valuation τ sig (Elt F)) :
    after ops V (Proc.devRef .tc main_call4_v1)
      = (broadcastInDim S131072 ![] bcast_S_S131072 : (⟨S_, .i32⟩ : BufTy).Contents (Elt F) → (⟨S131072, .i32⟩ : BufTy).Contents (Elt F)) (after ops V (Proc.devRef .tc main_call4_v0)) :=
  after_unary_at writesAre V 84 rfl (by decide) (by decide)

theorem at_main_call4_v2 (V : Valuation τ sig (Elt F)) :
    after ops V (Proc.devRef .tc main_call4_v2)
      = (Host.divsi : (⟨S131072, .i32⟩ : BufTy).Contents (Elt F) → (⟨S131072, .i32⟩ : BufTy).Contents (Elt F) → (⟨S131072, .i32⟩ : BufTy).Contents (Elt F)) (after ops V (Proc.devRef .tc main_v60)) (after ops V (Proc.devRef .tc main_call4_v1)) :=
  after_binary_at writesAre V 85 rfl (by decide) (by decide) (by decide)

theorem at_main_call4_v3 (V : Valuation τ sig (Elt F)) :
    after ops V (Proc.devRef .tc main_call4_v3)
      = (signi : (⟨S131072, .i32⟩ : BufTy).Contents (Elt F) → (⟨S131072, .i32⟩ : BufTy).Contents (Elt F)) (after ops V (Proc.devRef .tc main_v60)) :=
  after_unary_at writesAre V 86 rfl (by decide) (by decide)

theorem at_main_call4_v4 (V : Valuation τ sig (Elt F)) :
    after ops V (Proc.devRef .tc main_call4_v4)
      = (signi : (⟨S_, .i32⟩ : BufTy).Contents (Elt F) → (⟨S_, .i32⟩ : BufTy).Contents (Elt F)) (after ops V (Proc.devRef .tc main_call4_v0)) :=
  after_unary_at writesAre V 87 rfl (by decide) (by decide)

theorem at_main_call4_v5 (V : Valuation τ sig (Elt F)) :
    after ops V (Proc.devRef .tc main_call4_v5)
      = (broadcastInDim S131072 ![] bcast_S_S131072 : (⟨S_, .i32⟩ : BufTy).Contents (Elt F) → (⟨S131072, .i32⟩ : BufTy).Contents (Elt F)) (after ops V (Proc.devRef .tc main_call4_v4)) :=
  after_unary_at writesAre V 88 rfl (by decide) (by decide)

theorem at_main_call4_v6 (V : Valuation τ sig (Elt F)) :
    after ops V (Proc.devRef .tc main_call4_v6)
      = (cmpi .ne : (⟨S131072, .i32⟩ : BufTy).Contents (Elt F) → (⟨S131072, .i32⟩ : BufTy).Contents (Elt F) → (⟨S131072, .i1⟩ : BufTy).Contents (Elt F)) (after ops V (Proc.devRef .tc main_call4_v3)) (after ops V (Proc.devRef .tc main_call4_v5)) :=
  after_binary_at writesAre V 89 rfl (by decide) (by decide) (by decide)

theorem at_main_call4_v7 (V : Valuation τ sig (Elt F)) :
    after ops V (Proc.devRef .tc main_call4_v7)
      = (broadcastInDim S131072 ![] bcast_S_S131072 : (⟨S_, .i32⟩ : BufTy).Contents (Elt F) → (⟨S131072, .i32⟩ : BufTy).Contents (Elt F)) (after ops V (Proc.devRef .tc main_call4_v0)) :=
  after_unary_at writesAre V 90 rfl (by decide) (by decide)

theorem at_main_call4_v8 (V : Valuation τ sig (Elt F)) :
    after ops V (Proc.devRef .tc main_call4_v8)
      = (Host.remsi : (⟨S131072, .i32⟩ : BufTy).Contents (Elt F) → (⟨S131072, .i32⟩ : BufTy).Contents (Elt F) → (⟨S131072, .i32⟩ : BufTy).Contents (Elt F)) (after ops V (Proc.devRef .tc main_v60)) (after ops V (Proc.devRef .tc main_call4_v7)) :=
  after_binary_at writesAre V 91 rfl (by decide) (by decide) (by decide)

theorem at_main_call4_c (V : Valuation τ sig (Elt F)) :
    after ops V (Proc.devRef .tc main_call4_c)
      = (constantI S_ 32 0#32 : (⟨S_, .i32⟩ : BufTy).Contents (Elt F)) :=
  after_nullary_at writesAre V 92 rfl (by decide)

theorem at_main_call4_v9 (V : Valuation τ sig (Elt F)) :
    after ops V (Proc.devRef .tc main_call4_v9)
      = (broadcastInDim S131072 ![] bcast_S_S131072 : (⟨S_, .i32⟩ : BufTy).Contents (Elt F) → (⟨S131072, .i32⟩ : BufTy).Contents (Elt F)) (after ops V (Proc.devRef .tc main_call4_c)) :=
  after_unary_at writesAre V 93 rfl (by decide) (by decide)

theorem at_main_call4_v10 (V : Valuation τ sig (Elt F)) :
    after ops V (Proc.devRef .tc main_call4_v10)
      = (cmpi .ne : (⟨S131072, .i32⟩ : BufTy).Contents (Elt F) → (⟨S131072, .i32⟩ : BufTy).Contents (Elt F) → (⟨S131072, .i1⟩ : BufTy).Contents (Elt F)) (after ops V (Proc.devRef .tc main_call4_v8)) (after ops V (Proc.devRef .tc main_call4_v9)) :=
  after_binary_at writesAre V 94 rfl (by decide) (by decide) (by decide)

theorem at_main_call4_v11 (V : Valuation τ sig (Elt F)) :
    after ops V (Proc.devRef .tc main_call4_v11)
      = (andi : (⟨S131072, .i1⟩ : BufTy).Contents (Elt F) → (⟨S131072, .i1⟩ : BufTy).Contents (Elt F) → (⟨S131072, .i1⟩ : BufTy).Contents (Elt F)) (after ops V (Proc.devRef .tc main_call4_v6)) (after ops V (Proc.devRef .tc main_call4_v10)) :=
  after_binary_at writesAre V 95 rfl (by decide) (by decide) (by decide)

theorem at_main_call4_c_0 (V : Valuation τ sig (Elt F)) :
    after ops V (Proc.devRef .tc main_call4_c_0)
      = (constantI S_ 32 1#32 : (⟨S_, .i32⟩ : BufTy).Contents (Elt F)) :=
  after_nullary_at writesAre V 96 rfl (by decide)

theorem at_main_call4_v12 (V : Valuation τ sig (Elt F)) :
    after ops V (Proc.devRef .tc main_call4_v12)
      = (broadcastInDim S131072 ![] bcast_S_S131072 : (⟨S_, .i32⟩ : BufTy).Contents (Elt F) → (⟨S131072, .i32⟩ : BufTy).Contents (Elt F)) (after ops V (Proc.devRef .tc main_call4_c_0)) :=
  after_unary_at writesAre V 97 rfl (by decide) (by decide)

theorem at_main_call4_v13 (V : Valuation τ sig (Elt F)) :
    after ops V (Proc.devRef .tc main_call4_v13)
      = (subi : (⟨S131072, .i32⟩ : BufTy).Contents (Elt F) → (⟨S131072, .i32⟩ : BufTy).Contents (Elt F) → (⟨S131072, .i32⟩ : BufTy).Contents (Elt F)) (after ops V (Proc.devRef .tc main_call4_v2)) (after ops V (Proc.devRef .tc main_call4_v12)) :=
  after_binary_at writesAre V 98 rfl (by decide) (by decide) (by decide)

theorem at_main_v61 (V : Valuation τ sig (Elt F)) :
    after ops V (Proc.devRef .tc main_v61)
      = (select : (⟨S131072, .i1⟩ : BufTy).Contents (Elt F) → (⟨S131072, .i32⟩ : BufTy).Contents (Elt F) → (⟨S131072, .i32⟩ : BufTy).Contents (Elt F) → (⟨S131072, .i32⟩ : BufTy).Contents (Elt F)) (after ops V (Proc.devRef .tc main_call4_v11)) (after ops V (Proc.devRef .tc main_call4_v13)) (after ops V (Proc.devRef .tc main_call4_v2)) :=
  after_ternary_at writesAre V 99 rfl (by decide) (by decide) (by decide) (by decide)

theorem at_main_cst_12 (V : Valuation τ sig (Elt F)) :
    after ops V (Proc.devRef .tc main_cst_12)
      = (constant S_ .f32 0x00000000#32 : (⟨S_, .f32⟩ : BufTy).Contents (Elt F)) :=
  after_nullary_at writesAre V 100 rfl (by decide)

theorem at_main_v62 (V : Valuation τ sig (Elt F)) :
    after ops V (Proc.devRef .tc main_v62)
      = (broadcastInDim S256x128 ![] bcast_S_S256x128 : (⟨S_, .f32⟩ : BufTy).Contents (Elt F) → (⟨S256x128, .f32⟩ : BufTy).Contents (Elt F)) (after ops V (Proc.devRef .tc main_cst_12)) :=
  after_unary_at writesAre V 101 rfl (by decide) (by decide)

theorem at_main_v63 (V : Valuation τ sig (Elt F)) :
    after ops V (Proc.devRef .tc main_v63)
      = (broadcastInDim S131072x1 ![0] bcast_S131072_S131072x1_0 : (⟨S131072, .i32⟩ : BufTy).Contents (Elt F) → (⟨S131072x1, .i32⟩ : BufTy).Contents (Elt F)) (after ops V (Proc.devRef .tc main_v61)) :=
  after_unary_at writesAre V 102 rfl (by decide) (by decide)

theorem at_main_v64 (V : Valuation τ sig (Elt F)) :
    after ops V (Proc.devRef .tc main_v64)
      = (Host.scatterAdd scatter_S256x128_S131072x1_S131072x128_1_0_0_1 : (⟨S256x128, .f32⟩ : BufTy).Contents (Elt F) → (⟨S131072x1, .i32⟩ : BufTy).Contents (Elt F) → (⟨S131072x128, .f32⟩ : BufTy).Contents (Elt F) → (⟨S256x128, .f32⟩ : BufTy).Contents (Elt F)) (after ops V (Proc.devRef .tc main_v62)) (after ops V (Proc.devRef .tc main_v63)) (after ops V (Proc.devRef .tc main_v59)) :=
  after_ternary_at writesAre V 103 rfl (by decide) (by decide) (by decide) (by decide)

theorem at_main_cst_13 (V : Valuation τ sig (Elt F)) :
    after ops V (Proc.devRef .tc main_cst_13)
      = (constant S_ .f32 0x44000000#32 : (⟨S_, .f32⟩ : BufTy).Contents (Elt F)) :=
  after_nullary_at writesAre V 104 rfl (by decide)

theorem at_main_v65 (V : Valuation τ sig (Elt F)) :
    after ops V (Proc.devRef .tc main_v65)
      = (broadcastInDim S256x128 ![] bcast_S_S256x128 : (⟨S_, .f32⟩ : BufTy).Contents (Elt F) → (⟨S256x128, .f32⟩ : BufTy).Contents (Elt F)) (after ops V (Proc.devRef .tc main_cst_13)) :=
  after_unary_at writesAre V 105 rfl (by decide) (by decide)

theorem at_main_v66 (V : Valuation τ sig (Elt F)) :
    after ops V (Proc.devRef .tc main_v66)
      = (Host.divf : (⟨S256x128, .f32⟩ : BufTy).Contents (Elt F) → (⟨S256x128, .f32⟩ : BufTy).Contents (Elt F) → (⟨S256x128, .f32⟩ : BufTy).Contents (Elt F)) (after ops V (Proc.devRef .tc main_v64)) (after ops V (Proc.devRef .tc main_v65)) :=
  after_binary_at writesAre V 106 rfl (by decide) (by decide) (by decide)

end Cert.ReferenceIdeal.RRun

end
-- ==== Proof.RefValue.lean ====
/-
  The reference's run at the ideal instance with its result named: the whole-batch reading of the argument arrays.
-/
import proofs.«418503_j35381940584593_2_alg».proof.Proof.Gen.ReferenceIdeal
import proofs.«418503_j35381940584593_2_alg».proof.Proof.Spec
import proofs.«418503_j35381940584593_2_alg».proof.Proof.RefOps
import proofs.«418503_j35381940584593_2_alg».proof.Proof.RefRun
import Idealize.ShloMosaic.Lib.StableHlo.Run

noncomputable section

namespace Cert.ReferenceIdeal.RValue

open Idealize.ShloMosaic Idealize.ShloMosaic.TcCoe Idealize.ShloMosaic.ValueIdx Idealize.SL.Sem Cert.ReferenceIdeal Cert.GraphConv

section Stages

open Idealize.ShloMosaic.StableHlo Cert.ReferenceIdeal.Facts₀ Cert.ReferenceIdeal.ROps Cert.ReferenceIdeal.RRun

/-! ## The stages as values -/

/-- The degree scaling of node `v`: the count of the edge slots naming `v`, clamped below by 1, under one over the root. -/
theorem isq_val (x : IVec S2097152 32) (v : Fin 131072) :
    Host.rsqrt (maximumf (broadcastInDim S131072 ![] bcast_S_S131072 (id (constant (F := Ideal) S_ .f32 0x3F800000#32)))
      (Host.scatterAdd (F := Ideal) scatter_S131072_S2097152x1_S2097152_n_0_0_1
        (broadcastInDim S131072 ![] bcast_S_S131072 (constant S_ .f32 0x00000000#32))
        (broadcastInDim S2097152x1 ![0] bcast_S2097152_S2097152x1_0 x)
        (broadcastInDim S2097152 ![] bcast_S_S2097152 (constant S_ .f32 0x3F800000#32)))) (ix1 v)
      = rIsqrt x v := by
  rw [isqrt_apply, count_apply]; rfl

/-- The embedding row of node `v`: the gather at the wrapped node type. -/
theorem h0_val (nf : IVec S131072 32) (emb : FVec Ideal S64x128 .f32) (v : Fin 131072) (d : Fin 128) :
    Host.gather gather_S64x128_S131072x1_S131072x128_1_0_n_n_0_1_1128 emb
      (broadcastInDim S131072x1 ![0] bcast_S131072_S131072x1_0
        (select (cmpi .slt nf (broadcastInDim S131072 ![] bcast_S_S131072 (constantI S_ 32 0#32)))
          (addi nf (broadcastInDim S131072 ![] bcast_S_S131072 (constantI S_ 32 64#32))) nf)) (ix2 v d)
      = rH0 nf emb v d := by
  rw [gather_emb_apply, wrap_apply 64#32 nf (broadcastInDim S131072 ![] bcast_S_S131072 (constantI S_ 32 0#32))
    (broadcastInDim S131072 ![] bcast_S_S131072 (constantI S_ 32 64#32)) (fun _ => rfl) (fun _ => rfl)]
  rfl

/-- One layer: scale the rows by the source scaling, gather the rows the (wrapped) sources name, sum them into the rows
    the destinations name, scale by the destination scaling, multiply by the weights, add the bias, clamp below by 0. -/
theorem layer_val (src dst : IVec S2097152 32) (h : FVec Ideal S131072x128 .f32) (so si : FVec Ideal S131072 .f32)
    (hr : Fin 131072 → Fin 128 → EReal) (hh : ∀ v c, h (ix2 v c) = hr v c)
    (hso : ∀ v, so (ix1 v) = rIsqrt src v) (hsi : ∀ v, si (ix1 v) = rIsqrt dst v)
    (W : FVec Ideal S128x128 .f32) (b : FVec Ideal S128 .f32) (v : Fin 131072) (d : Fin 128) :
    maximumf (addf (Host.dotGeneral dot_S131072x128_S128x128_S131072x128_1_0_0_1_n_n none
        (mulf (Host.scatterAdd (F := Ideal) scatter_S131072x128_S2097152x1_S2097152x128_1_0_0_1
            (broadcastInDim S131072x128 ![] bcast_S_S131072x128 (constant S_ .f32 0x00000000#32))
            (broadcastInDim S2097152x1 ![0] bcast_S2097152_S2097152x1_0 dst)
            (Host.gather gather_S131072x128_S2097152x1_S2097152x128_1_0_n_n_0_1_1128
              (mulf h (broadcastInDim S131072x128 ![0, 1] bcast_S131072x1_S131072x128_0_1
                (broadcastInDim S131072x1 ![0] bcast_S131072_S131072x1_0 so)))
              (broadcastInDim S2097152x1 ![0] bcast_S2097152_S2097152x1_0
                (select (cmpi .slt src (broadcastInDim S2097152 ![] bcast_S_S2097152 (constantI S_ 32 0#32)))
                  (addi src (broadcastInDim S2097152 ![] bcast_S_S2097152 (constantI S_ 32 131072#32))) src))))
          (broadcastInDim S131072x128 ![0, 1] bcast_S131072x1_S131072x128_0_1
            (broadcastInDim S131072x1 ![0] bcast_S131072_S131072x1_0 si))) W)
        (broadcastInDim S131072x128 ![0, 1] bcast_S1x128_S131072x128_0_1 (broadcastInDim S1x128 ![1] bcast_S128_S1x128_1 b)))
      (broadcastInDim S131072x128 ![] bcast_S_S131072x128 (constant (F := Ideal) S_ .f32 0x00000000#32)) (ix2 v d)
      = rLayer src dst hr W b v d := by
  rw [dense_relu_apply]
  unfold rLayer
  refine congrArg (fun x => max (x + b (ix1 d)) 0) (Finset.sum_congr rfl fun c _ => ?_)
  rw [scale_rows_apply, scatter_rows_apply, hsi]
  refine congrArg (fun x => x * rIsqrt dst v * W (ix2 c d)) (Finset.sum_congr rfl fun k _ => ?_)
  rw [gather_rows_apply, wrap_apply 131072#32 src (broadcastInDim S2097152 ![] bcast_S_S2097152 (constantI S_ 32 0#32))
    (broadcastInDim S2097152 ![] bcast_S_S2097152 (constantI S_ 32 131072#32)) (fun _ => rfl) (fun _ => rfl),
    scale_rows_apply, hh, hso]
  rfl

/-- The mean over each graph's nodes: the rows summed into the row of their graph number, over 512. -/
theorem out_val (h : FVec Ideal S131072x128 .f32) (hr : Fin 131072 → Fin 128 → EReal) (hh : ∀ v d, h (ix2 v d) = hr v d)
    (g : Fin 256) (d : Fin 128) :
    Host.divf (Host.scatterAdd (F := Ideal) scatter_S256x128_S131072x1_S131072x128_1_0_0_1
        (broadcastInDim S256x128 ![] bcast_S_S256x128 (constant S_ .f32 0x00000000#32))
        (broadcastInDim S131072x1 ![0] bcast_S131072_S131072x1_0 gidTerm) h)
      (broadcastInDim S256x128 ![] bcast_S_S256x128 (constant S_ .f32 0x44000000#32)) (ix2 g d)
      = Ideal.div (∑ v : Fin 131072, if v.val / 512 = g.val then hr v d else 0) (Ideal.ofBits .f32 0x44000000#32) := by
  rw [pool_apply gidTerm gid_apply]
  simp only [hh]

/-- The whole-batch reading at row `g`, column `d`. -/
theorem GR_apply (nf : NodeVec) (src dst : EdgeVec) (emb : Emb) (W1 : Wt) (b1 : Bias) (W2 : Wt) (b2 : Bias)
    (g : Fin 256) (d : Fin 128) :
    GR nf src dst emb W1 b1 W2 b2 (ix2 g d) = rOut nf src dst emb W1 b1 W2 b2 g d := rfl

/-- The mean over each graph's nodes of the two layers' rows is the whole-batch reading. -/
theorem out_GR (nf : NodeVec) (src dst : EdgeVec) (emb : Emb) (W1 : Wt) (b1 : Bias) (W2 : Wt) (b2 : Bias)
    (h : FVec Ideal S131072x128 .f32)
    (hh : ∀ v d, h (ix2 v d) = rLayer src dst (rLayer src dst (rH0 nf emb) W1 b1) W2 b2 v d) (g : Fin 256) (d : Fin 128) :
    Host.divf (Host.scatterAdd (F := Ideal) scatter_S256x128_S131072x1_S131072x128_1_0_0_1
        (broadcastInDim S256x128 ![] bcast_S_S256x128 (constant S_ .f32 0x00000000#32))
        (broadcastInDim S131072x1 ![0] bcast_S131072_S131072x1_0 gidTerm) h)
      (broadcastInDim S256x128 ![] bcast_S_S256x128 (constant S_ .f32 0x44000000#32)) (ix2 g d)
      = GR nf src dst emb W1 b1 W2 b2 (ix2 g d) := by
  rw [GR_apply]
  unfold rOut
  exact out_val h (rLayer src dst (rLayer src dst (rH0 nf emb) W1 b1) W2 b2) hh g d

/-! ## The stages at the end of the line of operations

Each buffer's contents at the end are its operation's function of its operands' contents at the end; unfolding these
equations from a buffer back to the arguments (or to buffers already named) gives the expression a stage's value lemma
reads. -/

variable (V : Valuation τ sig (Elt Ideal))

/-- The source-side degree scaling. -/
theorem v9_eq (v : Fin 131072) : after (ops (F := Ideal)) V (Proc.devRef .tc main_v9) (ix1 v) = rIsqrt (V (Proc.devRef .tc main_arg1)) v := by
  rw [at_main_v9, at_main_v4, at_main_call0_v1, at_main_call0_v0, at_main_cst_1, at_main_v3, at_main_v2,
    at_main_v1, at_main_cst_0, at_main_v0, at_main_cst, at_main_arg1]
  exact isq_val _ v

/-- The destination-side degree scaling. -/
theorem v10_eq (v : Fin 131072) : after (ops (F := Ideal)) V (Proc.devRef .tc main_v10) (ix1 v) = rIsqrt (V (Proc.devRef .tc main_arg2)) v := by
  rw [at_main_v10, at_main_v8, at_main_call1_v1, at_main_call1_v0, at_main_cst_3, at_main_v7, at_main_v6,
    at_main_v5, at_main_cst_2, at_main_v0, at_main_cst, at_main_arg2]
  exact isq_val _ v

/-- The embedding rows. -/
theorem v17_eq (v : Fin 131072) (d : Fin 128) :
    after (ops (F := Ideal)) V (Proc.devRef .tc main_v17) (ix2 v d) = rH0 (V (Proc.devRef .tc main_arg0)) (V (Proc.devRef .tc main_arg3)) v d := by
  rw [at_main_v17, at_main_v16, at_main_v15, at_main_v14, at_main_v13, at_main_c_4, at_main_v12, at_main_v11,
    at_main_c, at_main_arg3, at_main_arg0]
  exact h0_val _ _ v d

/-- The first layer. -/
theorem v38_eq (v : Fin 131072) (d : Fin 128) :
    after (ops (F := Ideal)) V (Proc.devRef .tc main_v38) (ix2 v d)
      = rLayer (V (Proc.devRef .tc main_arg1)) (V (Proc.devRef .tc main_arg2)) (rH0 (V (Proc.devRef .tc main_arg0)) (V (Proc.devRef .tc main_arg3)))
          (V (Proc.devRef .tc main_arg4)) (V (Proc.devRef .tc main_arg5)) v d := by
  rw [at_main_v38, at_main_call2_v0, at_main_call2_cst, at_main_v37, at_main_v36, at_main_v35, at_main_v34,
    at_main_v33, at_main_v32, at_main_v31, at_main_v30, at_main_v29, at_main_v28, at_main_cst_7, at_main_v27,
    at_main_v26, at_main_v25, at_main_v24, at_main_v23, at_main_c_6, at_main_v22, at_main_v21, at_main_c_5,
    at_main_v20, at_main_v19, at_main_v18, at_main_arg5, at_main_arg4, at_main_arg2, at_main_arg1]
  exact layer_val _ _ _ _ _ _ (v17_eq V) (v9_eq V) (v10_eq V) _ _ v d

/-- The second layer. -/
theorem v59_eq (v : Fin 131072) (d : Fin 128) :
    after (ops (F := Ideal)) V (Proc.devRef .tc main_v59) (ix2 v d)
      = rLayer (V (Proc.devRef .tc main_arg1)) (V (Proc.devRef .tc main_arg2))
          (rLayer (V (Proc.devRef .tc main_arg1)) (V (Proc.devRef .tc main_arg2)) (rH0 (V (Proc.devRef .tc main_arg0)) (V (Proc.devRef .tc main_arg3)))
            (V (Proc.devRef .tc main_arg4)) (V (Proc.devRef .tc main_arg5)))
          (V (Proc.devRef .tc main_arg6)) (V (Proc.devRef .tc main_arg7)) v d := by
  rw [at_main_v59, at_main_call3_v0, at_main_call3_cst, at_main_v58, at_main_v57, at_main_v56, at_main_v55,
    at_main_v54, at_main_v53, at_main_v52, at_main_v51, at_main_v50, at_main_v49, at_main_cst_10, at_main_v48,
    at_main_v47, at_main_v46, at_main_v45, at_main_v44, at_main_c_9, at_main_v43, at_main_v42, at_main_c_8,
    at_main_v41, at_main_v40, at_main_v39, at_main_arg7, at_main_arg6, at_main_arg2, at_main_arg1]
  exact layer_val _ _ _ _ _ _ (v38_eq V) (v9_eq V) (v10_eq V) _ _ v d

/-- The graph number of each node, as the program computes the floor division. -/
theorem v61_eq : after (ops (F := Ideal)) V (Proc.devRef .tc main_v61) = gidTerm := by
  rw [at_main_v61, at_main_call4_v13, at_main_call4_v12, at_main_call4_c_0, at_main_call4_v11,
    at_main_call4_v10, at_main_call4_v9, at_main_call4_c, at_main_call4_v8, at_main_call4_v7, at_main_call4_v6,
    at_main_call4_v5, at_main_call4_v4, at_main_call4_v3, at_main_call4_v2, at_main_call4_v1, at_main_call4_v0,
    at_main_c_11, at_main_v60]
  rfl

/-- The result: the whole-batch reading of the arguments. -/
theorem result_eq :
    after (ops (F := Ideal)) V (Proc.devRef .tc main_v66)
      = GR (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7)) := by
  funext i
  obtain ⟨g, d, rfl⟩ : ∃ (g : Fin 256) (d : Fin 128), i = ix2 g d := ⟨i 0, i 1, eq_ix2 i⟩
  rw [at_main_v66, at_main_v65, at_main_cst_13, at_main_v64, at_main_v63, at_main_v62, at_main_cst_12]
  rw [v61_eq V]
  exact out_GR _ _ _ _ _ _ _ _ _ (v59_eq V) g d

end Stages

variable (m : (ℓ : Loc nD τ sig) → Buf (Elt Ideal) ℓ) (ρ : Dev nD → PrngReg)

theorem run :
    θ_run (defs (F := Ideal)) (onTc (τ := τ) (main (F := Ideal))) ⟨m, fun _ => 0, ρ⟩ (fun r => ∀ c : Dev nD,
      r.2.mem ((c.tc : Thread nD τ).loc main_v66)
          = GR (m ((c : Thread nD τ).loc main_arg0)) (m ((c : Thread nD τ).loc main_arg1)) (m ((c : Thread nD τ).loc main_arg2))
              (m ((c : Thread nD τ).loc main_arg3)) (m ((c : Thread nD τ).loc main_arg4)) (m ((c : Thread nD τ).loc main_arg5))
              (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  exact (θ_run (defs (F := Ideal)) _ _).mono
    (fun _ h c => ⟨(h c main_v66).trans (result_eq _), (h c main_arg0).trans (RRun.at_main_arg0 _),
      (h c main_arg1).trans (RRun.at_main_arg1 _), (h c main_arg2).trans (RRun.at_main_arg2 _), (h c main_arg3).trans (RRun.at_main_arg3 _),
      (h c main_arg4).trans (RRun.at_main_arg4 _), (h c main_arg5).trans (RRun.at_main_arg5 _), (h c main_arg6).trans (RRun.at_main_arg6 _),
      (h c main_arg7).trans (RRun.at_main_arg7 _)⟩)
    (RRun.run_main (F := Ideal) m ρ)

end Cert.ReferenceIdeal.RValue

end
-- ==== Proof.lean ====
/-
  A batch of 256 graphs of 512 nodes and 8192 edges each, through two graph-convolution layers
  relu (D_in^{-1/2} A D_out^{-1/2} h W + b) and a mean over each graph's nodes.

  The kernel works graph by graph: it compares each graph's edge ends, taken relative to the graph's first node, with
  0 … 511, multiplies the two 0/1 selector matrices into the graph's adjacency count matrix, takes its row and column
  sums as the degrees, and runs both layers as products with that matrix. The reference works on the whole batch: it
  counts edge ends over all edge slots, gathers the source rows, and sums them into the destination rows. The two agree
  when every edge of a graph has both ends among that graph's nodes and every node type is a row of the embedding
  table: the precondition says exactly that, besides the float inputs being finite (which the proof never opens).

  At the ideal instance both programs compute, index by index, one function of the argument arrays over the extended
  reals (Proof/Spec.lean states it twice, per graph and for the whole batch; Proof/Bridge.lean proves the two equal under
  the ranges; Proof/PreDecode.lean reads the ranges off the precondition). No law used needs a finite operand: a 0/1
  factor distributes over any sum of extended reals. The kernel's 1/512 is the exact dyadic the reference divides by.
  The kernel's run with its result named is Proof/KRun.lean (over the generated frame run); the reference's is
  Proof/RefValue.lean (its operations listed by hand and read at the end of the line).
-/
import proofs.«418503_j35381940584593_2_alg».proof.Defs
import proofs.«418503_j35381940584593_2_alg».proof.Proof.Gen.Kernel
import proofs.«418503_j35381940584593_2_alg».proof.Proof.Gen.Kernel.Frame
import proofs.«418503_j35381940584593_2_alg».proof.Proof.Gen.KernelIdeal
import proofs.«418503_j35381940584593_2_alg».proof.Proof.Gen.KernelIdeal.Frame
import proofs.«418503_j35381940584593_2_alg».proof.Proof.Gen.ReferenceIdeal
import proofs.«418503_j35381940584593_2_alg».proof.Proof.Gen.Pre_finite_inputs
import proofs.«418503_j35381940584593_2_alg».proof.Proof.Spec
import proofs.«418503_j35381940584593_2_alg».proof.Proof.PreDecode
import proofs.«418503_j35381940584593_2_alg».proof.Proof.Bridge
import proofs.«418503_j35381940584593_2_alg».proof.Proof.KRun
import proofs.«418503_j35381940584593_2_alg».proof.Proof.RefValue
import Idealize.ShloMosaic.Adequacy
import Idealize.ShloMosaic.Init

noncomputable section

namespace Cert.Proof

open Idealize.ShloMosaic Idealize.ShloMosaic.TcCoe Idealize.SL.Sem Cert.GraphConv

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RValue.run m ρ)

/-- The idealization rewrote nothing. -/
theorem preserves : Cert.preserves_Kernel_KernelIdeal := trivial

/-- Both runs end with the result at one function of the arguments: the per-graph reading on the kernel's side, the
    whole-batch reading on the reference's, equal under the ranges the precondition states. -/
theorem algebraic : Cert.algebraic_KernelIdeal_ReferenceIdeal := by
  intro m ρ m' ρ' hpre hagree
  have hr := fun c : Dev Cert.KernelIdeal.nD => ranges_of_pre _ _ _ _ _ _ _ _ (hpre c)
  refine ⟨_, Cert.KernelIdeal.KValue.run m ρ (fun c => (hr c).1), ?_⟩
  refine (θ_run Cert.ReferenceIdeal.defs _ _).mono (fun _ h c => ⟨(h c).1.trans ?_, (h c).2⟩)
    (Cert.ReferenceIdeal.RValue.run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]
  exact (bridge _ _ _ _ _ _ _ _ (hr c).1 (hr c).2.1 (hr c).2.2).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
